-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128 .f32) (main_arg8 : FVec F S256x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S256x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S256x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S1x128 : Shape := ⟨2, ![1, 128]⟩
abbrev S1x64 : Shape := ⟨2, ![1, 64]⟩
abbrev S128x64 : Shape := ⟨2, ![128, 64]⟩
abbrev S400x10000 : Shape := ⟨2, ![400, 10000]⟩
abbrev S400x128 : Shape := ⟨2, ![400, 128]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩

abbrev nBuf : Space → Nat
  | .hbm => 20
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x64, .f32⟩
  | .hbm, ⟨9, _⟩ => ⟨S64, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x64, .f32⟩
  | .hbm, ⟨14, _⟩ => ⟨S128x64, .f32⟩
  | .hbm, ⟨15, _⟩ => ⟨S128x64, .f32⟩
  | .hbm, ⟨16, _⟩ => ⟨S10000x128, .f32⟩
  | .hbm, ⟨17, _⟩ => ⟨S10000x128, .f32⟩
  | .hbm, ⟨18, _⟩ => ⟨S10000x64, .f32⟩
  | .hbm, ⟨19, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S400x128, .f32⟩
  | .local _ .vmem, ⟨7, _⟩ => ⟨S400x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S400x128, .f32⟩
  | .local _ .vmem, ⟨12, _⟩ => ⟨S400x128, .f32⟩
  | .local _ .vmem, ⟨13, _⟩ => ⟨S400x10000, .f32⟩
  | .local _ .vmem, ⟨14, _⟩ => ⟨S400x10000, .f32⟩
  | .local _ .vmem, ⟨15, _⟩ => ⟨S10000x128, .f32⟩
  | .local _ .vmem, ⟨16, _⟩ => ⟨S400x128, .f32⟩
  | .local _ .vmem, ⟨17, _⟩ => ⟨S400x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S128x64, .f32⟩
  | .local _ .vmem, ⟨22, _⟩ => ⟨S400x64, .f32⟩
  | .local _ .vmem, ⟨23, _⟩ => ⟨S400x64, .f32⟩
  | .local _ .vmem, ⟨24, _⟩ => ⟨S400x10000, .f32⟩
  | .local _ .vmem, ⟨25, _⟩ => ⟨S400x10000, .f32⟩
  | .local _ .vmem, ⟨26, _⟩ => ⟨S10000x64, .f32⟩
  | .local _ .vmem, ⟨27, _⟩ => ⟨S1x64, .f32⟩
  | .local _ .vmem, ⟨28, _⟩ => ⟨S400x64, .f32⟩
  | .local _ .vmem, ⟨29, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S128_S1x128 : S128.ShapeCasts S1x128
  shapeCasts_S64_S1x64 : S64.ShapeCasts S1x64
  slices_S256x64_S128x64_0_0 : S256x64.Slices ![0, 0] S128x64
  slices_S256x64_S128x64_128_0 : S256x64.Slices ![128, 0] S128x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S400x128_S400x128 : S400x128.ShapeCasts S400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x64.size a ≤ S10000x64.size a
  hwx2_7 : ∀ i : grid2.Coords, EltTy.bits .f32 = 32 ∨ (Rect.block (s := S10000x64) S400x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x64.size a ≤ S10000x64.size a
  hwx3_3 : ∀ i : grid3.Coords, EltTy.bits .f32 = 32 ∨ (Rect.block (s := S10000x64) S400x64.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg4) false false (stage0_1 0) (sem0_1 0) (Memref.isWhole_whole _) (hstage0_1 0)

abbrev win0_2 : Pipeline.Window sig grid0 :=
  Pipeline.Window.whole (Memref.whole main_v6) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S400x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S400x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S1x128 : Shape := ⟨2, ![1, 128]⟩
abbrev S_ : Shape := ⟨0, ![]⟩
abbrev S10000x256 : Shape := ⟨2, ![10000, 256]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 53
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x64, .f32⟩
  | .hbm, ⟨9, _⟩ => ⟨S64, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x256, .f32⟩
  | .hbm, ⟨33, _⟩ => ⟨S10000x64, .f32⟩
  | .hbm, ⟨34, _⟩ => ⟨S10000x64, .f32⟩
  | .hbm, ⟨35, _⟩ => ⟨S1x64, .f32⟩
  | .hbm, ⟨36, _⟩ => ⟨S10000x64, .f32⟩
  | .hbm, ⟨37, _⟩ => ⟨S10000x64, .f32⟩
  | .hbm, ⟨38, _⟩ => ⟨S_, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S10000x1, .f32⟩
  | .hbm, ⟨44, _⟩ => ⟨S10000x64, .f32⟩
  | .hbm, ⟨45, _⟩ => ⟨S10000x64, .f32⟩
  | .hbm, ⟨46, _⟩ => ⟨S10000x64, .f32⟩
  | .hbm, ⟨47, _⟩ => ⟨S_, .f32⟩
  | .hbm, ⟨48, _⟩ => ⟨S10000, .f32⟩
  | .hbm, ⟨49, _⟩ => ⟨S10000x1, .f32⟩
  | .hbm, ⟨50, _⟩ => ⟨S10000x1, .f32⟩
  | .hbm, ⟨51, _⟩ => ⟨S10000x64, .f32⟩
  | .hbm, ⟨52, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call2_cst : Ref sig .tc := ⟨.hbm, 38, rfl⟩
abbrev main_call2_v0 : Ref sig .tc := ⟨.hbm, 39, rfl⟩
abbrev main_call2_cst_0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_cst_1 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_v24 : Ref sig .tc := ⟨.hbm, 52, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K.R0.lean ====
/-
  The first pallas_call of the kernel, at the buffer contents `V` found when it is entered: no grid, one point. The
  body reads the whole of `x` and of `W1` and stores their product `t1 = x · W1` as the whole result. Here: each
  window's block at the point, what the body leaves in the result's staging buffer, the body's triple, the pipeline's
  proof data and the body obligation.
-/
import proofs.«166610_g58128087384883_cont_9to1_m_409_2_alg».proof.Proof.Gen.Kernel.Launch
import proofs.«166610_g58128087384883_cont_9to1_m_409_2_alg».proof.Proof.Gen.Kernel.Skeleton
import proofs.«166610_g58128087384883_cont_9to1_m_409_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a block whose
    index has not moved is still in place), for any proof data whose array is `V`'s and whose body leaves the block
    where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a block whose
    index has not moved is still in place), for any proof data whose array is `V`'s and whose body leaves the block
    where it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_S10000x128 : Rect S10000x128 := Rect.unit (s := S10000x128) ![0, 0] S10000x128.size inb_S10000x128_S10000x128_0_0
abbrev r0_S128x128 : Rect S128x128 := Rect.unit (s := S128x128) ![0, 0] S128x128.size inb_S128x128_S128x128_0_0

/-! ## What the body leaves in the result's buffer -/

/-- The result's staging buffer after the body, from the input blocks: its one store, of the body's arithmetic. -/
def out0_2 (x0 : Vec F S10000x128 .f32) (x1 : Vec F S128x128 .f32) : Vec F S10000x128 .f32 :=
  View.canon [⟨r0_S10000x128, k0_pay1 (View.ld x0 r0_S10000x128) (View.ld x1 r0_S128x128)⟩]

/-- The one store covers the buffer. -/
theorem cover0_2 (p0 : Vec F S10000x128 .f32) (y : S10000x128.Idx) :
    ∃ pc ∈ ([⟨r0_S10000x128, p0⟩] : List (View.Piece (Elt F) S10000x128 .f32)), y ∈ pc.1.set :=
  View.cover_of_tiled [⟨r0_S10000x128, p0⟩] S10000x128.size (by rfl) y

/-! ## The body's triple -/

set_option maxHeartbeats 1000000 in
/-- The body on whole staging buffers, the inputs' at contents `xW` and the result's at anything, runs to the
    continuation holding the inputs' as they were and the result's at `out0_2` of the inputs'. -/
theorem sound_kernel0 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__pre_kernel arg0 harg0 arg1 harg1 arg2 harg2) K := by
  simp only [cc0__pre_kernel_eq_skeleton]; unfold cc0__pre_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this call on core `c`: the arrays as the call finds them; after the body at point `t` each
    input's buffer at its block and the result's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.R1.lean ====
/-
  The second pallas_call of the kernel (the first graph-convolution layer), at the buffer contents `V` found when it is
  entered: one grid point per block of 400 rows of the adjacency matrix. At point `t` the body reads rows
  400·t … 400·t+399 of `adj` and of `x`, the whole of `t1 = x · W1` and of `W`, and the two bias rows, and stores
  `relu (adj_blk · t1 + b1) + (x_blk · W + b)` as rows 400·t … 400·t+399 of the result. Here: each window's block at a
  point, what the body leaves in the result's staging buffer, the body's triple, the pipeline's proof data and the
  body obligation at every point.
-/
import proofs.«166610_g58128087384883_cont_9to1_m_409_2_alg».proof.Proof.Gen.Kernel.Launch
import proofs.«166610_g58128087384883_cont_9to1_m_409_2_alg».proof.Proof.Gen.Kernel.Skeleton
import proofs.«166610_g58128087384883_cont_9to1_m_409_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a block whose
    index has not moved is still in place), for any proof data whose array is `V`'s and whose body leaves the block
    where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a block whose
    index has not moved is still in place), for any proof data whose array is `V`'s and whose body leaves the block
    where it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a block whose
    index has not moved is still in place), for any proof data whose array is `V`'s and whose body leaves the block
    where it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (a block whose
    index has not moved is still in place), for any proof data whose array is `V`'s and whose body leaves the block
    where it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (a block whose
    index has not moved is still in place), for any proof data whose array is `V`'s and whose body leaves the block
    where it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (a block whose
    index has not moved is still in place), for any proof data whose array is `V`'s and whose body leaves the block
    where it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_S400x10000 : Rect S400x10000 := Rect.unit (s := S400x10000) ![0, 0] S400x10000.size inb_S400x10000_S400x10000_0_0
abbrev r1_S10000x128 : Rect S10000x128 := Rect.unit (s := S10000x128) ![0, 0] S10000x128.size inb_S10000x128_S10000x128_0_0
abbrev r1_S400x128 : Rect S400x128 := Rect.unit (s := S400x128) ![0, 0] S400x128.size inb_S400x128_S400x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-! ## What the body leaves in the result's buffer -/

/-- The result's staging buffer after the body, from the input blocks: its one store, of the body's arithmetic. -/
def out1_6 (x0 : Vec F S400x10000 .f32) (x1 : Vec F S10000x128 .f32) (x2 : Vec F S400x128 .f32) (x3 : Vec F S128x128 .f32) (x4 : Vec F S1x128 .f32) (x5 : Vec F S1x128 .f32) : Vec F S400x128 .f32 :=
  View.canon [⟨r1_S400x128, k1_pay1 (View.ld x0 r1_S400x10000) (View.ld x1 r1_S10000x128) (View.ld x2 r1_S400x128) (View.ld x3 r1_S128x128) (View.ld x4 r1_S1x128) (View.ld x5 r1_S1x128)⟩]

/-- The one store covers the buffer. -/
theorem cover1_6 (p0 : Vec F S400x128 .f32) (y : S400x128.Idx) :
    ∃ pc ∈ ([⟨r1_S400x128, p0⟩] : List (View.Piece (Elt F) S400x128 .f32)), y ∈ pc.1.set :=
  View.cover_of_tiled [⟨r1_S400x128, p0⟩] S400x128.size (by rfl) y

/-! ## The body's triple -/

set_option maxHeartbeats 1000000 in
/-- The body on whole staging buffers, the inputs' at contents `xW` and the result's at anything, runs to the
    continuation holding the inputs' as they were and the result's at `out1_6` of the inputs'. -/
theorem sound_kernel1 (c : Dev nD) (E : Set ℕ) (i : grid1.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole)
    (x0 : Vec F S400x10000 .f32) (x1 : Vec F S10000x128 .f32) (x2 : Vec F S400x128 .f32) (x3 : Vec F S128x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__pass1_kernel i arg1 harg1 arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this call on core `c`: the arrays as the call finds them; after the body at point `t` each
    input's buffer at its block and the result's at `out1_6` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.R2.lean ====
/-
  The third pallas_call of the kernel (the second graph-convolution layer and the product with the last layer's
  stacked weights), at the buffer contents `V` found when it is entered: one grid point per block of 400 rows of the
  adjacency matrix. The first layer's result `h1` is handed to the call twice, whole (window 1) and in blocks of 400
  rows (window 2): the two windows read ONE array, which the proof data deals between them in two halves. At point
  `t` the body reads rows 400·t … 400·t+399 of `adj` and of `h1`, the whole of `h1`, `W2`, the bias row and the two
  halves `Wa`, `Wb` of the last weights, forms `h2 = relu ((adj_blk · h1) · W2 + b2) + h1_blk` and stores
  `h2 · Wa + h1_blk · Wb` as rows 400·t … 400·t+399 of the result. Here: each window's block at a point, what the body
  leaves in the result's staging buffer, the body's triple, the pipeline's proof data and the body obligation at
  every point.
-/
import proofs.«166610_g58128087384883_cont_9to1_m_409_2_alg».proof.Proof.Gen.Kernel.Launch
import proofs.«166610_g58128087384883_cont_9to1_m_409_2_alg».proof.Proof.Gen.Kernel.Skeleton
import proofs.«166610_g58128087384883_cont_9to1_m_409_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a block whose
    index has not moved is still in place), for any proof data whose array is `V`'s and whose body leaves the block
    where it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a block whose
    index has not moved is still in place), for any proof data whose array is `V`'s and whose body leaves the block
    where it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a block whose
    index has not moved is still in place), for any proof data whose array is `V`'s and whose body leaves the block
    where it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a block whose
    index has not moved is still in place), for any proof data whose array is `V`'s and whose body leaves the block
    where it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a block whose
    index has not moved is still in place), for any proof data whose array is `V`'s and whose body leaves the block
    where it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (a block whose
    index has not moved is still in place), for any proof data whose array is `V`'s and whose body leaves the block
    where it found it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (a block whose
    index has not moved is still in place), for any proof data whose array is `V`'s and whose body leaves the block
    where it found it. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_S400x10000 : Rect S400x10000 := Rect.unit (s := S400x10000) ![0, 0] S400x10000.size inb_S400x10000_S400x10000_0_0
abbrev r2_S10000x128 : Rect S10000x128 := Rect.unit (s := S10000x128) ![0, 0] S10000x128.size inb_S10000x128_S10000x128_0_0
abbrev r2_S400x128 : Rect S400x128 := Rect.unit (s := S400x128) ![0, 0] S400x128.size inb_S400x128_S400x128_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0
abbrev r2_S128x64 : Rect S128x64 := Rect.unit (s := S128x64) ![0, 0] S128x64.size inb_S128x64_S128x64_0_0
abbrev r2_S400x64 : Rect S400x64 := Rect.unit (s := S400x64) ![0, 0] S400x64.size inb_S400x64_S400x64_0_0

/-! ## What the body leaves in the result's buffer -/

/-- The result's staging buffer after the body, from the input blocks: its one store, of the body's arithmetic. -/
def out2_7 (x0 : Vec F S400x10000 .f32) (x1 : Vec F S10000x128 .f32) (x2 : Vec F S400x128 .f32) (x3 : Vec F S128x128 .f32) (x4 : Vec F S1x128 .f32) (x5 : Vec F S128x64 .f32) (x6 : Vec F S128x64 .f32) : Vec F S400x64 .f32 :=
  View.canon [⟨r2_S400x64, k2_pay1 (View.ld x0 r2_S400x10000) (View.ld x1 r2_S10000x128) (View.ld x3 r2_S128x128) (View.ld x4 r2_S1x128) (View.ld x2 r2_S400x128) (View.ld x5 r2_S128x64) (View.ld x2 r2_S400x128) (View.ld x6 r2_S128x64)⟩]

/-- The one store covers the buffer. -/
theorem cover2_7 (p0 : Vec F S400x64 .f32) (y : S400x64.Idx) :
    ∃ pc ∈ ([⟨r2_S400x64, p0⟩] : List (View.Piece (Elt F) S400x64 .f32)), y ∈ pc.1.set :=
  View.cover_of_tiled [⟨r2_S400x64, p0⟩] S400x64.size (by rfl) y

/-! ## The body's triple -/

set_option maxHeartbeats 1000000 in
/-- The body on whole staging buffers, the inputs' at contents `xW` and the result's at anything, runs to the
    continuation holding the inputs' as they were and the result's at `out2_7` of the inputs'. -/
theorem sound_kernel2 (c : Dev nD) (E : Set ℕ) (i : grid2.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S400x64 .f32) (harg8 : arg8.IsWhole)
    (x0 : Vec F S400x10000 .f32) (x1 : Vec F S10000x128 .f32) (x2 : Vec F S400x128 .f32) (x3 : Vec F S128x128 .f32) (x4 : Vec F S1x128 .f32) (x5 : Vec F S128x64 .f32) (x6 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__pass2_kernel i arg1 harg1 arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this call on core `c`: the arrays as the call finds them; after the body at point `t` each
    input's buffer at its block and the result's at `out2_7` of the input blocks; the invariant is the scoped
    rest and the generator register, untouched; nothing owed; the array two input windows read is dealt between them in two halves, every other array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨1, _⟩ => fullShare.left
    | ⟨2, _⟩ => fullShare.right
    | _ => fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.R2Arr.lean ====
/-
  The third pallas_call hands ONE array, the first layer's result `h1`, to two input windows: window 1 reads it
  whole, window 2 in blocks of 400 rows. The windows' arrays are therefore not pairwise distinct, and the core's
  unscoped buffers split into the call's arrays only after the shared buffer's points-to is dealt in two halves
  (the left half of the full share to window 1, the right half to window 2). Here: the distinct buffers behind
  the windows' arrays one by one, the call's arrays one by one, and the two passages between the core's unscoped
  buffers and the call's arrays beside the unscoped rest — at the call's entry (the shared buffer split) and at
  its exit (the two halves, at one contents, joined).
-/
import proofs.«166610_g58128087384883_cont_9to1_m_409_2_alg».proof.Proof.K.R2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The distinct buffers behind the windows' arrays -/

/-- The windows' arrays are seven buffers: `h1` is behind windows 1 and 2. -/
theorem arrRefs2 : Finset.univ.image (Pipeline.arrRef spec2) = [main_arg1, main_v7, main_arg6, main_v2, main_v4, main_v5, main_v8].toFinset := by decide

/-- The seven buffers, each whole at the full share, one by one. -/
theorem arrBufs2_eq (c : Dev nD) (V₀ : (b : Ref sig .tc) → Buf (Elt F) ((c : Thread nD τ).loc b)) :
    (Pipeline.arrBufs (Ix := Unit) (Name := ℕ) (U := UR sig nD τ) (Lvl := ℕ) spec2 c V₀ : sProp 𝕄)
      = iprop((((c : Thread nD τ).loc main_arg1) ↦{fullShare} V₀ main_arg1) ∗ (((c : Thread nD τ).loc main_v7) ↦{fullShare} V₀ main_v7)
        ∗ (((c : Thread nD τ).loc main_arg6) ↦{fullShare} V₀ main_arg6) ∗ (((c : Thread nD τ).loc main_v2) ↦{fullShare} V₀ main_v2)
        ∗ (((c : Thread nD τ).loc main_v4) ↦{fullShare} V₀ main_v4) ∗ (((c : Thread nD τ).loc main_v5) ↦{fullShare} V₀ main_v5)
        ∗ (((c : Thread nD τ).loc main_v8) ↦{fullShare} V₀ main_v8)) := by
  unfold Pipeline.arrBufs
  exact bigSep_eq_bigSepL_of_eq _ arrRefs2 (by decide) _

/-! ## The call's arrays, one by one -/

/-- The call's arrays at contents `G`: every array whole, `h1` at the left half of the full share for window 1 and
    at the right half for window 2, every other array at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v7) ↦{fullShare.left} G 1)
        ∗ (((c : Thread nD τ).loc main_v7) ↦{fullShare.right} G 2) ∗ (((c : Thread nD τ).loc main_arg6) ↦{fullShare} G 3)
        ∗ (((c : Thread nD τ).loc main_v2) ↦{fullShare} G 4) ∗ (((c : Thread nD τ).loc main_v4) ↦{fullShare} G 5)
        ∗ (((c : Thread nD τ).loc main_v5) ↦{fullShare} G 6) ∗ (((c : Thread nD τ).loc main_v8) ↦{fullShare} G 7)) := by
  unfold Dat.arrays
  rw [bigSep_W2, (arr_whole2 0).set_eq_univ, (arr_whole2 1).set_eq_univ, (arr_whole2 3).set_eq_univ,
    (arr_whole2 4).set_eq_univ, (arr_whole2 5).set_eq_univ, (arr_whole2 6).set_eq_univ, (arr_whole2 7).set_eq_univ]
  rfl

/-! ## Entry: the shared buffer split -/

/-- ENTRY: the core's unscoped buffers at `V` are the call's arrays at the proof data's entry contents (the array two
    windows read split in two halves) and the unscoped rest. -/
theorem arrays2_of_unscopedBufs (c : Dev nD) :
    (unscopedBufs c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs 2 winFacts₀2.arr_unscoped c (V c)]
  refine sep_mono ?_ .rfl
  rw [show (Pipeline.arrBufs (cfgs 2).spec c (V c) : sProp 𝕄) = Pipeline.arrBufs spec2 c (V c) from rfl, arrBufs2_eq, arrays2_eq]
  iintro ⟨H1, H7, H6, H2, H4, H5, H8⟩
  ihave H7' := (pointsTo_share (PosShare.mem_left_op_right fullShare)).1 $$ H7
  icases H7' with ⟨H7l, H7r⟩
  isplitl [H1]; · iexact H1
  isplitl [H7l]; · iexact H7l
  isplitl [H7r]; · iexact H7r
  isplitl [H6]; · iexact H6
  isplitl [H2]; · iexact H2
  isplitl [H4]; · iexact H4
  isplitl [H5]; · iexact H5
  iexact H8

/-! ## Exit: the two halves joined -/

/-- EXIT: the call's arrays at contents `G` (the two halves of the shared array at ONE contents) and the unscoped
    rest at `V` are the core's unscoped buffers at any `V'` that has the arrays at `G` and agrees with `V` off them. -/
theorem unscopedBufs_of_arrays2 (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V c b) :
    iprop((dat2 V c).arrays G ∗ Pipeline.unscopedRest (Ix := Unit) (Name := ℕ) (U := UR sig nD τ) (Lvl := ℕ) spec2 c (V c))
      ⊢ (unscopedBufs c V' : sProp 𝕄) := by
  rw [Pipeline.unscopedBufs_split₀ cfgs 2 winFacts₀2.arr_unscoped c V']
  refine sep_mono ?_ (Entails.of_eq ?_)
  · rw [show (Pipeline.arrBufs (cfgs 2).spec c V' : sProp 𝕄) = Pipeline.arrBufs spec2 c V' from rfl, arrBufs2_eq, arrays2_eq,
      hG 0, hG 1, hG 2, hG 3, hG 4, hG 5, hG 6, hG 7]
    iintro ⟨H1, H7l, H7r, H6, H2, H4, H5, H8⟩
    ihave H7 := (pointsTo_share (PosShare.mem_left_op_right fullShare)).2 $$ [H7l H7r]
    · isplitl [H7l]; · iexact H7l
      iexact H7r
    isplitl [H1]; · iexact H1
    isplitl [H7]; · iexact H7
    isplitl [H6]; · iexact H6
    isplitl [H2]; · iexact H2
    isplitl [H4]; · iexact H4
    isplitl [H5]; · iexact H5
    iexact H8
  · unfold Pipeline.unscopedRest
    exact bigSep_congr fun b hb => by rw [hrest b (Finset.mem_sdiff.mp hb).2]

end Cert.Kernel.Frame

end
-- ==== Proof.K.R3.lean ====
/-
  The fourth pallas_call of the kernel (the last graph-convolution layer and the log-softmax), at the buffer contents
  `V` found when it is entered: one grid point per block of 400 rows of the adjacency matrix. At point `t` the body
  reads rows 400·t … 400·t+399 of `adj`, the whole of `u` and the bias row, forms `z = adj_blk · u + b3` and stores
  `z - (log (Σ exp (z - m)) + m)`, `m` each row's maximum, as rows 400·t … 400·t+399 of the result. Here: each
  window's block at a point, what the body leaves in the result's staging buffer, the body's triple, the pipeline's
  proof data and the body obligation at every point.
-/
import proofs.«166610_g58128087384883_cont_9to1_m_409_2_alg».proof.Proof.Gen.Kernel.Launch
import proofs.«166610_g58128087384883_cont_9to1_m_409_2_alg».proof.Proof.Gen.Kernel.Skeleton
import proofs.«166610_g58128087384883_cont_9to1_m_409_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a block whose
    index has not moved is still in place), for any proof data whose array is `V`'s and whose body leaves the block
    where it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (a block whose
    index has not moved is still in place), for any proof data whose array is `V`'s and whose body leaves the block
    where it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (a block whose
    index has not moved is still in place), for any proof data whose array is `V`'s and whose body leaves the block
    where it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_S400x10000 : Rect S400x10000 := Rect.unit (s := S400x10000) ![0, 0] S400x10000.size inb_S400x10000_S400x10000_0_0
abbrev r3_S10000x64 : Rect S10000x64 := Rect.unit (s := S10000x64) ![0, 0] S10000x64.size inb_S10000x64_S10000x64_0_0
abbrev r3_S1x64 : Rect S1x64 := Rect.unit (s := S1x64) ![0, 0] S1x64.size inb_S1x64_S1x64_0_0
abbrev r3_S400x64 : Rect S400x64 := Rect.unit (s := S400x64) ![0, 0] S400x64.size inb_S400x64_S400x64_0_0

/-! ## What the body leaves in the result's buffer -/

/-- The result's staging buffer after the body, from the input blocks: its one store, of the body's arithmetic. -/
def out3_3 (x0 : Vec F S400x10000 .f32) (x1 : Vec F S10000x64 .f32) (x2 : Vec F S1x64 .f32) : Vec F S400x64 .f32 :=
  View.canon [⟨r3_S400x64, k3_pay1 (View.ld x0 r3_S400x10000) (View.ld x1 r3_S10000x64) (View.ld x2 r3_S1x64)⟩]

/-- The one store covers the buffer. -/
theorem cover3_3 (p0 : Vec F S400x64 .f32) (y : S400x64.Idx) :
    ∃ pc ∈ ([⟨r3_S400x64, p0⟩] : List (View.Piece (Elt F) S400x64 .f32)), y ∈ pc.1.set :=
  View.cover_of_tiled [⟨r3_S400x64, p0⟩] S400x64.size (by rfl) y

/-! ## The body's triple -/

set_option maxHeartbeats 1000000 in
/-- The body on whole staging buffers, the inputs' at contents `xW` and the result's at anything, runs to the
    continuation holding the inputs' as they were and the result's at `out3_3` of the inputs'. -/
theorem sound_kernel3 (c : Dev nD) (E : Set ℕ) (i : grid3.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S400x64 .f32) (harg4 : arg4.IsWhole)
    (x0 : Vec F S400x10000 .f32) (x1 : Vec F S10000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__pass3_kernel i arg1 harg1 arg2 harg2 arg3 harg3 arg4 harg4) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this call on core `c`: the arrays as the call finds them; after the body at point `t` each
    input's buffer at its block and the result's at `out3_3` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the contents at entry. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Run.lean ====
/-
  The kernel program's run: six host operations (four bias reshapes, the two halves of the last weights), then the four
  pallas_calls in order. The buffer contents at each boundary are a fold from the launch memory: a host stretch
  applies its operations; a call leaves each of its arrays at what its write-backs make of it, every other buffer as
  it was. Each call is a segment entered from "every unscoped buffer at the boundary's contents, the generator
  register at some state, nothing owed" and left at the next boundary's; the launch over the segments gives: every
  weakly fair execution terminates, nothing faults, and every final memory holds every unscoped buffer at the last
  boundary's contents — from which the arguments are read back unchanged and the result at what the last call left.
-/
import proofs.«166610_g58128087384883_cont_9to1_m_409_2_alg».proof.Proof.K.R0
import proofs.«166610_g58128087384883_cont_9to1_m_409_2_alg».proof.Proof.K.R1
import proofs.«166610_g58128087384883_cont_9to1_m_409_2_alg».proof.Proof.K.R2
import proofs.«166610_g58128087384883_cont_9to1_m_409_2_alg».proof.Proof.K.R2Arr
import proofs.«166610_g58128087384883_cont_9to1_m_409_2_alg».proof.Proof.K.R3

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (call 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At call 0's exit: its arrays at what the pipeline leaves (the inputs as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline leaves (the inputs as entered, the result's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its result `main_v8` at what the write-backs leave, every other buffer as entered (its other
    arrays are input windows', two of them on one array). -/
def W4 (c : Dev nD) : Valuation τ sig (Elt F) :=
  Function.update (W3 m ρ c) (Proc.devRef .tc main_v8) ((dat2 (V3 m ρ) c).arrAt 7 cfg2.N)
/-- The same read at the TensorCore's references. -/
abbrev V4 : (c : Dev nD) → (b : Ref sig .tc) → Buf (Elt F) ((c : Thread nD τ).loc b) := fun c b => W4 m ρ c b
theorem W4_out (c : Dev nD) : W4 m ρ c (Proc.devRef .tc main_v8) = (dat2 (V3 m ρ) c).arrAt 7 cfg2.N := by
  unfold W4; exact Function.update_self _ _ _
theorem W4_of_ne (c : Dev nD) (b : Ref sig .tc) (hb : b ≠ main_v8) :
    W4 m ρ c (Proc.devRef .tc b) = W3 m ρ c (Proc.devRef .tc b) := by
  unfold W4; exact Function.update_of_ne (StableHlo.devRef_ne_of_ne hb) _ _
/-- An input window's array is held as entered through the whole call. -/
theorem arrAt2_in (c : Dev nD) (w : Fin cfg2.W) (hw : (cfg2.win w).isOut = false) (hne : Pipeline.arrRef spec2 w ≠ main_v8) :
    (dat2 (V3 m ρ) c).arrAt w cfg2.N = V4 m ρ c (Pipeline.arrRef spec2 w) :=
  (((dat2 (V3 m ρ) c).arrAt_in w hw _).trans (A_eq2 (V3 m ρ) c w)).trans (W4_of_ne m ρ c _ hne).symm
theorem hF2 (c : Dev nD) (w : Fin cfg2.W) : (dat2 (V3 m ρ) c).arrAt w cfg2.N = V4 m ρ c (Pipeline.arrRef spec2 w) :=
  match w with
  | ⟨0, _⟩ => arrAt2_in m ρ c 0 rfl (by decide)
  | ⟨1, _⟩ => arrAt2_in m ρ c 1 rfl (by decide)
  | ⟨2, _⟩ => arrAt2_in m ρ c 2 rfl (by decide)
  | ⟨3, _⟩ => arrAt2_in m ρ c 3 rfl (by decide)
  | ⟨4, _⟩ => arrAt2_in m ρ c 4 rfl (by decide)
  | ⟨5, _⟩ => arrAt2_in m ρ c 5 rfl (by decide)
  | ⟨6, _⟩ => arrAt2_in m ρ c 6 rfl (by decide)
  | ⟨7, _⟩ => (W4_out m ρ c).symm
theorem hrest2 (c : Dev nD) : ∀ b, b ∉ Finset.univ.image (Pipeline.arrRef spec2) → V4 m ρ c b = V3 m ρ c b :=
  fun b hb => W4_of_ne m ρ c b fun e => hb (Finset.mem_image.mpr ⟨7, Finset.mem_univ _, e.symm⟩)

/-- At call 3's exit: its arrays at what the pipeline leaves (the inputs as entered, the result's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ## The proof data family and the thread state -/

/-- No pallas_call has a prefetched table. -/
abbrev adm : (p : Fin 4) → (pcfgs (F := F) p).Adm := fun p => (cfgs p).toPCfg_adm
/-- Every call's proof data, each at its entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Call 0 as a segment of the run: entered from every unscoped buffer at `W1`, left at `W2`. Its arrays are split
    out of the unscoped buffers at entry and put back, at what the write-backs leave, at the exit; the generator
    register goes into the call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the run: entered from every unscoped buffer at `W2`, left at `W3`. Its arrays are split
    out of the unscoped buffers at entry and put back, at what the write-backs leave, at the exit; the generator
    register goes into the call's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the run: entered from every unscoped buffer at `W3`, left at `W4`. Its arrays are split
    out of the unscoped buffers at entry and put back, at what the write-backs leave, at the exit; the generator
    register goes into the call's invariant and comes out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit : (unscopedBufs c (V3 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (V3 m ρ c)) :=
      arrays2_of_unscopedBufs (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V3 m ρ c))
        ⊢ (unscopedBufs c (V4 m ρ c) : sProp 𝕄) :=
      unscopedBufs_of_arrays2 (V3 m ρ) c (V4 m ρ c) ((dat2 (V3 m ρ) c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of the run: entered from every unscoped buffer at `W4`, left at `W5`. Its arrays are split
    out of the unscoped buffers at entry and put back, at what the write-backs leave, at the exit; the generator
    register goes into the call's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The segments in order: the host stretch, then the four calls. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the boundary contents -/

section Fold

variable (m : (ℓ : Loc nD τ sig) → Buf (Elt F) ℓ) (ρ : Dev nD → PrngReg)

/-- A buffer no host operation writes is as launched when the first call is entered. -/
theorem W1_of_ne (c : Dev nD) (b : Ref sig .tc) (h0 : b ≠ main_v0) (h1 : b ≠ main_v1) (h2 : b ≠ main_v2) (h3 : b ≠ main_v3)
    (h4 : b ≠ main_v4) (h5 : b ≠ main_v5) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- Through call 0 every buffer but its result `main_v6` is as entered: an input window's array is held unchanged, and
    a buffer that is no window's array is not touched. -/
theorem W2_keep (c : Dev nD) (b : Ref sig .tc) (hb : b ≠ main_v6) :
    W2 m ρ c (Proc.devRef .tc b) = W1 m ρ c (Proc.devRef .tc b) := by
  by_cases h : ∃ w, Pipeline.arrRef spec0 w = b
  · obtain ⟨w, rfl⟩ := h
    have hw : (cfg0.win w).isOut = false :=
      (by decide : ∀ w : Fin 3, Pipeline.arrRef spec0 w ≠ main_v6 → (cfg0.win w).isOut = false) w hb
    exact (W2_arr m ρ c w).trans (((dat0 (V1 m ρ) c).arrAt_in w hw _).trans (A_eq0 (V1 m ρ) c w))
  · exact W2_of_ne m ρ c b (fun w e => h ⟨w, e⟩)

/-- Through call 1 every buffer but its result `main_v7` is as entered: an input window's array is held unchanged, and
    a buffer that is no window's array is not touched. -/
theorem W3_keep (c : Dev nD) (b : Ref sig .tc) (hb : b ≠ main_v7) :
    W3 m ρ c (Proc.devRef .tc b) = W2 m ρ c (Proc.devRef .tc b) := by
  by_cases h : ∃ w, Pipeline.arrRef spec1 w = b
  · obtain ⟨w, rfl⟩ := h
    have hw : (cfg1.win w).isOut = false :=
      (by decide : ∀ w : Fin 7, Pipeline.arrRef spec1 w ≠ main_v7 → (cfg1.win w).isOut = false) w hb
    exact (W3_arr m ρ c w).trans (((dat1 (V2 m ρ) c).arrAt_in w hw _).trans (A_eq1 (V2 m ρ) c w))
  · exact W3_of_ne m ρ c b (fun w e => h ⟨w, e⟩)

/-- Through call 3 every buffer but its result `main_v9` is as entered: an input window's array is held unchanged, and
    a buffer that is no window's array is not touched. -/
theorem W5_keep (c : Dev nD) (b : Ref sig .tc) (hb : b ≠ main_v9) :
    W5 m ρ c (Proc.devRef .tc b) = W4 m ρ c (Proc.devRef .tc b) := by
  by_cases h : ∃ w, Pipeline.arrRef spec3 w = b
  · obtain ⟨w, rfl⟩ := h
    have hw : (cfg3.win w).isOut = false :=
      (by decide : ∀ w : Fin 4, Pipeline.arrRef spec3 w ≠ main_v9 → (cfg3.win w).isOut = false) w hb
    exact (W5_arr m ρ c w).trans (((dat3 (V4 m ρ) c).arrAt_in w hw _).trans (A_eq3 (V4 m ρ) c w))
  · exact W5_of_ne m ρ c b (fun w e => h ⟨w, e⟩)

/-- An argument array is as launched at the last boundary: no host operation writes it and no call's result is it. -/
theorem W5_arg (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) (h9 : b ≠ main_v9) :
    W5 m ρ c (Proc.devRef .tc b) = m ((c : Thread nD τ).loc b) :=
  (W5_keep m ρ c b h9).trans <| (W4_of_ne m ρ c b h8).trans <| (W3_keep m ρ c b h7).trans <| (W2_keep m ρ c b h6).trans <|
    (W1_of_ne m ρ c b h0 h1 h2 h3 h4 h5).trans rfl

/-- The result array at the last boundary is what the last call's write-backs leave. -/
theorem W5_result (c : Dev nD) : W5 m ρ c (Proc.devRef .tc main_v9) = (dat3 (V4 m ρ) c).arrAt 3 cfg3.N := W5_arr m ρ c 3

end Fold

/-! ## The run, with the result named -/

/-- From any memory with zero counters every weakly fair execution of the program terminates, nothing faulting; in
    every final memory the result buffer holds what the last call's write-backs leave and every argument array is as
    launched. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v9) = (dat3 (V4 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v9 (by decide))).trans (W5_result m ρ c),
      (h c _ (mem_uc main_arg0 (by decide))).trans (W5_arg m ρ c main_arg0 (by decide) (by decide) (by decide) (by decide) (by decide) (by decide) (by decide) (by decide) (by decide) (by decide)),
      (h c _ (mem_uc main_arg1 (by decide))).trans (W5_arg m ρ c main_arg1 (by decide) (by decide) (by decide) (by decide) (by decide) (by decide) (by decide) (by decide) (by decide) (by decide)),
      (h c _ (mem_uc main_arg2 (by decide))).trans (W5_arg m ρ c main_arg2 (by decide) (by decide) (by decide) (by decide) (by decide) (by decide) (by decide) (by decide) (by decide) (by decide)),
      (h c _ (mem_uc main_arg3 (by decide))).trans (W5_arg m ρ c main_arg3 (by decide) (by decide) (by decide) (by decide) (by decide) (by decide) (by decide) (by decide) (by decide) (by decide)),
      (h c _ (mem_uc main_arg4 (by decide))).trans (W5_arg m ρ c main_arg4 (by decide) (by decide) (by decide) (by decide) (by decide) (by decide) (by decide) (by decide) (by decide) (by decide)),
      (h c _ (mem_uc main_arg5 (by decide))).trans (W5_arg m ρ c main_arg5 (by decide) (by decide) (by decide) (by decide) (by decide) (by decide) (by decide) (by decide) (by decide) (by decide)),
      (h c _ (mem_uc main_arg6 (by decide))).trans (W5_arg m ρ c main_arg6 (by decide) (by decide) (by decide) (by decide) (by decide) (by decide) (by decide) (by decide) (by decide) (by decide)),
      (h c _ (mem_uc main_arg7 (by decide))).trans (W5_arg m ρ c main_arg7 (by decide) (by decide) (by decide) (by decide) (by decide) (by decide) (by decide) (by decide) (by decide) (by decide)),
      (h c _ (mem_uc main_arg8 (by decide))).trans (W5_arg m ρ c main_arg8 (by decide) (by decide) (by decide) (by decide) (by decide) (by decide) (by decide) (by decide) (by decide) (by decide)),
      (h c _ (mem_uc main_arg9 (by decide))).trans (W5_arg m ρ c main_arg9 (by decide) (by decide) (by decide) (by decide) (by decide) (by decide) (by decide) (by decide) (by decide) (by decide))⟩)
    (run_all m ρ)

end Cert.Kernel.Frame

end
-- ==== Proof.KI.R0.lean ====
/-
  The first pallas_call of the kernel, at the buffer contents `V` found when it is entered: no grid, one point. The
  body reads the whole of `x` and of `W1` and stores their product `t1 = x · W1` as the whole result. Here: each
  window's block at the point, what the body leaves in the result's staging buffer, the body's triple, the pipeline's
  proof data and the body obligation.
-/
import proofs.«166610_g58128087384883_cont_9to1_m_409_2_alg».proof.Proof.Gen.KernelIdeal.Launch
import proofs.«166610_g58128087384883_cont_9to1_m_409_2_alg».proof.Proof.Gen.KernelIdeal.Skeleton
import proofs.«166610_g58128087384883_cont_9to1_m_409_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a block whose
    index has not moved is still in place), for any proof data whose array is `V`'s and whose body leaves the block
    where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a block whose
    index has not moved is still in place), for any proof data whose array is `V`'s and whose body leaves the block
    where it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_S10000x128 : Rect S10000x128 := Rect.unit (s := S10000x128) ![0, 0] S10000x128.size inb_S10000x128_S10000x128_0_0
abbrev r0_S128x128 : Rect S128x128 := Rect.unit (s := S128x128) ![0, 0] S128x128.size inb_S128x128_S128x128_0_0

/-! ## What the body leaves in the result's buffer -/

/-- The result's staging buffer after the body, from the input blocks: its one store, of the body's arithmetic. -/
def out0_2 (x0 : Vec F S10000x128 .f32) (x1 : Vec F S128x128 .f32) : Vec F S10000x128 .f32 :=
  View.canon [⟨r0_S10000x128, k0_pay1 (View.ld x0 r0_S10000x128) (View.ld x1 r0_S128x128)⟩]

/-- The one store covers the buffer. -/
theorem cover0_2 (p0 : Vec F S10000x128 .f32) (y : S10000x128.Idx) :
    ∃ pc ∈ ([⟨r0_S10000x128, p0⟩] : List (View.Piece (Elt F) S10000x128 .f32)), y ∈ pc.1.set :=
  View.cover_of_tiled [⟨r0_S10000x128, p0⟩] S10000x128.size (by rfl) y

/-! ## The body's triple -/

set_option maxHeartbeats 1000000 in
/-- The body on whole staging buffers, the inputs' at contents `xW` and the result's at anything, runs to the
    continuation holding the inputs' as they were and the result's at `out0_2` of the inputs'. -/
theorem sound_kernel0 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__pre_kernel arg0 harg0 arg1 harg1 arg2 harg2) K := by
  simp only [cc0__pre_kernel_eq_skeleton]; unfold cc0__pre_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this call on core `c`: the arrays as the call finds them; after the body at point `t` each
    input's buffer at its block and the result's at `out0_2` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.R1.lean ====
/-
  The second pallas_call of the kernel (the first graph-convolution layer), at the buffer contents `V` found when it is
  entered: one grid point per block of 400 rows of the adjacency matrix. At point `t` the body reads rows
  400·t … 400·t+399 of `adj` and of `x`, the whole of `t1 = x · W1` and of `W`, and the two bias rows, and stores
  `relu (adj_blk · t1 + b1) + (x_blk · W + b)` as rows 400·t … 400·t+399 of the result. Here: each window's block at a
  point, what the body leaves in the result's staging buffer, the body's triple, the pipeline's proof data and the
  body obligation at every point.
-/
import proofs.«166610_g58128087384883_cont_9to1_m_409_2_alg».proof.Proof.Gen.KernelIdeal.Launch
import proofs.«166610_g58128087384883_cont_9to1_m_409_2_alg».proof.Proof.Gen.KernelIdeal.Skeleton
import proofs.«166610_g58128087384883_cont_9to1_m_409_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a block whose
    index has not moved is still in place), for any proof data whose array is `V`'s and whose body leaves the block
    where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a block whose
    index has not moved is still in place), for any proof data whose array is `V`'s and whose body leaves the block
    where it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a block whose
    index has not moved is still in place), for any proof data whose array is `V`'s and whose body leaves the block
    where it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (a block whose
    index has not moved is still in place), for any proof data whose array is `V`'s and whose body leaves the block
    where it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (a block whose
    index has not moved is still in place), for any proof data whose array is `V`'s and whose body leaves the block
    where it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (a block whose
    index has not moved is still in place), for any proof data whose array is `V`'s and whose body leaves the block
    where it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_S400x10000 : Rect S400x10000 := Rect.unit (s := S400x10000) ![0, 0] S400x10000.size inb_S400x10000_S400x10000_0_0
abbrev r1_S10000x128 : Rect S10000x128 := Rect.unit (s := S10000x128) ![0, 0] S10000x128.size inb_S10000x128_S10000x128_0_0
abbrev r1_S400x128 : Rect S400x128 := Rect.unit (s := S400x128) ![0, 0] S400x128.size inb_S400x128_S400x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-! ## What the body leaves in the result's buffer -/

/-- The result's staging buffer after the body, from the input blocks: its one store, of the body's arithmetic. -/
def out1_6 (x0 : Vec F S400x10000 .f32) (x1 : Vec F S10000x128 .f32) (x2 : Vec F S400x128 .f32) (x3 : Vec F S128x128 .f32) (x4 : Vec F S1x128 .f32) (x5 : Vec F S1x128 .f32) : Vec F S400x128 .f32 :=
  View.canon [⟨r1_S400x128, k1_pay1 (View.ld x0 r1_S400x10000) (View.ld x1 r1_S10000x128) (View.ld x2 r1_S400x128) (View.ld x3 r1_S128x128) (View.ld x4 r1_S1x128) (View.ld x5 r1_S1x128)⟩]

/-- The one store covers the buffer. -/
theorem cover1_6 (p0 : Vec F S400x128 .f32) (y : S400x128.Idx) :
    ∃ pc ∈ ([⟨r1_S400x128, p0⟩] : List (View.Piece (Elt F) S400x128 .f32)), y ∈ pc.1.set :=
  View.cover_of_tiled [⟨r1_S400x128, p0⟩] S400x128.size (by rfl) y

/-! ## The body's triple -/

set_option maxHeartbeats 1000000 in
/-- The body on whole staging buffers, the inputs' at contents `xW` and the result's at anything, runs to the
    continuation holding the inputs' as they were and the result's at `out1_6` of the inputs'. -/
theorem sound_kernel1 (c : Dev nD) (E : Set ℕ) (i : grid1.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole)
    (x0 : Vec F S400x10000 .f32) (x1 : Vec F S10000x128 .f32) (x2 : Vec F S400x128 .f32) (x3 : Vec F S128x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__pass1_kernel i arg1 harg1 arg2 harg2 arg3 harg3 arg4 harg4 arg5 harg5 arg6 harg6 arg7 harg7) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this call on core `c`: the arrays as the call finds them; after the body at point `t` each
    input's buffer at its block and the result's at `out1_6` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.R2.lean ====
/-
  The third pallas_call of the kernel (the second graph-convolution layer and the product with the last layer's
  stacked weights), at the buffer contents `V` found when it is entered: one grid point per block of 400 rows of the
  adjacency matrix. The first layer's result `h1` is handed to the call twice, whole (window 1) and in blocks of 400
  rows (window 2): the two windows read ONE array, which the proof data deals between them in two halves. At point
  `t` the body reads rows 400·t … 400·t+399 of `adj` and of `h1`, the whole of `h1`, `W2`, the bias row and the two
  halves `Wa`, `Wb` of the last weights, forms `h2 = relu ((adj_blk · h1) · W2 + b2) + h1_blk` and stores
  `h2 · Wa + h1_blk · Wb` as rows 400·t … 400·t+399 of the result. Here: each window's block at a point, what the body
  leaves in the result's staging buffer, the body's triple, the pipeline's proof data and the body obligation at
  every point.
-/
import proofs.«166610_g58128087384883_cont_9to1_m_409_2_alg».proof.Proof.Gen.KernelIdeal.Launch
import proofs.«166610_g58128087384883_cont_9to1_m_409_2_alg».proof.Proof.Gen.KernelIdeal.Skeleton
import proofs.«166610_g58128087384883_cont_9to1_m_409_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a block whose
    index has not moved is still in place), for any proof data whose array is `V`'s and whose body leaves the block
    where it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a block whose
    index has not moved is still in place), for any proof data whose array is `V`'s and whose body leaves the block
    where it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a block whose
    index has not moved is still in place), for any proof data whose array is `V`'s and whose body leaves the block
    where it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a block whose
    index has not moved is still in place), for any proof data whose array is `V`'s and whose body leaves the block
    where it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a block whose
    index has not moved is still in place), for any proof data whose array is `V`'s and whose body leaves the block
    where it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (a block whose
    index has not moved is still in place), for any proof data whose array is `V`'s and whose body leaves the block
    where it found it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (a block whose
    index has not moved is still in place), for any proof data whose array is `V`'s and whose body leaves the block
    where it found it. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_S400x10000 : Rect S400x10000 := Rect.unit (s := S400x10000) ![0, 0] S400x10000.size inb_S400x10000_S400x10000_0_0
abbrev r2_S10000x128 : Rect S10000x128 := Rect.unit (s := S10000x128) ![0, 0] S10000x128.size inb_S10000x128_S10000x128_0_0
abbrev r2_S400x128 : Rect S400x128 := Rect.unit (s := S400x128) ![0, 0] S400x128.size inb_S400x128_S400x128_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0
abbrev r2_S128x64 : Rect S128x64 := Rect.unit (s := S128x64) ![0, 0] S128x64.size inb_S128x64_S128x64_0_0
abbrev r2_S400x64 : Rect S400x64 := Rect.unit (s := S400x64) ![0, 0] S400x64.size inb_S400x64_S400x64_0_0

/-! ## What the body leaves in the result's buffer -/

/-- The result's staging buffer after the body, from the input blocks: its one store, of the body's arithmetic. -/
def out2_7 (x0 : Vec F S400x10000 .f32) (x1 : Vec F S10000x128 .f32) (x2 : Vec F S400x128 .f32) (x3 : Vec F S128x128 .f32) (x4 : Vec F S1x128 .f32) (x5 : Vec F S128x64 .f32) (x6 : Vec F S128x64 .f32) : Vec F S400x64 .f32 :=
  View.canon [⟨r2_S400x64, k2_pay1 (View.ld x0 r2_S400x10000) (View.ld x1 r2_S10000x128) (View.ld x3 r2_S128x128) (View.ld x4 r2_S1x128) (View.ld x2 r2_S400x128) (View.ld x5 r2_S128x64) (View.ld x2 r2_S400x128) (View.ld x6 r2_S128x64)⟩]

/-- The one store covers the buffer. -/
theorem cover2_7 (p0 : Vec F S400x64 .f32) (y : S400x64.Idx) :
    ∃ pc ∈ ([⟨r2_S400x64, p0⟩] : List (View.Piece (Elt F) S400x64 .f32)), y ∈ pc.1.set :=
  View.cover_of_tiled [⟨r2_S400x64, p0⟩] S400x64.size (by rfl) y

/-! ## The body's triple -/

set_option maxHeartbeats 1000000 in
/-- The body on whole staging buffers, the inputs' at contents `xW` and the result's at anything, runs to the
    continuation holding the inputs' as they were and the result's at `out2_7` of the inputs'. -/
theorem sound_kernel2 (c : Dev nD) (E : Set ℕ) (i : grid2.Coords) (arg1 : Memref sig .tc .vmem S400x10000 .f32) (harg1 : arg1.IsWhole) (arg2 : Memref sig .tc .vmem S10000x128 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S400x64 .f32) (harg8 : arg8.IsWhole)
    (x0 : Vec F S400x10000 .f32) (x1 : Vec F S10000x128 .f32) (x2 : Vec F S400x128 .f32) (x3 : Vec F S128x128 .f32) (x4 : Vec F S1x128 .f32) (x5 : Vec F S128x64 .f32) (x6 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__pass2_kernel i arg1 harg1 arg2 harg2 arg3 harg3 arg4 harg4 arg5 harg5 arg6 harg6 arg7 harg7 arg8 harg8) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this call on core `c`: the arrays as the call finds them; after the body at point `t` each
    input's buffer at its block and the result's at `out2_7` of the input blocks; the invariant is the scoped
    rest and the generator register, untouched; nothing owed; the array two input windows read is dealt between them in two halves, every other array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨1, _⟩ => fullShare.left
    | ⟨2, _⟩ => fullShare.right
    | _ => fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.R2Arr.lean ====
/-
  The third pallas_call hands ONE array, the first layer's result `h1`, to two input windows: window 1 reads it
  whole, window 2 in blocks of 400 rows. The windows' arrays are therefore not pairwise distinct, and the core's
  unscoped buffers split into the call's arrays only after the shared buffer's points-to is dealt in two halves
  (the left half of the full share to window 1, the right half to window 2). Here: the distinct buffers behind
  the windows' arrays one by one, the call's arrays one by one, and the two passages between the core's unscoped
  buffers and the call's arrays beside the unscoped rest — at the call's entry (the shared buffer split) and at
  its exit (the two halves, at one contents, joined).
-/
import proofs.«166610_g58128087384883_cont_9to1_m_409_2_alg».proof.Proof.KI.R2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The distinct buffers behind the windows' arrays -/

/-- The windows' arrays are seven buffers: `h1` is behind windows 1 and 2. -/
theorem arrRefs2 : Finset.univ.image (Pipeline.arrRef spec2) = [main_arg1, main_v7, main_arg6, main_v2, main_v4, main_v5, main_v8].toFinset := by decide

/-- The seven buffers, each whole at the full share, one by one. -/
theorem arrBufs2_eq (c : Dev nD) (V₀ : (b : Ref sig .tc) → Buf (Elt F) ((c : Thread nD τ).loc b)) :
    (Pipeline.arrBufs (Ix := Unit) (Name := ℕ) (U := UR sig nD τ) (Lvl := ℕ) spec2 c V₀ : sProp 𝕄)
      = iprop((((c : Thread nD τ).loc main_arg1) ↦{fullShare} V₀ main_arg1) ∗ (((c : Thread nD τ).loc main_v7) ↦{fullShare} V₀ main_v7)
        ∗ (((c : Thread nD τ).loc main_arg6) ↦{fullShare} V₀ main_arg6) ∗ (((c : Thread nD τ).loc main_v2) ↦{fullShare} V₀ main_v2)
        ∗ (((c : Thread nD τ).loc main_v4) ↦{fullShare} V₀ main_v4) ∗ (((c : Thread nD τ).loc main_v5) ↦{fullShare} V₀ main_v5)
        ∗ (((c : Thread nD τ).loc main_v8) ↦{fullShare} V₀ main_v8)) := by
  unfold Pipeline.arrBufs
  exact bigSep_eq_bigSepL_of_eq _ arrRefs2 (by decide) _

/-! ## The call's arrays, one by one -/

/-- The call's arrays at contents `G`: every array whole, `h1` at the left half of the full share for window 1 and
    at the right half for window 2, every other array at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v7) ↦{fullShare.left} G 1)
        ∗ (((c : Thread nD τ).loc main_v7) ↦{fullShare.right} G 2) ∗ (((c : Thread nD τ).loc main_arg6) ↦{fullShare} G 3)
        ∗ (((c : Thread nD τ).loc main_v2) ↦{fullShare} G 4) ∗ (((c : Thread nD τ).loc main_v4) ↦{fullShare} G 5)
        ∗ (((c : Thread nD τ).loc main_v5) ↦{fullShare} G 6) ∗ (((c : Thread nD τ).loc main_v8) ↦{fullShare} G 7)) := by
  unfold Dat.arrays
  rw [bigSep_W2, (arr_whole2 0).set_eq_univ, (arr_whole2 1).set_eq_univ, (arr_whole2 3).set_eq_univ,
    (arr_whole2 4).set_eq_univ, (arr_whole2 5).set_eq_univ, (arr_whole2 6).set_eq_univ, (arr_whole2 7).set_eq_univ]
  rfl

/-! ## Entry: the shared buffer split -/

/-- ENTRY: the core's unscoped buffers at `V` are the call's arrays at the proof data's entry contents (the array two
    windows read split in two halves) and the unscoped rest. -/
theorem arrays2_of_unscopedBufs (c : Dev nD) :
    (unscopedBufs c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs 2 winFacts₀2.arr_unscoped c (V c)]
  refine sep_mono ?_ .rfl
  rw [show (Pipeline.arrBufs (cfgs 2).spec c (V c) : sProp 𝕄) = Pipeline.arrBufs spec2 c (V c) from rfl, arrBufs2_eq, arrays2_eq]
  iintro ⟨H1, H7, H6, H2, H4, H5, H8⟩
  ihave H7' := (pointsTo_share (PosShare.mem_left_op_right fullShare)).1 $$ H7
  icases H7' with ⟨H7l, H7r⟩
  isplitl [H1]; · iexact H1
  isplitl [H7l]; · iexact H7l
  isplitl [H7r]; · iexact H7r
  isplitl [H6]; · iexact H6
  isplitl [H2]; · iexact H2
  isplitl [H4]; · iexact H4
  isplitl [H5]; · iexact H5
  iexact H8

/-! ## Exit: the two halves joined -/

/-- EXIT: the call's arrays at contents `G` (the two halves of the shared array at ONE contents) and the unscoped
    rest at `V` are the core's unscoped buffers at any `V'` that has the arrays at `G` and agrees with `V` off them. -/
theorem unscopedBufs_of_arrays2 (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V c b) :
    iprop((dat2 V c).arrays G ∗ Pipeline.unscopedRest (Ix := Unit) (Name := ℕ) (U := UR sig nD τ) (Lvl := ℕ) spec2 c (V c))
      ⊢ (unscopedBufs c V' : sProp 𝕄) := by
  rw [Pipeline.unscopedBufs_split₀ cfgs 2 winFacts₀2.arr_unscoped c V']
  refine sep_mono ?_ (Entails.of_eq ?_)
  · rw [show (Pipeline.arrBufs (cfgs 2).spec c V' : sProp 𝕄) = Pipeline.arrBufs spec2 c V' from rfl, arrBufs2_eq, arrays2_eq,
      hG 0, hG 1, hG 2, hG 3, hG 4, hG 5, hG 6, hG 7]
    iintro ⟨H1, H7l, H7r, H6, H2, H4, H5, H8⟩
    ihave H7 := (pointsTo_share (PosShare.mem_left_op_right fullShare)).2 $$ [H7l H7r]
    · isplitl [H7l]; · iexact H7l
      iexact H7r
    isplitl [H1]; · iexact H1
    isplitl [H7]; · iexact H7
    isplitl [H6]; · iexact H6
    isplitl [H2]; · iexact H2
    isplitl [H4]; · iexact H4
    isplitl [H5]; · iexact H5
    iexact H8
  · unfold Pipeline.unscopedRest
    exact bigSep_congr fun b hb => by rw [hrest b (Finset.mem_sdiff.mp hb).2]

end Cert.KernelIdeal.Frame

end
-- ==== Proof.KI.R3.lean ====
/-
  The fourth pallas_call of the kernel (the last graph-convolution layer and the log-softmax), at the buffer contents
  `V` found when it is entered: one grid point per block of 400 rows of the adjacency matrix. At point `t` the body
  reads rows 400·t … 400·t+399 of `adj`, the whole of `u` and the bias row, forms `z = adj_blk · u + b3` and stores
  `z - (log (Σ exp (z - m)) + m)`, `m` each row's maximum, as rows 400·t … 400·t+399 of the result. Here: each
  window's block at a point, what the body leaves in the result's staging buffer, the body's triple, the pipeline's
  proof data and the body obligation at every point.
-/
import proofs.«166610_g58128087384883_cont_9to1_m_409_2_alg».proof.Proof.Gen.KernelIdeal.Launch
import proofs.«166610_g58128087384883_cont_9to1_m_409_2_alg».proof.Proof.Gen.KernelIdeal.Skeleton
import proofs.«166610_g58128087384883_cont_9to1_m_409_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a block whose
    index has not moved is still in place), for any proof data whose array is `V`'s and whose body leaves the block
    where it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (a block whose
    index has not moved is still in place), for any proof data whose array is `V`'s and whose body leaves the block
    where it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (a block whose
    index has not moved is still in place), for any proof data whose array is `V`'s and whose body leaves the block
    where it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_S400x10000 : Rect S400x10000 := Rect.unit (s := S400x10000) ![0, 0] S400x10000.size inb_S400x10000_S400x10000_0_0
abbrev r3_S10000x64 : Rect S10000x64 := Rect.unit (s := S10000x64) ![0, 0] S10000x64.size inb_S10000x64_S10000x64_0_0
abbrev r3_S1x64 : Rect S1x64 := Rect.unit (s := S1x64) ![0, 0] S1x64.size inb_S1x64_S1x64_0_0
abbrev r3_S400x64 : Rect S400x64 := Rect.unit (s := S400x64) ![0, 0] S400x64.size inb_S400x64_S400x64_0_0

/-! ## What the body leaves in the result's buffer -/

/-- The result's staging buffer after the body, from the input blocks: its one store, of the body's arithmetic. -/
def out3_3 (x0 : Vec F S400x10000 .f32) (x1 : Vec F S10000x64 .f32) (x2 : Vec F S1x64 .f32) : Vec F S400x64 .f32 :=
  View.canon [⟨r3_S400x64, k3_pay1 (View.ld x0 r3_S400x10000) (View.ld x1 r3_S10000x64) (View.ld x2 r3_S1x64)⟩]

/-- The one store covers the buffer. -/
theorem cover3_3 (p0 : Vec F S400x64 .f32) (y : S400x64.Idx) :
    ∃ pc ∈ ([⟨r3_S400x64, p0⟩] : List (View.Piece (Elt F) S400x64 .f32)), y ∈ pc.1.set :=
  View.cover_of_tiled [⟨r3_S400x64, p0⟩] S400x64.size (by rfl) y

/-! ## The body's triple -/

set_option maxHeartbeats 1000000 in
/-- The body on whole staging buffers, the inputs' at contents `xW` and the result's at anything, runs to the
    continuation holding the inputs' as they were and the result's at `out3_3` of the inputs'. -/
theorem sound_kernel3 (c : Dev nD) (E : Set ℕ) (i : grid3.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S400x64 .f32) (harg4 : arg4.IsWhole)
    (x0 : Vec F S400x10000 .f32) (x1 : Vec F S10000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__pass3_kernel i arg1 harg1 arg2 harg2 arg3 harg3 arg4 harg4) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this call on core `c`: the arrays as the call finds them; after the body at point `t` each
    input's buffer at its block and the result's at `out3_3` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the contents at entry. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Run.lean ====
/-
  The kernel program's run: six host operations (four bias reshapes, the two halves of the last weights), then the four
  pallas_calls in order. The buffer contents at each boundary are a fold from the launch memory: a host stretch
  applies its operations; a call leaves each of its arrays at what its write-backs make of it, every other buffer as
  it was. Each call is a segment entered from "every unscoped buffer at the boundary's contents, the generator
  register at some state, nothing owed" and left at the next boundary's; the launch over the segments gives: every
  weakly fair execution terminates, nothing faults, and every final memory holds every unscoped buffer at the last
  boundary's contents — from which the arguments are read back unchanged and the result at what the last call left.
-/
import proofs.«166610_g58128087384883_cont_9to1_m_409_2_alg».proof.Proof.KI.R0
import proofs.«166610_g58128087384883_cont_9to1_m_409_2_alg».proof.Proof.KI.R1
import proofs.«166610_g58128087384883_cont_9to1_m_409_2_alg».proof.Proof.KI.R2
import proofs.«166610_g58128087384883_cont_9to1_m_409_2_alg».proof.Proof.KI.R2Arr
import proofs.«166610_g58128087384883_cont_9to1_m_409_2_alg».proof.Proof.KI.R3

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (call 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At call 0's exit: its arrays at what the pipeline leaves (the inputs as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline leaves (the inputs as entered, the result's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its result `main_v8` at what the write-backs leave, every other buffer as entered (its other
    arrays are input windows', two of them on one array). -/
def W4 (c : Dev nD) : Valuation τ sig (Elt F) :=
  Function.update (W3 m ρ c) (Proc.devRef .tc main_v8) ((dat2 (V3 m ρ) c).arrAt 7 cfg2.N)
/-- The same read at the TensorCore's references. -/
abbrev V4 : (c : Dev nD) → (b : Ref sig .tc) → Buf (Elt F) ((c : Thread nD τ).loc b) := fun c b => W4 m ρ c b
theorem W4_out (c : Dev nD) : W4 m ρ c (Proc.devRef .tc main_v8) = (dat2 (V3 m ρ) c).arrAt 7 cfg2.N := by
  unfold W4; exact Function.update_self _ _ _
theorem W4_of_ne (c : Dev nD) (b : Ref sig .tc) (hb : b ≠ main_v8) :
    W4 m ρ c (Proc.devRef .tc b) = W3 m ρ c (Proc.devRef .tc b) := by
  unfold W4; exact Function.update_of_ne (StableHlo.devRef_ne_of_ne hb) _ _
/-- An input window's array is held as entered through the whole call. -/
theorem arrAt2_in (c : Dev nD) (w : Fin cfg2.W) (hw : (cfg2.win w).isOut = false) (hne : Pipeline.arrRef spec2 w ≠ main_v8) :
    (dat2 (V3 m ρ) c).arrAt w cfg2.N = V4 m ρ c (Pipeline.arrRef spec2 w) :=
  (((dat2 (V3 m ρ) c).arrAt_in w hw _).trans (A_eq2 (V3 m ρ) c w)).trans (W4_of_ne m ρ c _ hne).symm
theorem hF2 (c : Dev nD) (w : Fin cfg2.W) : (dat2 (V3 m ρ) c).arrAt w cfg2.N = V4 m ρ c (Pipeline.arrRef spec2 w) :=
  match w with
  | ⟨0, _⟩ => arrAt2_in m ρ c 0 rfl (by decide)
  | ⟨1, _⟩ => arrAt2_in m ρ c 1 rfl (by decide)
  | ⟨2, _⟩ => arrAt2_in m ρ c 2 rfl (by decide)
  | ⟨3, _⟩ => arrAt2_in m ρ c 3 rfl (by decide)
  | ⟨4, _⟩ => arrAt2_in m ρ c 4 rfl (by decide)
  | ⟨5, _⟩ => arrAt2_in m ρ c 5 rfl (by decide)
  | ⟨6, _⟩ => arrAt2_in m ρ c 6 rfl (by decide)
  | ⟨7, _⟩ => (W4_out m ρ c).symm
theorem hrest2 (c : Dev nD) : ∀ b, b ∉ Finset.univ.image (Pipeline.arrRef spec2) → V4 m ρ c b = V3 m ρ c b :=
  fun b hb => W4_of_ne m ρ c b fun e => hb (Finset.mem_image.mpr ⟨7, Finset.mem_univ _, e.symm⟩)

/-- At call 3's exit: its arrays at what the pipeline leaves (the inputs as entered, the result's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ## The proof data family and the thread state -/

/-- No pallas_call has a prefetched table. -/
abbrev adm : (p : Fin 4) → (pcfgs (F := F) p).Adm := fun p => (cfgs p).toPCfg_adm
/-- Every call's proof data, each at its entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- Call 0 as a segment of the run: entered from every unscoped buffer at `W1`, left at `W2`. Its arrays are split
    out of the unscoped buffers at entry and put back, at what the write-backs leave, at the exit; the generator
    register goes into the call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the run: entered from every unscoped buffer at `W2`, left at `W3`. Its arrays are split
    out of the unscoped buffers at entry and put back, at what the write-backs leave, at the exit; the generator
    register goes into the call's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the run: entered from every unscoped buffer at `W3`, left at `W4`. Its arrays are split
    out of the unscoped buffers at entry and put back, at what the write-backs leave, at the exit; the generator
    register goes into the call's invariant and comes out; nothing is owed; the kernel has no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit : (unscopedBufs c (V3 m ρ c) : sProp 𝕄)
        ⊢ iprop((pdats m ρ 2 c).arrays ((pdats m ρ 2 c).arrAt · 0) ∗ Pipeline.unscopedRest (Ix := Unit) (Name := ℕ) (U := UR sig nD τ) (Lvl := ℕ) spec2 c (V3 m ρ c)) :=
      arrays2_of_unscopedBufs (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V3 m ρ c))
        ⊢ (unscopedBufs c (V4 m ρ c) : sProp 𝕄) :=
      unscopedBufs_of_arrays2 (V3 m ρ) c (V4 m ρ c) ((dat2 (V3 m ρ) c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of the run: entered from every unscoped buffer at `W4`, left at `W5`. Its arrays are split
    out of the unscoped buffers at entry and put back, at what the write-backs leave, at the exit; the generator
    register goes into the call's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The segments in order: the host stretch, then the four calls. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Reading the boundary contents -/

section Fold

variable (m : (ℓ : Loc nD τ sig) → Buf (Elt F) ℓ) (ρ : Dev nD → PrngReg)

/-- A buffer no host operation writes is as launched when the first call is entered. -/
theorem W1_of_ne (c : Dev nD) (b : Ref sig .tc) (h0 : b ≠ main_v0) (h1 : b ≠ main_v1) (h2 : b ≠ main_v2) (h3 : b ≠ main_v3)
    (h4 : b ≠ main_v4) (h5 : b ≠ main_v5) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- Through call 0 every buffer but its result `main_v6` is as entered: an input window's array is held unchanged, and
    a buffer that is no window's array is not touched. -/
theorem W2_keep (c : Dev nD) (b : Ref sig .tc) (hb : b ≠ main_v6) :
    W2 m ρ c (Proc.devRef .tc b) = W1 m ρ c (Proc.devRef .tc b) := by
  by_cases h : ∃ w, Pipeline.arrRef spec0 w = b
  · obtain ⟨w, rfl⟩ := h
    have hw : (cfg0.win w).isOut = false :=
      (by decide : ∀ w : Fin 3, Pipeline.arrRef spec0 w ≠ main_v6 → (cfg0.win w).isOut = false) w hb
    exact (W2_arr m ρ c w).trans (((dat0 (V1 m ρ) c).arrAt_in w hw _).trans (A_eq0 (V1 m ρ) c w))
  · exact W2_of_ne m ρ c b (fun w e => h ⟨w, e⟩)

/-- Through call 1 every buffer but its result `main_v7` is as entered: an input window's array is held unchanged, and
    a buffer that is no window's array is not touched. -/
theorem W3_keep (c : Dev nD) (b : Ref sig .tc) (hb : b ≠ main_v7) :
    W3 m ρ c (Proc.devRef .tc b) = W2 m ρ c (Proc.devRef .tc b) := by
  by_cases h : ∃ w, Pipeline.arrRef spec1 w = b
  · obtain ⟨w, rfl⟩ := h
    have hw : (cfg1.win w).isOut = false :=
      (by decide : ∀ w : Fin 7, Pipeline.arrRef spec1 w ≠ main_v7 → (cfg1.win w).isOut = false) w hb
    exact (W3_arr m ρ c w).trans (((dat1 (V2 m ρ) c).arrAt_in w hw _).trans (A_eq1 (V2 m ρ) c w))
  · exact W3_of_ne m ρ c b (fun w e => h ⟨w, e⟩)

/-- Through call 3 every buffer but its result `main_v9` is as entered: an input window's array is held unchanged, and
    a buffer that is no window's array is not touched. -/
theorem W5_keep (c : Dev nD) (b : Ref sig .tc) (hb : b ≠ main_v9) :
    W5 m ρ c (Proc.devRef .tc b) = W4 m ρ c (Proc.devRef .tc b) := by
  by_cases h : ∃ w, Pipeline.arrRef spec3 w = b
  · obtain ⟨w, rfl⟩ := h
    have hw : (cfg3.win w).isOut = false :=
      (by decide : ∀ w : Fin 4, Pipeline.arrRef spec3 w ≠ main_v9 → (cfg3.win w).isOut = false) w hb
    exact (W5_arr m ρ c w).trans (((dat3 (V4 m ρ) c).arrAt_in w hw _).trans (A_eq3 (V4 m ρ) c w))
  · exact W5_of_ne m ρ c b (fun w e => h ⟨w, e⟩)

/-- An argument array is as launched at the last boundary: no host operation writes it and no call's result is it. -/
theorem W5_arg (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) (h9 : b ≠ main_v9) :
    W5 m ρ c (Proc.devRef .tc b) = m ((c : Thread nD τ).loc b) :=
  (W5_keep m ρ c b h9).trans <| (W4_of_ne m ρ c b h8).trans <| (W3_keep m ρ c b h7).trans <| (W2_keep m ρ c b h6).trans <|
    (W1_of_ne m ρ c b h0 h1 h2 h3 h4 h5).trans rfl

/-- The result array at the last boundary is what the last call's write-backs leave. -/
theorem W5_result (c : Dev nD) : W5 m ρ c (Proc.devRef .tc main_v9) = (dat3 (V4 m ρ) c).arrAt 3 cfg3.N := W5_arr m ρ c 3

end Fold

/-! ## The run, with the result named -/

/-- From any memory with zero counters every weakly fair execution of the program terminates, nothing faulting; in
    every final memory the result buffer holds what the last call's write-backs leave and every argument array is as
    launched. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v9) = (dat3 (V4 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v9 (by decide))).trans (W5_result m ρ c),
      (h c _ (mem_uc main_arg0 (by decide))).trans (W5_arg m ρ c main_arg0 (by decide) (by decide) (by decide) (by decide) (by decide) (by decide) (by decide) (by decide) (by decide) (by decide)),
      (h c _ (mem_uc main_arg1 (by decide))).trans (W5_arg m ρ c main_arg1 (by decide) (by decide) (by decide) (by decide) (by decide) (by decide) (by decide) (by decide) (by decide) (by decide)),
      (h c _ (mem_uc main_arg2 (by decide))).trans (W5_arg m ρ c main_arg2 (by decide) (by decide) (by decide) (by decide) (by decide) (by decide) (by decide) (by decide) (by decide) (by decide)),
      (h c _ (mem_uc main_arg3 (by decide))).trans (W5_arg m ρ c main_arg3 (by decide) (by decide) (by decide) (by decide) (by decide) (by decide) (by decide) (by decide) (by decide) (by decide)),
      (h c _ (mem_uc main_arg4 (by decide))).trans (W5_arg m ρ c main_arg4 (by decide) (by decide) (by decide) (by decide) (by decide) (by decide) (by decide) (by decide) (by decide) (by decide)),
      (h c _ (mem_uc main_arg5 (by decide))).trans (W5_arg m ρ c main_arg5 (by decide) (by decide) (by decide) (by decide) (by decide) (by decide) (by decide) (by decide) (by decide) (by decide)),
      (h c _ (mem_uc main_arg6 (by decide))).trans (W5_arg m ρ c main_arg6 (by decide) (by decide) (by decide) (by decide) (by decide) (by decide) (by decide) (by decide) (by decide) (by decide)),
      (h c _ (mem_uc main_arg7 (by decide))).trans (W5_arg m ρ c main_arg7 (by decide) (by decide) (by decide) (by decide) (by decide) (by decide) (by decide) (by decide) (by decide) (by decide)),
      (h c _ (mem_uc main_arg8 (by decide))).trans (W5_arg m ρ c main_arg8 (by decide) (by decide) (by decide) (by decide) (by decide) (by decide) (by decide) (by decide) (by decide) (by decide)),
      (h c _ (mem_uc main_arg9 (by decide))).trans (W5_arg m ρ c main_arg9 (by decide) (by decide) (by decide) (by decide) (by decide) (by decide) (by decide) (by decide) (by decide) (by decide))⟩)
    (run_all m ρ)

end Cert.KernelIdeal.Frame

end
-- ==== Proof.Spec.lean ====
/-
  The network both programs compute, as functions of matrices over the extended reals indexed by finite types.

  With `adj` the (dense) adjacency matrix, `x` the node features and the weights `W, W1, W2, Wa, Wb` and biases
  `b, b1, b2, b3`:
    h1 = relu (adj · (x · W1) + b1) + (x · W + b)
    h2 = relu (adj · (h1 · W2) + b2) + h1          -- one program groups the product as (adj · h1) · W2
    u  = h2 · Wa + h1 · Wb                         -- the product of the row-wise concatenation [h2 | h1] with [Wa ; Wb]
    z  = adj · u + b3
    out = log_softmax z along the rows
  The two groupings of the triple product agree when every entry is a real number (distributivity fails at the
  infinities), and the two spellings of the log-softmax, `z - (log s + m)` and `(z - m) - log s` with `m` the row's
  maximum and `s = Σ exp (z - m)`, agree when `z` and `m` are real numbers, whatever `log s` is.
-/
import Idealize.ShloMosaic.PureOps.Ideal

noncomputable section

namespace Cert.Spec

open Idealize.ShloMosaic
open scoped BigOperators

variable {I Fe H C : Type} [Fintype I] [Fintype Fe] [Fintype H] [Fintype C]

/-- The product of two matrices over the extended reals. -/
def mm {A K B : Type} [Fintype K] (P : A → K → EReal) (Q : K → B → EReal) : A → B → EReal :=
  fun a b => ∑ k, P a k * Q k b

/-- The first hidden layer over a given product `t1 = x · W1`: `relu (adj · t1 + b1) + (x · W + b)`. -/
def layer1 (adj : I → I → EReal) (t1 : I → H → EReal) (x : I → Fe → EReal) (W : Fe → H → EReal) (b b1 : H → EReal) :
    I → H → EReal :=
  fun i j => max (mm adj t1 i j + b1 j) 0 + (mm x W i j + b j)

/-- The first hidden layer: `relu (adj · (x · W1) + b1) + (x · W + b)`. -/
def hidden1 (adj : I → I → EReal) (x : I → Fe → EReal) (W W1 : Fe → H → EReal) (b b1 : H → EReal) : I → H → EReal :=
  layer1 adj (mm x W1) x W b b1

/-- The second hidden layer with the product grouped `(adj · h1) · W2`. -/
def hidden2L (adj : I → I → EReal) (h1 : I → H → EReal) (W2 : H → H → EReal) (b2 : H → EReal) : I → H → EReal :=
  fun i j => max (mm (mm adj h1) W2 i j + b2 j) 0 + h1 i j

/-- The second hidden layer with the product grouped `adj · (h1 · W2)`. -/
def hidden2R (adj : I → I → EReal) (h1 : I → H → EReal) (W2 : H → H → EReal) (b2 : H → EReal) : I → H → EReal :=
  fun i j => max (mm adj (mm h1 W2) i j + b2 j) 0 + h1 i j

/-- `h2 · Wa + h1 · Wb`: the product of the concatenation `[h2 | h1]` with the stacked weights. -/
def mix (h2 h1 : I → H → EReal) (Wa Wb : H → C → EReal) : I → C → EReal :=
  fun i l => mm h2 Wa i l + mm h1 Wb i l

/-- The last layer's logits `adj · u + b3`. -/
def logits (adj : I → I → EReal) (u : I → C → EReal) (b3 : C → EReal) : I → C → EReal :=
  fun i l => mm adj u i l + b3 l

/-- A row's maximum, folded from minus infinity. -/
def rowMax (z : I → C → EReal) (i : I) : EReal := (Finset.univ : Finset C).fold max ⊥ (z i)

/-- A row's sum of exponentials of the entries shifted by the row's maximum. -/
def rowSumExp (z : I → C → EReal) (i : I) : EReal := ∑ l, Ideal.exp (z i l - rowMax z i)

/-- The log-softmax spelt `z - (log s + m)`. -/
def logSoftmaxL (z : I → C → EReal) : I → C → EReal :=
  fun i l => z i l - (Ideal.log (rowSumExp z i) + rowMax z i)

/-- The log-softmax spelt `(z - m) - log s`. -/
def logSoftmaxR (z : I → C → EReal) : I → C → EReal :=
  fun i l => (z i l - rowMax z i) - Ideal.log (rowSumExp z i)

/-- The whole network with the second layer grouped to the left and the first spelling of the log-softmax. -/
def netL (adj : I → I → EReal) (x : I → Fe → EReal) (W W1 : Fe → H → EReal) (b b1 : H → EReal) (W2 : H → H → EReal)
    (b2 : H → EReal) (Wa Wb : H → C → EReal) (b3 : C → EReal) : I → C → EReal :=
  logSoftmaxL (logits adj (mix (hidden2L adj (hidden1 adj x W W1 b b1) W2 b2) (hidden1 adj x W W1 b b1) Wa Wb) b3)

/-- The whole network with the second layer grouped to the right and the second spelling of the log-softmax. -/
def netR (adj : I → I → EReal) (x : I → Fe → EReal) (W W1 : Fe → H → EReal) (b b1 : H → EReal) (W2 : H → H → EReal)
    (b2 : H → EReal) (Wa Wb : H → C → EReal) (b3 : C → EReal) : I → C → EReal :=
  logSoftmaxR (logits adj (mix (hidden2R adj (hidden1 adj x W W1 b b1) W2 b2) (hidden1 adj x W W1 b b1) Wa Wb) b3)

/-- Every entry of the matrix is a real number. -/
def Real2 {A B : Type} (P : A → B → EReal) : Prop := ∀ a b, ∃ r : ℝ, P a b = (r : EReal)
/-- Every entry of the vector is a real number. -/
def Real1 {A : Type} (v : A → EReal) : Prop := ∀ a, ∃ r : ℝ, v a = (r : EReal)

end Cert.Spec

end
-- ==== Proof.Cur.lean ====
/-
  Arrays of rank one and two over the extended reals read as functions of their coordinates, so that the programs'
  results can be compared with the network stated over matrices (`Cert.Spec`).
-/
import proofs.«166610_g58128087384883_cont_9to1_m_409_2_alg».proof.Proof.Spec
import Idealize.ShloMosaic.Lib.ValueIdx

noncomputable section

namespace Cert.Spec

open Idealize.ShloMosaic Idealize.ShloMosaic.ValueIdx

/-- A rank-2 array as a function of its row and its column. -/
def cur2 {a b : Nat} (X : (⟨2, ![a, b]⟩ : Shape).Idx → EReal) : Fin a → Fin b → EReal := fun i j => X (ix2 i j)

/-- A rank-1 array as a function of its coordinate. -/
def cur1 {a : Nat} (X : (⟨1, ![a]⟩ : Shape).Idx → EReal) : Fin a → EReal := fun i => X (ix1 i)

/-- A one-row matrix as a function of its column. -/
def row0 {b : Nat} (X : (⟨2, ![1, b]⟩ : Shape).Idx → EReal) : Fin b → EReal := fun j => X (ix2 (0 : Fin 1) j)

/-- The first 128 rows of a matrix of 256 rows. -/
def top {b : Nat} (X : Fin 256 → Fin b → EReal) : Fin 128 → Fin b → EReal := fun k l => X ⟨k.val, by omega⟩ l

/-- The last 128 rows of a matrix of 256 rows. -/
def bot {b : Nat} (X : Fin 256 → Fin b → EReal) : Fin 128 → Fin b → EReal := fun k l => X ⟨128 + k.val, by omega⟩ l

/-- Two rank-2 arrays with the same entries at every row and column are equal. -/
theorem cur2_inj {a b : Nat} {X Y : (⟨2, ![a, b]⟩ : Shape).Idx → EReal} (h : cur2 X = cur2 Y) : X = Y := by
  funext j
  rw [eq_ix2 j]
  exact congrFun (congrFun h (j 0)) (j 1)

end Cert.Spec

end
-- ==== Proof.KI.Val0.lean ====
/-
  The first call of the kernel computes the product `t1 = x · W1` of the node features with the first layer's weights.
  Here: the body's arithmetic read at a row and a column as the sum over the contraction index; the one grid point
  writes back the whole of that product; so the result array after the call is the product, as one function of the
  two arrays the call reads.
-/
import proofs.«166610_g58128087384883_cont_9to1_m_409_2_alg».proof.Proof.KI.R0
import proofs.«166610_g58128087384883_cont_9to1_m_409_2_alg».proof.Proof.Cur
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Spec
open scoped BigOperators

/-! ## The product at a row and a column -/

/-- The left operand's index at output index `i` and contraction index `q` has `i`'s row. -/
theorem lhs_xW1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- and the contraction index as its column. -/
theorem lhs_xW1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- The right operand's index has the contraction index as its row -/
theorem rhs_xW1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- and `i`'s column. -/
theorem rhs_xW1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's arithmetic at row `p` and column `q`: the matrix product into the zero accumulator is the sum over
    the contraction index `k` of `a (p, k) * w (k, q)`. -/
theorem pay_xW1_apply (a : Vec Ideal S10000x128 .f32) (w : Vec Ideal S128x128 .f32) (p : Fin 10000) (q : Fin 128) :
    k0_pay1 (F := Ideal) a w (ix2 p q) = ∑ k : Fin 128, a (ix2 p k) * w (ix2 k q) := by
  unfold k0_pay1
  refine (Ideal.matmul_constant_zero_apply dot_S10000x128_S128x128_S10000x128_1_0_0_1_n_n none a w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_xW1_0 _ _
    | ⟨1, _⟩ => exact (lhs_xW1_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_xW1_0 _ _).trans hk
    | ⟨1, _⟩ => exact rhs_xW1_1 _ _)
  rw [el, er]

/-! ## The whole product -/

/-- The first call's result as one function of the arrays it reads: the product `x · W1`. -/
def G0 (x : Vec Ideal S10000x128 .f32) (W1 : Vec Ideal S128x128 .f32) : Vec Ideal S10000x128 .f32 :=
  fun j => Spec.mm (cur2 x) (cur2 W1) (j 0) (j 1)

/-- The body's arithmetic is the product, entry by entry. -/
theorem pay_xW1_eq (a : Vec Ideal S10000x128 .f32) (w : Vec Ideal S128x128 .f32) : k0_pay1 (F := Ideal) a w = G0 a w := by
  funext j
  obtain ⟨p, q, rfl⟩ : ∃ (p : Fin 10000) (q : Fin 128), j = ix2 p q := ⟨j 0, j 1, eq_ix2 j⟩
  exact pay_xW1_apply a w p q

/-! ## From the one block to the array -/

variable (V : (c : Dev nD) → (b : Ref sig .tc) → Buf (Elt Ideal) ((c : Thread nD τ).loc b))

/-- The body's loads and its store start at the origin of their buffers. -/
theorem origin0 : (![0, 0] : Fin 2 → Nat) = fun _ => 0 := funext fun a => by fin_cases a <;> rfl

/-- Without a grid the index maps are constant: at the one point every window's block index is zero on each axis. -/
theorem idx_zero0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of `x` the body reads is all of `x`: entry `(r, k)` of the block is entry `(0 · 10000 + r, 0 · 128 + k)`
    of the array. -/
theorem iblk0_x (c : Dev nD) (t : Fin cfg0.N) : iblk0 V c 0 t = (V c main_arg0 : Vec Ideal S10000x128 .f32) := by
  funext y
  show V c main_arg0 (((cfg0.win 0).blk t).view.emb y) = V c main_arg0 y
  refine congrArg (V c main_arg0) (funext fun a => Fin.ext ?_)
  obtain ⟨e0, e1, -⟩ := idx_zero0 t
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of `W1` the body reads is all of `W1`. -/
theorem iblk0_W1 (c : Dev nD) (t : Fin cfg0.N) : iblk0 V c 1 t = (V c main_arg4 : Vec Ideal S128x128 .f32) := by
  funext y
  show V c main_arg4 (((cfg0.win 1).blk t).view.emb y) = V c main_arg4 y
  refine congrArg (V c main_arg4) (funext fun a => Fin.ext ?_)
  obtain ⟨-, -, e0, e1, -⟩ := idx_zero0 t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is its block of the product of the arrays the call reads: the block is the
    whole array, and the body's store is the product of the whole of `x` with the whole of `W1`. -/
theorem flushed0_eq (c : Dev nD) (t : Fin cfg0.N) :
    (dat0 V c).flushed 2 t = ((cfg0.win 2).blk t).view.read (Elt Ideal) (G0 (V c main_arg0) (V c main_arg4)) := by
  show (cfg0.win 2).cut (cfg0.grid.coords t) ((dat0 V c).after 2 t) = _
  rw [after0_2]
  unfold out0_2
  rw [View.canon_unit_zero origin0]
  simp only [View.ld_unit_zero (S := S10000x128) origin0, View.ld_unit_zero (S := S128x128) origin0]
  rw [pay_xW1_eq, iblk0_x, iblk0_W1]
  obtain ⟨-, -, -, -, e0, e1⟩ := idx_zero0 t
  funext j
  show G0 (V c main_arg0) (V c main_arg4) ((cfg0.win 2).xinj (cfg0.grid.coords t) j) = G0 (V c main_arg0) (V c main_arg4) (((cfg0.win 2).blk t).view.emb j)
  refine congrArg (G0 (V c main_arg0) (V c main_arg4)) (funext fun a => Fin.ext ?_)
  match a with
  | ⟨0, _⟩ => show (j 0).val = win0_2.index t (0 : Fin 2) * 10000 + 1 * (j 0).val; omega
  | ⟨1, _⟩ => show (j 1).val = win0_2.index t (1 : Fin 2) * 128 + 1 * (j 1).val; omega

/-- An index of the result array is in the point's block iff each coordinate is in the block's range on its axis. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v6).slice (win0_2.rect t)).set ↔ _
  rw [View.set_slice_whole, Rect.mem_set_unit]
  exact Iff.rfl

/-- Every index of the result array is in the one point's block, which is the whole array. -/
theorem cover0 (i : S10000x128.Idx) : ∃ t : Fin cfg0.N, (cfg0.win 2).flush t = true ∧ i ∈ ((cfg0.win 2).blk t).view.set := by
  refine ⟨t0_0, flush0_2 t0_0, ?_⟩
  rw [mem_blk0]
  obtain ⟨-, -, -, -, e0, e1⟩ := idx_zero0 t0_0
  have h0 : (i 0).val < 10000 := idx2_lt0 i
  have h1 : (i 1).val < 128 := idx2_lt1 i
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 128 ≤ (i 1).val ∧ (i 1).val < win0_2.index t0_0 (1 : Fin 2) * 128 + 128; omega

/-- The result array after the call is `G0` of the arrays the call reads. -/
theorem final0 (c : Dev nD) :
    (dat0 V c).arrAt 2 cfg0.N = G0 (V c main_arg0) (V c main_arg4) :=
  (dat0 V c).arrAt_eq_of_cover 2 (G0 (V c main_arg0) (V c main_arg4)) (fun t _ => flushed0_eq V c t) cover0

end Cert.KernelIdeal.Frame

end
-- ==== Proof.KI.Val1.lean ====
/-
  The first graph-convolution layer (the kernel's second call) as ONE function of the arrays it reads.

  At grid point `t` the body stores, as rows 400·t … 400·t+399 of the result, the block whose entry `(p, q)` is
    max (Σ_k adj(400t+p, k) · t1(k, q) + b1(q)) 0 + (Σ_k x(400t+p, k) · W(k, q) + b(q)).
  First the body's arithmetic is read at an entry of the block (two matrix products into the zero accumulator, two bias
  rows broadcast over the rows, a maximum with zero and two sums); then each input block is read where the result's
  block sits in its array (row 400·t + p of `adj` and of `x`; `t1`, `W` and the biases whole); last, the 25 blocks of
  400 rows tile the 10000 rows, so the result array after the call is `Spec.layer1` of the arrays at every row.
-/
import proofs.«166610_g58128087384883_cont_9to1_m_409_2_alg».proof.Proof.KI.R1
import proofs.«166610_g58128087384883_cont_9to1_m_409_2_alg».proof.Proof.Cur
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open scoped BigOperators

/-! ## The two matrix products at an entry -/

/-- The product of a 400 × 10000 block with a 10000 × 128 matrix: at output entry `i` and contraction position `q`
    the left operand is read at row `i 0`, -/
theorem lhs_dot_S400x10000_S10000x128_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- column the contraction position, -/
theorem lhs_dot_S400x10000_S10000x128_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- and the right operand at row the contraction position, -/
theorem rhs_dot_S400x10000_S10000x128_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- column `i 1`. -/
theorem rhs_dot_S400x10000_S10000x128_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- So that product into the zero accumulator, at entry `(p, q)`, is `Σ_k l(p, k) · r(k, q)` over the 10000 columns. -/
theorem matmul_S400x10000_S10000x128_apply (l : FVec Ideal S400x10000 .f32) (r : FVec Ideal S10000x128 .f32) (p : Fin 400) (q : Fin 128) :
    matmul dot_S400x10000_S10000x128_S400x128_1_0_0_1_n_n none l r (constant S400x128 .f32 0x00000000#32) (ix2 p q)
      = ∑ k : Fin 10000, l (ix2 p k) * r (ix2 k q) := by
  refine (Ideal.matmul_constant_zero_apply dot_S400x10000_S10000x128_S400x128_1_0_0_1_n_n none l r (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_dot_S400x10000_S10000x128_0 _ _
    | ⟨1, _⟩ => exact (lhs_dot_S400x10000_S10000x128_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_dot_S400x10000_S10000x128_0 _ _).trans hk
    | ⟨1, _⟩ => exact rhs_dot_S400x10000_S10000x128_1 _ _)
  rw [el, er]

/-- The product of a 400 × 128 block with a 128 × 128 matrix: at output entry `i` and contraction position `q` the left
    operand is read at row `i 0`, -/
theorem lhs_dot_S400x128_S128x128_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- column the contraction position, -/
theorem lhs_dot_S400x128_S128x128_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- and the right operand at row the contraction position, -/
theorem rhs_dot_S400x128_S128x128_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- column `i 1`. -/
theorem rhs_dot_S400x128_S128x128_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- So that product into the zero accumulator, at entry `(p, q)`, is `Σ_k l(p, k) · r(k, q)` over the 128 columns. -/
theorem matmul_S400x128_S128x128_apply (l : FVec Ideal S400x128 .f32) (r : FVec Ideal S128x128 .f32) (p : Fin 400) (q : Fin 128) :
    matmul dot_S400x128_S128x128_S400x128_1_0_0_1_n_n none l r (constant S400x128 .f32 0x00000000#32) (ix2 p q)
      = ∑ k : Fin 128, l (ix2 p k) * r (ix2 k q) := by
  refine (Ideal.matmul_constant_zero_apply dot_S400x128_S128x128_S400x128_1_0_0_1_n_n none l r (ix2 p q)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_dot_S400x128_S128x128_0 _ _
    | ⟨1, _⟩ => exact (lhs_dot_S400x128_S128x128_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_dot_S400x128_S128x128_0 _ _).trans hk
    | ⟨1, _⟩ => exact rhs_dot_S400x128_S128x128_1 _ _)
  rw [el, er]

/-! ## The body's arithmetic at an entry of the block -/

/-- Entry `(p, q)` of what the body stores: `max (Σ_k a(p, k) · t1(k, q) + b1(q)) 0 + (Σ_k x(p, k) · W(k, q) + b(q))`, the
    sums over the 10000 columns of the adjacency block and the 128 features. -/
theorem pay1_apply (a : Vec Ideal S400x10000 .f32) (t1 : Vec Ideal S10000x128 .f32) (x : Vec Ideal S400x128 .f32)
    (W : Vec Ideal S128x128 .f32) (b b1 : Vec Ideal S1x128 .f32) (p : Fin 400) (q : Fin 128) :
    k1_pay1 a t1 x W b b1 (ix2 p q)
      = max ((∑ k : Fin 10000, a (ix2 p k) * t1 (ix2 k q)) + b1 (ix2 (0 : Fin 1) q)) 0
          + ((∑ k : Fin 128, x (ix2 p k) * W (ix2 k q)) + b (ix2 (0 : Fin 1) q)) := by
  unfold k1_pay1
  show max (matmul (F := Ideal) dot_S400x10000_S10000x128_S400x128_1_0_0_1_n_n none a (shapeCast S10000x128 t1 _) (constant (F := Ideal) S400x128 .f32 0x00000000#32) (ix2 p q)
        + broadcastTo S400x128 (shapeCast S1x128 b1 _) _ (ix2 p q)) (Ideal.ofBits .f32 0x00000000#32)
      + ((matmul (F := Ideal) dot_S400x128_S128x128_S400x128_1_0_0_1_n_n none x W (constant (F := Ideal) S400x128 .f32 0x00000000#32) (ix2 p q) : EReal)
        + broadcastTo S400x128 (shapeCast S1x128 b _) _ (ix2 p q)) = _
  rw [shapeCast_self, shapeCast_self, shapeCast_self, matmul_S400x10000_S10000x128_apply, matmul_S400x128_S128x128_apply,
    broadcastTo_1b_ab_apply, broadcastTo_1b_ab_apply, Ideal.ofBits_zero_f32]

/-! ## The layer as one function of the arrays -/

/-- The second call's result as one function of the arrays it reads: `relu (adj · t1 + b1) + (x · W + b)`. -/
def G1 (adj : Vec Ideal S10000x10000 .f32) (t1 x : Vec Ideal S10000x128 .f32) (W : Vec Ideal S128x128 .f32)
    (b b1 : Vec Ideal S1x128 .f32) : Vec Ideal S10000x128 .f32 :=
  fun j => Spec.layer1 (cur2 adj) (cur2 t1) (cur2 x) (cur2 W) (row0 b) (row0 b1) (j 0) (j 1)

/-- A block of 400 rows of the layer: when row `p` of the adjacency block and of the feature block are row `r` of their
    arrays, entry `(p, q)` of what the body stores is the layer at `(r, q)`. -/
theorem pay1_eq_G1 (adj : Vec Ideal S10000x10000 .f32) (t1 x : Vec Ideal S10000x128 .f32) (W : Vec Ideal S128x128 .f32)
    (b b1 : Vec Ideal S1x128 .f32) (a : Vec Ideal S400x10000 .f32) (xb : Vec Ideal S400x128 .f32)
    (r : Fin 10000) (p : Fin 400) (q : Fin 128)
    (ha : ∀ k : Fin 10000, a (ix2 p k) = adj (ix2 r k)) (hx : ∀ k : Fin 128, xb (ix2 p k) = x (ix2 r k)) :
    k1_pay1 a t1 xb W b b1 (ix2 p q) = G1 adj t1 x W b b1 (ix2 r q) := by
  rw [pay1_apply]
  show _ = max ((∑ k : Fin 10000, adj (ix2 r k) * t1 (ix2 k q)) + b1 (ix2 (0 : Fin 1) q)) 0
      + ((∑ k : Fin 128, x (ix2 r k) * W (ix2 k q)) + b (ix2 (0 : Fin 1) q))
  simp only [ha, hx]

/-! ## From blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the 25 grid points: at point `t` the adjacency block, the feature block and the result
    block are row-block `t` (column-block 0) of their arrays; `t1`, `W` and the two bias rows are block (0, 0), the whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the adjacency block at point `t` is row `400·t + p` of the adjacency matrix. -/
theorem iblk1_0_apply (c : Dev nD) (t : Fin cfg1.N) (p : Fin 400) (k : Fin 10000) (r : Fin 10000)
    (hr : r.val = t.val * 400 + p.val) : iblk1 V c 0 t (ix2 p k) = V c main_arg1 (ix2 r k) := by
  obtain ⟨e00, e01, -⟩ := idx_facts1 t
  show V c main_arg1 (((cfg1.win 0).blk t).view.emb (ix2 p k)) = V c main_arg1 (ix2 r k)
  refine congrArg _ (funext fun a => Fin.ext ?_)
  match a with
  | ⟨0, _⟩ => show win1_0.index t (0 : Fin 2) * 400 + 1 * p.val = r.val; omega
  | ⟨1, _⟩ => show win1_0.index t (1 : Fin 2) * 10000 + 1 * k.val = k.val; omega

/-- Row `p` of the feature block at point `t` is row `400·t + p` of the features. -/
theorem iblk1_2_apply (c : Dev nD) (t : Fin cfg1.N) (p : Fin 400) (k : Fin 128) (r : Fin 10000)
    (hr : r.val = t.val * 400 + p.val) : iblk1 V c 2 t (ix2 p k) = V c main_arg0 (ix2 r k) := by
  obtain ⟨-, -, -, -, e20, e21, -⟩ := idx_facts1 t
  show V c main_arg0 (((cfg1.win 2).blk t).view.emb (ix2 p k)) = V c main_arg0 (ix2 r k)
  refine congrArg _ (funext fun a => Fin.ext ?_)
  match a with
  | ⟨0, _⟩ => show win1_2.index t (0 : Fin 2) * 400 + 1 * p.val = r.val; omega
  | ⟨1, _⟩ => show win1_2.index t (1 : Fin 2) * 128 + 1 * k.val = k.val; omega

/-- The block of `t1` at every point is the whole of `t1`. -/
theorem iblk1_1_eq (c : Dev nD) (t : Fin cfg1.N) : iblk1 V c 1 t = V c main_v6 := by
  obtain ⟨-, -, e10, e11, -⟩ := idx_facts1 t
  funext i
  show V c main_v6 (((cfg1.win 1).blk t).view.emb i) = V c main_v6 i
  refine congrArg _ (funext fun a => Fin.ext ?_)
  match a with
  | ⟨0, _⟩ => show win1_1.index t (0 : Fin 2) * 10000 + 1 * (i 0).val = (i 0).val; omega
  | ⟨1, _⟩ => show win1_1.index t (1 : Fin 2) * 128 + 1 * (i 1).val = (i 1).val; omega

/-- The block of `W` at every point is the whole of `W`. -/
theorem iblk1_3_eq (c : Dev nD) (t : Fin cfg1.N) : iblk1 V c 3 t = V c main_arg2 := by
  obtain ⟨-, -, -, -, -, -, e30, e31, -⟩ := idx_facts1 t
  funext i
  show V c main_arg2 (((cfg1.win 3).blk t).view.emb i) = V c main_arg2 i
  refine congrArg _ (funext fun a => Fin.ext ?_)
  match a with
  | ⟨0, _⟩ => show win1_3.index t (0 : Fin 2) * 128 + 1 * (i 0).val = (i 0).val; omega
  | ⟨1, _⟩ => show win1_3.index t (1 : Fin 2) * 128 + 1 * (i 1).val = (i 1).val; omega

/-- The block of the bias row `b` at every point is the whole row. -/
theorem iblk1_4_eq (c : Dev nD) (t : Fin cfg1.N) : iblk1 V c 4 t = V c main_v0 := by
  obtain ⟨-, -, -, -, -, -, -, -, e40, e41, -⟩ := idx_facts1 t
  funext i
  show V c main_v0 (((cfg1.win 4).blk t).view.emb i) = V c main_v0 i
  refine congrArg _ (funext fun a => Fin.ext ?_)
  match a with
  | ⟨0, _⟩ => show win1_4.index t (0 : Fin 2) * 1 + 1 * (i 0).val = (i 0).val; omega
  | ⟨1, _⟩ => show win1_4.index t (1 : Fin 2) * 128 + 1 * (i 1).val = (i 1).val; omega

/-- The block of the bias row `b1` at every point is the whole row. -/
theorem iblk1_5_eq (c : Dev nD) (t : Fin cfg1.N) : iblk1 V c 5 t = V c main_v1 := by
  obtain ⟨-, -, -, -, -, -, -, -, -, -, e50, e51, -⟩ := idx_facts1 t
  funext i
  show V c main_v1 (((cfg1.win 5).blk t).view.emb i) = V c main_v1 i
  refine congrArg _ (funext fun a => Fin.ext ?_)
  match a with
  | ⟨0, _⟩ => show win1_5.index t (0 : Fin 2) * 1 + 1 * (i 0).val = (i 0).val; omega
  | ⟨1, _⟩ => show win1_5.index t (1 : Fin 2) * 128 + 1 * (i 1).val = (i 1).val; omega

/-- What point `t` writes back is rows 400·t … 400·t+399 of the layer of the arrays as the call finds them. -/
theorem flushed1_eq (c : Dev nD) (t : Fin cfg1.N) :
    (dat1 V c).flushed 6 t = ((cfg1.win 6).blk t).view.read (Elt Ideal)
      (G1 (V c main_arg1) (V c main_v6) (V c main_arg0) (V c main_arg2) (V c main_v0) (V c main_v1)) := by
  show (cfg1.win 6).cut (cfg1.grid.coords t) ((dat1 V c).after 6 t) = _
  rw [after1_6]
  unfold out1_6
  rw [View.canon_unit_zero hz1]
  simp only [View.ld_unit_zero (S := S400x10000) hz1, View.ld_unit_zero (S := S10000x128) hz1, View.ld_unit_zero (S := S400x128) hz1,
    View.ld_unit_zero (S := S128x128) hz1, View.ld_unit_zero (S := S1x128) hz1]
  rw [iblk1_1_eq, iblk1_3_eq, iblk1_4_eq, iblk1_5_eq]
  obtain ⟨-, -, -, -, -, -, -, -, -, -, -, -, e60, e61⟩ := idx_facts1 t
  have ht : t.val < 25 := Nat.lt_of_lt_of_eq t.isLt N_1
  funext j
  have hj0 : (j 0).val < 400 := (j 0).isLt
  have hj1 : (j 1).val < 128 := (j 1).isLt
  have hcut : (cfg1.win 6).xinj (cfg1.grid.coords t) j = ix2 (⟨(j 0).val, hj0⟩ : Fin 400) (⟨(j 1).val, hj1⟩ : Fin 128) :=
    funext fun a => match a with | ⟨0, _⟩ => rfl | ⟨1, _⟩ => rfl
  have hemb : ((cfg1.win 6).blk t).view.emb j = ix2 (⟨t.val * 400 + (j 0).val, by omega⟩ : Fin 10000) (⟨(j 1).val, hj1⟩ : Fin 128) := by
    funext a; apply Fin.ext
    match a with
    | ⟨0, _⟩ => show win1_6.index t (0 : Fin 2) * 400 + 1 * (j 0).val = t.val * 400 + (j 0).val; omega
    | ⟨1, _⟩ => show win1_6.index t (1 : Fin 2) * 128 + 1 * (j 1).val = (j 1).val; omega
  show k1_pay1 (iblk1 V c 0 t) (V c main_v6) (iblk1 V c 2 t) (V c main_arg2) (V c main_v0) (V c main_v1) ((cfg1.win 6).xinj (cfg1.grid.coords t) j)
    = G1 (V c main_arg1) (V c main_v6) (V c main_arg0) (V c main_arg2) (V c main_v0) (V c main_v1) (((cfg1.win 6).blk t).view.emb j)
  rw [hcut, hemb]
  exact pay1_eq_G1 _ _ _ _ _ _ (iblk1 V c 0 t) (iblk1 V c 2 t) _ _ _
    (fun k => iblk1_0_apply V c t _ k _ rfl) (fun k => iblk1_2_apply V c t _ k _ rfl)

/-- An index of the result array is in point `t`'s block iff each coordinate is in the block's range on its axis. -/
theorem mem_blk1 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v7).slice (win1_6.rect t)).set ↔ _
  rw [View.set_slice_whole, Rect.mem_set_unit]
  exact Iff.rfl

/-- The 25 blocks of 400 rows tile the 10000 rows: row `r` is in the block of point `r / 400`. -/
theorem cover1 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, -, -, -, -, -, -, -, -, e60, e61⟩ := idx_facts1 t
  refine ⟨t, flush1_6 t, ?_⟩
  rw [mem_blk1]
  intro a
  match a with
  | ⟨0, _⟩ => show win1_6.index t (0 : Fin 2) * 400 ≤ (i 0).val ∧ (i 0).val < win1_6.index t (0 : Fin 2) * 400 + 400; omega
  | ⟨1, _⟩ => show win1_6.index t (1 : Fin 2) * 128 ≤ (i 1).val ∧ (i 1).val < win1_6.index t (1 : Fin 2) * 128 + 128; omega

/-- The result array after the call is `G1` of the arrays the call reads. -/
theorem final1 (c : Dev nD) :
    (dat1 V c).arrAt 6 cfg1.N = G1 (V c main_arg1) (V c main_v6) (V c main_arg0) (V c main_arg2) (V c main_v0) (V c main_v1) :=
  (dat1 V c).arrAt_eq_of_cover 6 (G1 (V c main_arg1) (V c main_v6) (V c main_arg0) (V c main_arg2) (V c main_v0) (V c main_v1))
    (fun t _ => flushed1_eq V c t) cover1

end Cert.KernelIdeal.Frame

end
-- ==== Proof.KI.Val2.lean ====
/-
  The third call of the kernel program as one function of the arrays it reads.

  The call walks 25 blocks of 400 rows. At block `t` it reads rows 400·t … 400·t+399 of the adjacency matrix `adj`
  and of the first hidden layer `h1`, and the whole of `h1`, `W2`, the bias row `b2` and the two halves `Wa`, `Wb` of
  the last layer's weights; it forms `h2 = relu ((adj · h1) · W2 + b2) + h1` on those rows and writes
  `h2 · Wa + h1 · Wb` as rows 400·t … 400·t+399 of the result. Entry `(p, l)` of a block depends on row `400·t + p` of
  `adj` and of `h1` alone, besides the arrays read whole, so the 25 blocks together are one function of the
  arrays, row by row: `Spec.mix (Spec.hidden2L adj h1 W2 b2) h1 Wa Wb`.

  Here: each of the body's three matrix products at an entry as a sum over the contracted coordinate; the body's
  arithmetic at an entry; a block of the result as the rows of that function; the blocks cover the result; so the
  result array after the call is that function of the arrays the call reads.
-/
import proofs.«166610_g58128087384883_cont_9to1_m_409_2_alg».proof.Proof.KI.R2
import proofs.«166610_g58128087384883_cont_9to1_m_409_2_alg».proof.Proof.Cur
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open scoped BigOperators

/-! ## The body's three products at an entry -/

/-- The product of a block of 400 rows of the adjacency matrix with the whole first layer (contraction over the 10000 nodes). The left operand's row is the entry's row. -/
theorem lhs_agg2_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column is the contracted coordinate. -/
theorem lhs_agg2_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row is the contracted coordinate. -/
theorem rhs_agg2_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column is the entry's column. -/
theorem rhs_agg2_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- Entry `(p, q)` of the product into the zero accumulator is `Σ_k l(p, k) · r(k, q)`. -/
theorem prod_agg2 (l : FVec Ideal S400x10000 .f32) (r : FVec Ideal S10000x128 .f32) (p : Fin 400) (q : Fin 128) :
    matmul dot_S400x10000_S10000x128_S400x128_1_0_0_1_n_n none l r (constant S400x128 .f32 0x00000000#32) (ix2 p q) = ∑ k : Fin 10000, l (ix2 p k) * r (ix2 k q) := by
  show FloatOps.matmul dot_S400x10000_S10000x128_S400x128_1_0_0_1_n_n none l r (constant S400x128 .f32 0x00000000#32) (ix2 p q) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_agg2_0 _ _
    | ⟨1, _⟩ => exact (lhs_agg2_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_agg2_0 _ _).trans hk
    | ⟨1, _⟩ => exact rhs_agg2_1 _ _)
  rw [el, er]

/-- The product of 400 aggregated rows with the square weights (contraction over the 128 hidden channels). The left operand's row is the entry's row. -/
theorem lhs_lin2_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column is the contracted coordinate. -/
theorem lhs_lin2_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row is the contracted coordinate. -/
theorem rhs_lin2_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column is the entry's column. -/
theorem rhs_lin2_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
/-- Entry `(p, q)` of the product into the zero accumulator is `Σ_k l(p, k) · r(k, q)`. -/
theorem prod_lin2 (l : FVec Ideal S400x128 .f32) (r : FVec Ideal S128x128 .f32) (p : Fin 400) (q : Fin 128) :
    matmul dot_S400x128_S128x128_S400x128_1_0_0_1_n_n none l r (constant S400x128 .f32 0x00000000#32) (ix2 p q) = ∑ k : Fin 128, l (ix2 p k) * r (ix2 k q) := by
  show FloatOps.matmul dot_S400x128_S128x128_S400x128_1_0_0_1_n_n none l r (constant S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_lin2_0 _ _
    | ⟨1, _⟩ => exact (lhs_lin2_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_lin2_0 _ _).trans hk
    | ⟨1, _⟩ => exact rhs_lin2_1 _ _)
  rw [el, er]

/-- The product of 400 hidden rows with one half of the last weights (contraction over the 128 hidden channels). The left operand's row is the entry's row. -/
theorem lhs_out2_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
/-- The left operand's column is the contracted coordinate. -/
theorem lhs_out2_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
/-- The right operand's row is the contracted coordinate. -/
theorem rhs_out2_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
/-- The right operand's column is the entry's column. -/
theorem rhs_out2_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl
/-- Entry `(p, q)` of the product into the zero accumulator is `Σ_k l(p, k) · r(k, q)`. -/
theorem prod_out2 (l : FVec Ideal S400x128 .f32) (r : FVec Ideal S128x64 .f32) (p : Fin 400) (q : Fin 64) :
    matmul dot_S400x128_S128x64_S400x64_1_0_0_1_n_n none l r (constant S400x64 .f32 0x00000000#32) (ix2 p q) = ∑ k : Fin 128, l (ix2 p k) * r (ix2 k q) := by
  show FloatOps.matmul dot_S400x128_S128x64_S400x64_1_0_0_1_n_n none l r (constant S400x64 .f32 0x00000000#32) (ix2 p q) = _
  rw [Ideal.matmul_constant_zero_apply, ← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p q) ((contrEquiv1 dot_S400x128_S128x64_S400x64_1_0_0_1_n_n 128 rfl rfl).symm k) = ix2 p k := funext fun a => Fin.ext (by
    match a with
    | ⟨0, _⟩ => exact lhs_out2_0 _ _
    | ⟨1, _⟩ => exact (lhs_out2_1 _ _).trans hk)
  have er : dot_S400x128_S128x64_S400x64_1_0_0_1_n_n.rhsIdx (ix2 p q) ((contrEquiv1 dot_S400x128_S128x64_S400x64_1_0_0_1_n_n 128 rfl rfl).symm k) = ix2 k q := funext fun a => Fin.ext (by
    match a with
    | ⟨0, _⟩ => exact (rhs_out2_0 _ _).trans hk
    | ⟨1, _⟩ => exact rhs_out2_1 _ _)
  rw [el, er]

/-! ## The body's arithmetic at an entry -/

/-- Entry `(p, q)` of what the body stores, from the blocks it loads: with `a` the 400 rows of the adjacency matrix,
    `h` the whole first layer, `hb` and `hb'` its 400 rows (loaded twice), the entry is
    `Σ_j (max (Σ_k (Σ_n a(p,n) · h(n,k)) · W2(k,j) + b(0,j)) 0 + hb(p,j)) · Wa(j,q) + Σ_j hb'(p,j) · Wb(j,q)`:
    it depends on row `p` of `a`, `hb`, `hb'` alone. -/
theorem pay2_apply (a : Vec Ideal S400x10000 .f32) (h : Vec Ideal S10000x128 .f32) (W2 : Vec Ideal S128x128 .f32)
    (b : Vec Ideal S1x128 .f32) (hb : Vec Ideal S400x128 .f32) (Wa : Vec Ideal S128x64 .f32) (hb' : Vec Ideal S400x128 .f32)
    (Wb : Vec Ideal S128x64 .f32) (p : Fin 400) (q : Fin 64) :
    k2_pay1 a h W2 b hb Wa hb' Wb (ix2 p q)
      = (∑ j : Fin 128, (max ((∑ k : Fin 128, (∑ n : Fin 10000, a (ix2 p n) * h (ix2 n k)) * W2 (ix2 k j)) + b (ix2 (0 : Fin 1) j)) 0
            + hb (ix2 p j)) * Wa (ix2 j q))
        + ∑ j : Fin 128, hb' (ix2 p j) * Wb (ix2 j q) := by
  unfold k2_pay1
  simp only [shapeCast_self]
  refine (addf_apply _ _ _).trans (congrArg₂ (· + ·) ?_ (prod_out2 _ _ p q))
  refine (prod_out2 _ _ p q).trans (Finset.sum_congr rfl fun j _ => congrArg (· * Wa (ix2 j q)) ?_)
  refine (addf_apply _ _ _).trans (congrArg (· + hb (ix2 p j)) ?_)
  refine (maximumf_apply _ _ _).trans (congrArg₂ max ?_ ?_)
  · refine (addf_apply _ _ _).trans (congrArg₂ (· + ·) ?_ (broadcastTo_1b_ab_apply _ _ p j))
    refine (prod_lin2 _ _ p j).trans (Finset.sum_congr rfl fun k _ => congrArg (· * W2 (ix2 k j)) ?_)
    exact prod_agg2 _ _ p k
  · exact Ideal.ofBits_zero_f32

/-! ## The result as one function of the arrays -/

/-- The third call's result as one function of the arrays it reads: `h2 · Wa + h1 · Wb` with
    `h2 = relu ((adj · h1) · W2 + b2) + h1`. -/
def G2 (adj : Vec Ideal S10000x10000 .f32) (h1 : Vec Ideal S10000x128 .f32) (W2 : Vec Ideal S128x128 .f32)
    (b2 : Vec Ideal S1x128 .f32) (Wa Wb : Vec Ideal S128x64 .f32) : Vec Ideal S10000x64 .f32 :=
  fun j => Spec.mix (Spec.hidden2L (cur2 adj) (cur2 h1) (cur2 W2) (row0 b2)) (cur2 h1) (cur2 Wa) (cur2 Wb) (j 0) (j 1)

/-- That function at row `r` and column `l`, the sums written out. -/
theorem G2_apply (adj : Vec Ideal S10000x10000 .f32) (h1 : Vec Ideal S10000x128 .f32) (W2 : Vec Ideal S128x128 .f32)
    (b2 : Vec Ideal S1x128 .f32) (Wa Wb : Vec Ideal S128x64 .f32) (r : Fin 10000) (l : Fin 64) :
    G2 adj h1 W2 b2 Wa Wb (ix2 r l)
      = (∑ j : Fin 128, (max ((∑ k : Fin 128, (∑ n : Fin 10000, adj (ix2 r n) * h1 (ix2 n k)) * W2 (ix2 k j)) + b2 (ix2 (0 : Fin 1) j)) 0
            + h1 (ix2 r j)) * Wa (ix2 j l))
        + ∑ j : Fin 128, h1 (ix2 r j) * Wb (ix2 j l) := rfl

/-- The body's arithmetic on blocks that hold row `r` of `adj` and of `h1` as their row `p`, and the arrays read
    whole, gives row `r` of that function as row `p` of what it stores. -/
theorem pay2_rows (adj : Vec Ideal S10000x10000 .f32) (h1 : Vec Ideal S10000x128 .f32) (W2 : Vec Ideal S128x128 .f32)
    (b2 : Vec Ideal S1x128 .f32) (Wa Wb : Vec Ideal S128x64 .f32)
    (a : Vec Ideal S400x10000 .f32) (h : Vec Ideal S10000x128 .f32) (W : Vec Ideal S128x128 .f32) (b : Vec Ideal S1x128 .f32)
    (hb : Vec Ideal S400x128 .f32) (A B : Vec Ideal S128x64 .f32) (r : Fin 10000) (p : Fin 400)
    (ha : ∀ n : Fin 10000, a (ix2 p n) = adj (ix2 r n))
    (hh : ∀ (n : Fin 10000) (k : Fin 128), h (ix2 n k) = h1 (ix2 n k))
    (hW : ∀ (k j : Fin 128), W (ix2 k j) = W2 (ix2 k j))
    (hbias : ∀ j : Fin 128, b (ix2 (0 : Fin 1) j) = b2 (ix2 (0 : Fin 1) j))
    (hhb : ∀ j : Fin 128, hb (ix2 p j) = h1 (ix2 r j))
    (hA : ∀ (j : Fin 128) (l : Fin 64), A (ix2 j l) = Wa (ix2 j l))
    (hB : ∀ (j : Fin 128) (l : Fin 64), B (ix2 j l) = Wb (ix2 j l)) (q : Fin 64) :
    k2_pay1 a h W b hb A hb B (ix2 p q) = G2 adj h1 W2 b2 Wa Wb (ix2 r q) := by
  rw [pay2_apply, G2_apply]
  simp only [ha, hh, hW, hbias, hhb, hA, hB]

/-! ## From blocks to the array -/

variable (V : (c : Dev nD) → (b : Ref sig .tc) → Buf (Elt Ideal) ((c : Thread nD τ).loc b))

/-- A buffer is read and written whole from its origin. -/
theorem origin2 : (![0, 0] : Fin 2 → Nat) = fun _ => 0 := funext fun a => by fin_cases a <;> rfl

/-- The block indices at point `t`: the adjacency matrix, the blocked first layer and the result are at row block
    `t`; every other window reads its whole array at every point. -/
theorem rows2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What point `t` writes back is rows 400·t … 400·t+399 of `G2` of the arrays as the call finds them: entry
    `(p, q)` of the stored block is computed from row `p` of the blocks of `adj` and `h1`, which are rows `400·t + p`
    of the arrays, and from the arrays read whole. -/
theorem flushed2_eq (c : Dev nD) (t : Fin cfg2.N) :
    (dat2 V c).flushed 7 t = ((cfg2.win 7).blk t).view.read (Elt Ideal)
      (G2 (V c main_arg1) (V c main_v7) (V c main_arg6) (V c main_v2) (V c main_v4) (V c main_v5)) := by
  show (cfg2.win 7).cut (cfg2.grid.coords t) ((dat2 V c).after 7 t) = _
  rw [after2_7]
  unfold out2_7
  rw [View.canon_unit_zero origin2]
  simp only [View.ld_unit_zero (S := S400x10000) origin2, View.ld_unit_zero (S := S10000x128) origin2,
    View.ld_unit_zero (S := S400x128) origin2, View.ld_unit_zero (S := S128x128) origin2,
    View.ld_unit_zero (S := S1x128) origin2, View.ld_unit_zero (S := S128x64) origin2]
  obtain ⟨e00, e01, e10, e11, e20, e21, e30, e31, e40, e41, e50, e51, e60, e61, e70, e71⟩ := rows2 t
  have ht : t.val < 25 := Nat.lt_of_lt_of_eq t.isLt N_2
  refine funext fun (y : S400x64.Idx) => ?_
  obtain ⟨p, q, rfl⟩ : ∃ (p : Fin 400) (q : Fin 64), y = ix2 p q := ⟨y 0, y 1, eq_ix2 y⟩
  have hr : 400 * t.val + p.val < 10000 := by have := p.isLt; omega
  have hemb : ((cfg2.win 7).blk t).view.emb (ix2 p q) = ix2 (⟨400 * t.val + p.val, hr⟩ : Fin 10000) q := by
    funext a; apply Fin.ext
    match a with
    | ⟨0, _⟩ => show win2_7.index t (0 : Fin 2) * 400 + 1 * p.val = 400 * t.val + p.val; rw [e70]; omega
    | ⟨1, _⟩ => show win2_7.index t (1 : Fin 2) * 64 + 1 * q.val = q.val; rw [e71]; omega
  show k2_pay1 (iblk2 V c 0 t) (iblk2 V c 1 t) (iblk2 V c 3 t) (iblk2 V c 4 t) (iblk2 V c 2 t) (iblk2 V c 5 t) (iblk2 V c 2 t) (iblk2 V c 6 t) (ix2 p q)
    = G2 (V c main_arg1) (V c main_v7) (V c main_arg6) (V c main_v2) (V c main_v4) (V c main_v5) (((cfg2.win 7).blk t).view.emb (ix2 p q))
  rw [hemb]
  refine pay2_rows (V c main_arg1) (V c main_v7) (V c main_arg6) (V c main_v2) (V c main_v4) (V c main_v5) _ _ _ _ _ _ _
    ⟨400 * t.val + p.val, hr⟩ p ?_ ?_ ?_ ?_ ?_ ?_ ?_ q
  · intro n
    show V c main_arg1 (((cfg2.win 0).blk t).view.emb (ix2 p n)) = V c main_arg1 (ix2 (⟨400 * t.val + p.val, hr⟩ : Fin 10000) n)
    refine congrArg (V c main_arg1) (funext fun a => Fin.ext ?_)
    match a with
    | ⟨0, _⟩ => show win2_0.index t (0 : Fin 2) * 400 + 1 * p.val = 400 * t.val + p.val; rw [e00]; omega
    | ⟨1, _⟩ => show win2_0.index t (1 : Fin 2) * 10000 + 1 * n.val = n.val; rw [e01]; omega
  · intro n k
    show V c main_v7 (((cfg2.win 1).blk t).view.emb (ix2 n k)) = V c main_v7 (ix2 n k)
    refine congrArg (V c main_v7) (funext fun a => Fin.ext ?_)
    match a with
    | ⟨0, _⟩ => show win2_1.index t (0 : Fin 2) * 10000 + 1 * n.val = n.val; rw [e10]; omega
    | ⟨1, _⟩ => show win2_1.index t (1 : Fin 2) * 128 + 1 * k.val = k.val; rw [e11]; omega
  · intro k j
    show V c main_arg6 (((cfg2.win 3).blk t).view.emb (ix2 k j)) = V c main_arg6 (ix2 k j)
    refine congrArg (V c main_arg6) (funext fun a => Fin.ext ?_)
    match a with
    | ⟨0, _⟩ => show win2_3.index t (0 : Fin 2) * 128 + 1 * k.val = k.val; rw [e30]; omega
    | ⟨1, _⟩ => show win2_3.index t (1 : Fin 2) * 128 + 1 * j.val = j.val; rw [e31]; omega
  · intro j
    show V c main_v2 (((cfg2.win 4).blk t).view.emb (ix2 (0 : Fin 1) j)) = V c main_v2 (ix2 (0 : Fin 1) j)
    refine congrArg (V c main_v2) (funext fun a => Fin.ext ?_)
    match a with
    | ⟨0, _⟩ => show win2_4.index t (0 : Fin 2) * 1 + 1 * 0 = 0; rw [e40]
    | ⟨1, _⟩ => show win2_4.index t (1 : Fin 2) * 128 + 1 * j.val = j.val; rw [e41]; omega
  · intro j
    show V c main_v7 (((cfg2.win 2).blk t).view.emb (ix2 p j)) = V c main_v7 (ix2 (⟨400 * t.val + p.val, hr⟩ : Fin 10000) j)
    refine congrArg (V c main_v7) (funext fun a => Fin.ext ?_)
    match a with
    | ⟨0, _⟩ => show win2_2.index t (0 : Fin 2) * 400 + 1 * p.val = 400 * t.val + p.val; rw [e20]; omega
    | ⟨1, _⟩ => show win2_2.index t (1 : Fin 2) * 128 + 1 * j.val = j.val; rw [e21]; omega
  · intro j l
    show V c main_v4 (((cfg2.win 5).blk t).view.emb (ix2 j l)) = V c main_v4 (ix2 j l)
    refine congrArg (V c main_v4) (funext fun a => Fin.ext ?_)
    match a with
    | ⟨0, _⟩ => show win2_5.index t (0 : Fin 2) * 128 + 1 * j.val = j.val; rw [e50]; omega
    | ⟨1, _⟩ => show win2_5.index t (1 : Fin 2) * 64 + 1 * l.val = l.val; rw [e51]; omega
  · intro j l
    show V c main_v5 (((cfg2.win 6).blk t).view.emb (ix2 j l)) = V c main_v5 (ix2 j l)
    refine congrArg (V c main_v5) (funext fun a => Fin.ext ?_)
    match a with
    | ⟨0, _⟩ => show win2_6.index t (0 : Fin 2) * 128 + 1 * j.val = j.val; rw [e60]; omega
    | ⟨1, _⟩ => show win2_6.index t (1 : Fin 2) * 64 + 1 * l.val = l.val; rw [e61]; omega

/-- An index of the result array is in point `t`'s block iff each coordinate is in the block's range on its axis. -/
theorem mem_blk2 (t : Fin cfg2.N) (i : S10000x64.Idx) :
    i ∈ ((cfg2.win 7).blk t).view.set ↔ ∀ a : Fin 2, win2_7.index t a * S400x64.size a ≤ (i a).val ∧ (i a).val < win2_7.index t a * S400x64.size a + S400x64.size a := by
  show i ∈ ((View.whole main_v8).slice (win2_7.rect t)).set ↔ _
  rw [View.set_slice_whole, Rect.mem_set_unit]
  exact Iff.rfl

/-- Every row of the result is in some point's block: row `r` is in block `r / 400`. -/
theorem cover2 (i : S10000x64.Idx) : ∃ t : Fin cfg2.N, (cfg2.win 7).flush t = true ∧ i ∈ ((cfg2.win 7).blk t).view.set := by
  have hi0 : (i 0).val < 10000 := (i 0).isLt
  have hi1 : (i 1).val < 64 := (i 1).isLt
  obtain ⟨t, ht⟩ : ∃ t : Fin cfg2.N, t.val = (i 0).val / 400 :=
    ⟨⟨(i 0).val / 400, Nat.lt_of_lt_of_eq (by omega : (i 0).val / 400 < 25) N_2.symm⟩, rfl⟩
  obtain ⟨e00, e01, e10, e11, e20, e21, e30, e31, e40, e41, e50, e51, e60, e61, e70, e71⟩ := rows2 t
  refine ⟨t, flush2_7 t, ?_⟩
  rw [mem_blk2]
  intro a
  match a with
  | ⟨0, _⟩ => show win2_7.index t (0 : Fin 2) * 400 ≤ (i 0).val ∧ (i 0).val < win2_7.index t (0 : Fin 2) * 400 + 400; rw [e70, ht]; omega
  | ⟨1, _⟩ => show win2_7.index t (1 : Fin 2) * 64 ≤ (i 1).val ∧ (i 1).val < win2_7.index t (1 : Fin 2) * 64 + 64; rw [e71]; omega

/-- The result array after the call is `G2` of the arrays the call reads. -/
theorem final2 (V : (c : Dev nD) → (b : Ref sig .tc) → Buf (Elt Ideal) ((c : Thread nD τ).loc b)) (c : Dev nD) :
    (dat2 V c).arrAt 7 cfg2.N = G2 (V c main_arg1) (V c main_v7) (V c main_arg6) (V c main_v2) (V c main_v4) (V c main_v5) :=
  (dat2 V c).arrAt_eq_of_cover 7 (G2 (V c main_arg1) (V c main_v7) (V c main_arg6) (V c main_v2) (V c main_v4) (V c main_v5))
    (fun t _ => flushed2_eq V c t) cover2

end Cert.KernelIdeal.Frame

end
-- ==== Proof.KI.Val3.lean ====
/-
  The fourth pallas_call of the kernel, read as values over the extended reals: at every point of its grid the body
  leaves in the result's staging buffer the row-wise log-softmax, spelt `z - (log (Σ exp (z - m)) + m)` with `m` the
  row's maximum, of the block of logits `z = adj_blk · u + b3`; point `t` writes it back as rows 400·t … 400·t+399 of the
  result; the 25 blocks tile the result, so the array after the call is the log-softmax of `adj · u + b3`, row by row.
-/
import proofs.«166610_g58128087384883_cont_9to1_m_409_2_alg».proof.Proof.KI.R3
import proofs.«166610_g58128087384883_cont_9to1_m_409_2_alg».proof.Proof.Cur
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec
open scoped BigOperators

/-! ## Columns and rows: the keepdims reshapes and the reductions along a row, read at an index -/

section Layout
variable {α : Type}

/-- A vector of length `a` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One value per row spread back over the columns reads, at `(p, l)`, the value of row `p`. -/
theorem spread_apply {a b : ℕ} (m : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (l : Fin b) :
    broadcastTo ⟨2, ![a, b]⟩ (shapeCast ⟨2, ![a, 1]⟩ m h1) h2 (ix2 p l) = m (ix1 p) :=
  (broadcastTo_a1_ab_apply _ h2 p l).trans (shapeCast_a_a1_apply m h1 p 0)

/-- The entry of a matrix that a reduction along the rows reads for row `p` at column `k` is `(p, k)`. -/
theorem lift_row_eq {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

end Layout

/-- The word a row maximum starts from is minus infinity. -/
theorem ofBits_neg_inf_f32 : Ideal.ofBits .f32 0xFF800000#32 = ⊥ := by simp [Ideal.ofBits, Ideal.ieee]

/-- A row maximum from minus infinity, at row `p`: the fold of `max` over the row's entries. -/
theorem rowMax_apply {a b : ℕ} (z : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ z 0xFF800000#32 h hφ hacc (ix1 p) = rowMax (cur2 z) p := by
  refine (Ideal.multiReduction_maximumf_single z _ h hφ hacc (ix1 p)).trans ?_
  rw [show (z ∘ h.lift (ix1 p)) = cur2 z p from funext fun k => congrArg z (lift_row_eq h p k)]
  show Finset.fold max (Ideal.ofBits .f32 0xFF800000#32) _ _ = _
  rw [ofBits_neg_inf_f32]
  rfl

/-- A row sum from zero, at row `p`: the sum of the row's entries. -/
theorem rowSum_apply {a b : ℕ} (z : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ z 0x00000000#32 h hφ hacc (ix1 p) = ∑ k : Fin b, z (ix2 p k) := by
  refine (Ideal.multiReduction_add_single z _ h hφ hacc (ix1 p)).trans ?_
  exact Finset.sum_congr rfl fun k _ => congrArg z (lift_row_eq h p k)

/-! ## The log-softmax of a block of logits -/

/-- The row-wise log-softmax of a block of logits as the body spells it: `z - (log (Σ exp (z - m)) + m)`, `m` each
    row's maximum and the sum along the row, both kept as columns and spread back over the row. -/
def lsmBlk {a b : ℕ} (z : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) : FVec Ideal ⟨2, ![a, b]⟩ .f32 :=
  have m : FVec Ideal ⟨1, ![a]⟩ .f32 := multiReduction .maximumf [1] ⟨1, ![a]⟩ z 0xFF800000#32 hr hφ hmax
  have mcol : FVec Ideal ⟨2, ![a, 1]⟩ .f32 := shapeCast ⟨2, ![a, 1]⟩ m hc
  have e : FVec Ideal ⟨2, ![a, b]⟩ .f32 := exp (subf z (broadcastTo ⟨2, ![a, b]⟩ mcol hb))
  have s : FVec Ideal ⟨1, ![a]⟩ .f32 := multiReduction .add [1] ⟨1, ![a]⟩ e 0x00000000#32 hr hφ hadd
  have lse : FVec Ideal ⟨2, ![a, 1]⟩ .f32 := addf (log (shapeCast ⟨2, ![a, 1]⟩ s hc)) mcol
  subf z (broadcastTo ⟨2, ![a, b]⟩ lse hb)

/-- At `(p, l)` it is the specification's log-softmax of the block, at row `p` and column `l`. -/
theorem lsmBlk_apply {a b : ℕ} (z : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (p : Fin a) (l : Fin b) :
    lsmBlk z hr hc hb hφ hmax hadd (ix2 p l) = logSoftmaxL (cur2 z) p l := by
  unfold lsmBlk
  have hexp : ∀ k : Fin b, exp (subf z (broadcastTo ⟨2, ![a, b]⟩ (shapeCast ⟨2, ![a, 1]⟩
      (multiReduction (F := Ideal) .maximumf [1] ⟨1, ![a]⟩ z 0xFF800000#32 hr hφ hmax) hc) hb)) (ix2 p k)
      = Ideal.exp (cur2 z p k - rowMax (cur2 z) p) := fun k =>
    congrArg (fun m => Ideal.exp (z (ix2 p k) - m)) ((spread_apply _ hc hb p k).trans (rowMax_apply z hr hφ hmax p))
  refine congrArg (fun w => z (ix2 p l) - w) ((broadcastTo_a1_ab_apply _ hb p l).trans ?_)
  refine congr (congrArg (fun s m => Ideal.log s + m) ?_) ?_
  · refine (shapeCast_a_a1_apply _ hc p 0).trans ((rowSum_apply _ hr hφ hadd p).trans ?_)
    exact Finset.sum_congr rfl fun k _ => hexp k
  · exact (shapeCast_a_a1_apply _ hc p 0).trans (rowMax_apply z hr hφ hmax p)

/-- The log-softmax at a row depends on that row only. -/
theorem logSoftmaxL_row {I I' C : Type} [Fintype C] (z : I → C → EReal) (z' : I' → C → EReal) (i : I) (i' : I')
    (h : z i = z' i') (l : C) : logSoftmaxL z i l = logSoftmaxL z' i' l := by
  unfold logSoftmaxL rowSumExp rowMax
  rw [h]

/-! ## The product `adj_blk · u` at an index -/

theorem lhs_adju_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_adju_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_adju_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_adju_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The product of a 400-row block of the adjacency matrix with `u`, into the zero accumulator, at `(p, l)`: the sum
    over the 10000 columns `k` of the block's `(p, k)` times `u`'s `(k, l)`. -/
theorem matmul_adju_apply (a : FVec Ideal S400x10000 .f32) (u : FVec Ideal S10000x64 .f32) (p : Fin 400) (l : Fin 64) :
    matmul dot_S400x10000_S10000x64_S400x64_1_0_0_1_n_n none a u (constant (F := Ideal) S400x64 .f32 0x00000000#32) (ix2 p l)
      = ∑ k : Fin 10000, a (ix2 p k) * u (ix2 k l) := by
  refine (Ideal.matmul_constant_zero_apply dot_S400x10000_S10000x64_S400x64_1_0_0_1_n_n none a u (ix2 p l)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p l) ((contrEquiv1 dot_S400x10000_S10000x64_S400x64_1_0_0_1_n_n 10000 rfl rfl).symm k) = ix2 p k := funext fun ax => Fin.ext (by
    match ax with
    | ⟨0, _⟩ => exact lhs_adju_0 _ _
    | ⟨1, _⟩ => exact (lhs_adju_1 _ _).trans hk)
  have er : dot_S400x10000_S10000x64_S400x64_1_0_0_1_n_n.rhsIdx (ix2 p l) ((contrEquiv1 dot_S400x10000_S10000x64_S400x64_1_0_0_1_n_n 10000 rfl rfl).symm k) = ix2 k l := funext fun ax => Fin.ext (by
    match ax with
    | ⟨0, _⟩ => exact (rhs_adju_0 _ _).trans hk
    | ⟨1, _⟩ => exact rhs_adju_1 _ _)
  rw [el, er]

/-! ## The body's arithmetic at an index -/

/-- The block of logits the body forms: the adjacency block times `u`, plus the bias row on every row. -/
def zblk (a : Vec Ideal S400x10000 .f32) (u : Vec Ideal S10000x64 .f32) (b : Vec Ideal S1x64 .f32) : FVec Ideal S400x64 .f32 :=
  have u' : FVec Ideal S10000x64 .f32 := shapeCast S10000x64 u shapeCasts_S10000x64_S10000x64
  have prod : FVec Ideal S400x64 .f32 := matmul (φ₁ := .f32) (φ₂ := .f32) dot_S400x10000_S10000x64_S400x64_1_0_0_1_n_n none a u' (constant S400x64 .f32 0x00000000#32)
  have b' : FVec Ideal S1x64 .f32 := shapeCast S1x64 b shapeCasts_S1x64_S1x64
  addf prod (broadcastTo S400x64 b' broadcasts_S1x64_S400x64)

/-- At `(p, l)`: `Σ_k a (p, k) · u (k, l) + b (0, l)`. -/
theorem zblk_apply (a : Vec Ideal S400x10000 .f32) (u : Vec Ideal S10000x64 .f32) (b : Vec Ideal S1x64 .f32) (p : Fin 400) (l : Fin 64) :
    zblk a u b (ix2 p l) = (∑ k : Fin 10000, a (ix2 p k) * u (ix2 k l)) + b (ix2 (0 : Fin 1) l) := by
  unfold zblk
  rw [shapeCast_self, shapeCast_self]
  exact congr (congrArg HAdd.hAdd (matmul_adju_apply a u p l)) (broadcastTo_1b_ab_apply b _ p l)

/-- The body's arithmetic is the log-softmax of that block. -/
theorem k3_pay1_eq (a : Vec Ideal S400x10000 .f32) (u : Vec Ideal S10000x64 .f32) (b : Vec Ideal S1x64 .f32) :
    k3_pay1 (F := Ideal) a u b
      = lsmBlk (zblk a u b) reduces_S400x64_S400 shapeCasts_S400_S400x1 broadcasts_S400x1_S400x64 (.inl rfl) rfl rfl := rfl

/-- THE BODY'S ARITHMETIC AT `(p, l)`, for input blocks whose row `p` of the adjacency block is row `r` of a matrix
    `adj`: the log-softmax of `adj · u + b` at row `r` and column `l` (the entry depends on row `r` of `adj`, all of `u`
    and the bias row only). -/
theorem k3_pay1_apply (a : Vec Ideal S400x10000 .f32) (u : Vec Ideal S10000x64 .f32) (b : Vec Ideal S1x64 .f32)
    (adj : Vec Ideal S10000x10000 .f32) (r : Fin 10000) (p : Fin 400) (l : Fin 64)
    (ha : ∀ k : Fin 10000, a (ix2 p k) = adj (ix2 r k)) :
    k3_pay1 (F := Ideal) a u b (ix2 p l) = logSoftmaxL (logits (cur2 adj) (cur2 u) (row0 b)) r l := by
  rw [k3_pay1_eq]
  refine (lsmBlk_apply (zblk a u b) _ _ _ _ _ _ p l).trans (logSoftmaxL_row _ _ p r (funext fun l' => ?_) l)
  refine (zblk_apply a u b p l').trans ?_
  show _ = (∑ k : Fin 10000, adj (ix2 r k) * u (ix2 k l')) + b (ix2 (0 : Fin 1) l')
  rw [Finset.sum_congr rfl fun k _ => congrArg (· * u (ix2 k l')) (ha k)]

/-! ## From blocks to the array -/

variable (V : (c : Dev nD) → (b : Ref sig .tc) → Buf (Elt Ideal) ((c : Thread nD τ).loc b))

/-- The fourth call's result as one function of the arrays it reads: the row-wise log-softmax, spelt
    `z - (log (Σ exp (z - m)) + m)`, of `z = adj · u + b3`. -/
def G3 (adj : Vec Ideal S10000x10000 .f32) (u : Vec Ideal S10000x64 .f32) (b3 : Vec Ideal S1x64 .f32) :
    Vec Ideal S10000x64 .f32 :=
  fun j => Spec.logSoftmaxL (Spec.logits (cur2 adj) (cur2 u) (row0 b3)) (j 0) (j 1)

/-- The offsets of a rectangle that starts at the origin. -/
theorem hz3 : (![0, 0] : Fin 2 → Nat) = fun _ => 0 := funext fun a => match a with | ⟨0, _⟩ => rfl | ⟨1, _⟩ => rfl

/-- The block indices over the grid: at point `t` the adjacency matrix's window and the result's are at row-block `t`,
    column-block 0; `u`'s and the bias row's are at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- At every point the block of `u` the body reads is the whole of `u`. -/
theorem iblk3_1_eq (c : Dev nD) (t : Fin cfg3.N) : iblk3 V c 1 t = V c main_v8 := by
  obtain ⟨-, -, e0, e1, -, -, -, -⟩ := idx_facts3 t
  funext y
  show V c main_v8 (((cfg3.win 1).blk t).view.emb y) = V c main_v8 y
  refine congrArg _ (funext fun a => Fin.ext ?_)
  match a with
  | ⟨0, _⟩ => show win3_1.index t (0 : Fin 2) * 10000 + 1 * (y 0).val = (y 0).val; omega
  | ⟨1, _⟩ => show win3_1.index t (1 : Fin 2) * 64 + 1 * (y 1).val = (y 1).val; omega

/-- At every point the block of the bias the body reads is the whole bias row. -/
theorem iblk3_2_eq (c : Dev nD) (t : Fin cfg3.N) : iblk3 V c 2 t = V c main_v3 := by
  obtain ⟨-, -, -, -, e0, e1, -, -⟩ := idx_facts3 t
  funext y
  show V c main_v3 (((cfg3.win 2).blk t).view.emb y) = V c main_v3 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- WHAT POINT `t` WRITES BACK is block `t` of `G3` of the arrays as the call finds them: entry `(p, l)` of the block is
    the log-softmax of `adj · u + b3` at row `400·t + p` and column `l`, because row `p` of the adjacency block is row
    `400·t + p` of `adj`. -/
theorem flushed3_eq (c : Dev nD) (t : Fin cfg3.N) :
    (dat3 V c).flushed 3 t
      = ((cfg3.win 3).blk t).view.read (Elt Ideal) (G3 (V c main_arg1) (V c main_v8) (V c main_v3)) := by
  show (cfg3.win 3).cut (cfg3.grid.coords t) ((dat3 V c).after 3 t) = _
  rw [after3_3]
  unfold out3_3
  rw [View.canon_unit_zero hz3]
  simp only [View.ld_unit_zero (S := S400x10000) hz3, View.ld_unit_zero (S := S10000x64) hz3, View.ld_unit_zero (S := S1x64) hz3]
  rw [iblk3_1_eq, iblk3_2_eq]
  obtain ⟨e0, e1, -, -, -, -, e6, e7⟩ := idx_facts3 t
  have hN : cfg3.N = 25 := N_3
  refine funext fun (j : S400x64.Idx) => ?_
  obtain ⟨p, l, rfl⟩ : ∃ (p : Fin 400) (l : Fin 64), j = ix2 p l := ⟨j 0, j 1, eq_ix2 j⟩
  have hr : t.val * 400 + p.val < 10000 := by have := t.isLt; omega
  refine (k3_pay1_apply (iblk3 V c 0 t) (V c main_v8) (V c main_v3) (V c main_arg1) ⟨t.val * 400 + p.val, hr⟩ p l
    (fun k => ?_)).trans ?_
  · show V c main_arg1 (((cfg3.win 0).blk t).view.emb (ix2 p k)) = V c main_arg1 (ix2 ⟨t.val * 400 + p.val, hr⟩ k)
    refine congrArg _ (funext fun a => Fin.ext ?_)
    match a with
    | ⟨0, _⟩ => show win3_0.index t (0 : Fin 2) * 400 + 1 * p.val = t.val * 400 + p.val; omega
    | ⟨1, _⟩ => show win3_0.index t (1 : Fin 2) * 10000 + 1 * k.val = k.val; omega
  · have h0 : (((cfg3.win 3).blk t).view.emb (ix2 p l)) 0 = (⟨t.val * 400 + p.val, hr⟩ : Fin 10000) :=
      Fin.ext (by show win3_3.index t (0 : Fin 2) * 400 + 1 * p.val = t.val * 400 + p.val; omega)
    have h1 : (((cfg3.win 3).blk t).view.emb (ix2 p l)) 1 = l :=
      Fin.ext (by show win3_3.index t (1 : Fin 2) * 64 + 1 * l.val = l.val; omega)
    exact (congr (congrArg (logSoftmaxL (logits (cur2 (V c main_arg1)) (cur2 (V c main_v8)) (row0 (V c main_v3)))) h0) h1).symm

/-- A row-column pair of the result lies in point `t`'s block iff each coordinate is in the block's range. -/
theorem mem_blk3 (t : Fin cfg3.N) (i : S10000x64.Idx) :
    i ∈ ((cfg3.win 3).blk t).view.set ↔ ∀ a : Fin 2, win3_3.index t a * S400x64.size a ≤ (i a).val
      ∧ (i a).val < win3_3.index t a * S400x64.size a + S400x64.size a := by
  show i ∈ ((View.whole main_v9).slice (win3_3.rect t)).set ↔ _
  rw [View.set_slice_whole, Rect.mem_set_unit]
  exact Iff.rfl

/-- The 25 blocks of 400 rows tile the result: row `r` lies in the block of point `r / 400`. -/
theorem cover3 (i : S10000x64.Idx) :
    ∃ t : Fin cfg3.N, (cfg3.win 3).flush t = true ∧ i ∈ ((cfg3.win 3).blk t).view.set := by
  have hi0 : (i 0).val < 10000 := (i 0).isLt
  have hi1 : (i 1).val < 64 := (i 1).isLt
  have hN : cfg3.N = 25 := N_3
  obtain ⟨t, ht⟩ : ∃ t : Fin cfg3.N, t.val = (i 0).val / 400 := ⟨⟨(i 0).val / 400, by omega⟩, rfl⟩
  obtain ⟨-, -, -, -, -, -, e6, e7⟩ := idx_facts3 t
  refine ⟨t, flush3_3 t, ?_⟩
  rw [mem_blk3]
  intro a
  match a with
  | ⟨0, _⟩ =>
    show win3_3.index t (0 : Fin 2) * 400 ≤ (i 0).val ∧ (i 0).val < win3_3.index t (0 : Fin 2) * 400 + 400
    omega
  | ⟨1, _⟩ =>
    show win3_3.index t (1 : Fin 2) * 64 ≤ (i 1).val ∧ (i 1).val < win3_3.index t (1 : Fin 2) * 64 + 64
    omega

/-- The result array after the call is `G3` of the arrays the call reads. -/
theorem final3 (c : Dev nD) :
    (dat3 V c).arrAt 3 cfg3.N = G3 (V c main_arg1) (V c main_v8) (V c main_v3) :=
  (dat3 V c).arrAt_eq_of_cover 3 (G3 (V c main_arg1) (V c main_v8) (V c main_v3)) (fun t _ => flushed3_eq V c t) cover3

end Cert.KernelIdeal.Frame

end
-- ==== Proof.KI.HostOps.lean ====
/-
  The six host operations that come before the kernel program's calls: four bias vectors recast as one-row matrices,
  and the last layer's weights cut into their upper and lower 128 rows. Part one says what each of the six result
  buffers holds afterwards, as a function of the launch memory, for any float family. Part two reads those results
  over the extended reals as functions of their coordinates: a one-row matrix made from a vector has the vector's
  entries along its row, and the two cuts of a 256-row matrix are its first and its last 128 rows.
-/
import proofs.«166610_g58128087384883_cont_9to1_m_409_2_alg».proof.Proof.Gen.KernelIdeal.Launch
import proofs.«166610_g58128087384883_cont_9to1_m_409_2_alg».proof.Proof.Cur
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Frame

open Cert.KernelIdeal Cert.KernelIdeal.Gen
open Idealize.ShloMosaic Idealize.ShloMosaic.TcCoe
open Idealize.SL.Sem
open Idealize.ShloMosaic.ValueIdx
open Cert.Spec

/-! ## What the six result buffers hold after the host operations -/

section Host

variable {F : FTy → Type} [FloatOps F] (m : (ℓ : Loc nD τ sig) → Buf (Elt F) ℓ)

/-- The first layer's bias as a one-row matrix. -/
theorem host_v0 (c : Dev nD) :
    StableHlo.after (hostOps0 (F := F)) (fun b => m ((c : Dev nD), b)) (Proc.devRef .tc main_v0)
      = shapeCast S1x128 (m ((c : Thread nD τ).loc main_arg3)) shapeCasts_S128_S1x128 := by
  after_results
  rfl

/-- The second layer's bias as a one-row matrix. -/
theorem host_v1 (c : Dev nD) :
    StableHlo.after (hostOps0 (F := F)) (fun b => m ((c : Dev nD), b)) (Proc.devRef .tc main_v1)
      = shapeCast S1x128 (m ((c : Thread nD τ).loc main_arg5)) shapeCasts_S128_S1x128 := by
  after_results
  rfl

/-- The third layer's first bias as a one-row matrix. -/
theorem host_v2 (c : Dev nD) :
    StableHlo.after (hostOps0 (F := F)) (fun b => m ((c : Dev nD), b)) (Proc.devRef .tc main_v2)
      = shapeCast S1x128 (m ((c : Thread nD τ).loc main_arg7)) shapeCasts_S128_S1x128 := by
  after_results
  rfl

/-- The last bias (64 entries) as a one-row matrix. -/
theorem host_v3 (c : Dev nD) :
    StableHlo.after (hostOps0 (F := F)) (fun b => m ((c : Dev nD), b)) (Proc.devRef .tc main_v3)
      = shapeCast S1x64 (m ((c : Thread nD τ).loc main_arg9)) shapeCasts_S64_S1x64 := by
  after_results
  rfl

/-- Rows 0 to 127 of the last weights. -/
theorem host_v4 (c : Dev nD) :
    StableHlo.after (hostOps0 (F := F)) (fun b => m ((c : Dev nD), b)) (Proc.devRef .tc main_v4)
      = extractStridedSlice S128x64 ![0, 0] (m ((c : Thread nD τ).loc main_arg8)) slices_S256x64_S128x64_0_0 := by
  after_results

/-- Rows 128 to 255 of the last weights. -/
theorem host_v5 (c : Dev nD) :
    StableHlo.after (hostOps0 (F := F)) (fun b => m ((c : Dev nD), b)) (Proc.devRef .tc main_v5)
      = extractStridedSlice S128x64 ![128, 0] (m ((c : Thread nD τ).loc main_arg8)) slices_S256x64_S128x64_128_0 := by
  after_results

end Host

/-! ## The same results over the extended reals, by coordinates -/

/-- A vector of 128 entries recast as a one-row matrix has the vector's entries along that row. -/
theorem row0_reshape128 (b : Vec Ideal S128 .f32) : row0 (shapeCast S1x128 b shapeCasts_S128_S1x128) = cur1 b := by
  funext j
  exact shapeCast_a_1a_apply b shapeCasts_S128_S1x128 (0 : Fin 1) j

/-- A vector of 64 entries recast as a one-row matrix has the vector's entries along that row. -/
theorem row0_reshape64 (b : Vec Ideal S64 .f32) : row0 (shapeCast S1x64 b shapeCasts_S64_S1x64) = cur1 b := by
  funext j
  exact shapeCast_a_1a_apply b shapeCasts_S64_S1x64 (0 : Fin 1) j

/-- The cut of a 256-row matrix at row offset 0 is its first 128 rows. -/
theorem cur2_slice_top (W3 : Vec Ideal S256x64 .f32) :
    cur2 (extractStridedSlice S128x64 ![0, 0] W3 slices_S256x64_S128x64_0_0) = top (cur2 W3) := by
  funext k l
  show extractStridedSlice S128x64 ![0, 0] W3 slices_S256x64_S128x64_0_0 (ix2 k l) = W3 (ix2 ⟨k.val, by omega⟩ l)
  exact slice2_axis0_apply 0 W3 slices_S256x64_S128x64_0_0 k l ⟨k.val, by omega⟩ (Nat.zero_add _).symm

/-- The cut of a 256-row matrix at row offset 128 is its last 128 rows. -/
theorem cur2_slice_bot (W3 : Vec Ideal S256x64 .f32) :
    cur2 (extractStridedSlice S128x64 ![128, 0] W3 slices_S256x64_S128x64_128_0) = bot (cur2 W3) := by
  funext k l
  show extractStridedSlice S128x64 ![128, 0] W3 slices_S256x64_S128x64_128_0 (ix2 k l) = W3 (ix2 ⟨128 + k.val, by omega⟩ l)
  exact slice2_axis0_apply 128 W3 slices_S256x64_S128x64_128_0 k l ⟨128 + k.val, by omega⟩ rfl

end Cert.KernelIdeal.Frame

end
-- ==== Proof.KI.Result.lean ====
/-
  The kernel program's result as ONE function of its arguments. The last pallas_call leaves the row-wise log-softmax
  of `adj · u + b3`; `u` is what the third call left, `h2 · Wa + h1 · Wb` with `h2 = relu ((adj · h1) · W2 + b2) + h1`;
  `h1` is what the second call left, `relu (adj · t1 + b1) + (x · W + b)`; `t1 = x · W1` is what the first call left;
  the bias rows are the host's reshapes of the bias vectors and `Wa`, `Wb` its two slices of the last weights. Each
  array a call reads is found, at the boundary where the call is entered, as what an earlier call left or as the
  launch contents; composed, the result read by row and column is the network `Cert.Spec.netL` of the arguments.
-/
import proofs.«166610_g58128087384883_cont_9to1_m_409_2_alg».proof.Proof.KI.Run
import proofs.«166610_g58128087384883_cont_9to1_m_409_2_alg».proof.Proof.KI.Val0
import proofs.«166610_g58128087384883_cont_9to1_m_409_2_alg».proof.Proof.KI.Val1
import proofs.«166610_g58128087384883_cont_9to1_m_409_2_alg».proof.Proof.KI.Val2
import proofs.«166610_g58128087384883_cont_9to1_m_409_2_alg».proof.Proof.KI.Val3
import proofs.«166610_g58128087384883_cont_9to1_m_409_2_alg».proof.Proof.KI.HostOps

set_option maxRecDepth 16384

noncomputable section

namespace Cert.KernelIdeal.Frame

open Cert.KernelIdeal Cert.KernelIdeal.Gen Cert.Spec
open Idealize.ShloMosaic Idealize.ShloMosaic.TcCoe Idealize.ShloMosaic.ValueIdx
open Idealize.SL.Sem

/-! ## Each call's result function read by row and column -/

theorem cur2_G0 (x : Vec Ideal S10000x128 .f32) (W1 : Vec Ideal S128x128 .f32) :
    cur2 (G0 x W1) = mm (cur2 x) (cur2 W1) := rfl

theorem cur2_G1 (adj : Vec Ideal S10000x10000 .f32) (t1 x : Vec Ideal S10000x128 .f32) (W : Vec Ideal S128x128 .f32)
    (b b1 : Vec Ideal S1x128 .f32) :
    cur2 (G1 adj t1 x W b b1) = layer1 (cur2 adj) (cur2 t1) (cur2 x) (cur2 W) (row0 b) (row0 b1) := rfl

theorem cur2_G2 (adj : Vec Ideal S10000x10000 .f32) (h1 : Vec Ideal S10000x128 .f32) (W2 : Vec Ideal S128x128 .f32)
    (b2 : Vec Ideal S1x128 .f32) (Wa Wb : Vec Ideal S128x64 .f32) :
    cur2 (G2 adj h1 W2 b2 Wa Wb)
      = mix (hidden2L (cur2 adj) (cur2 h1) (cur2 W2) (row0 b2)) (cur2 h1) (cur2 Wa) (cur2 Wb) := rfl

theorem cur2_G3 (adj : Vec Ideal S10000x10000 .f32) (u : Vec Ideal S10000x64 .f32) (b3 : Vec Ideal S1x64 .f32) :
    cur2 (G3 adj u b3) = logSoftmaxL (logits (cur2 adj) (cur2 u) (row0 b3)) := rfl

variable (m : (ℓ : Loc nD τ sig) → Buf (Elt Ideal) ℓ) (ρ : Dev nD → PrngReg)

/-! ## The arrays each call reads, at the boundary where it is entered -/

/-- A buffer the host operations do not write and no call's result is: at every boundary it is as launched. -/
theorem V1_launch (c : Dev nD) (b : Ref sig .tc) (h0 : b ≠ main_v0) (h1 : b ≠ main_v1) (h2 : b ≠ main_v2) (h3 : b ≠ main_v3)
    (h4 : b ≠ main_v4) (h5 : b ≠ main_v5) : V1 m ρ c b = m ((c : Thread nD τ).loc b) :=
  (W1_of_ne m ρ c b h0 h1 h2 h3 h4 h5).trans rfl
theorem V2_launch (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) : V2 m ρ c b = m ((c : Thread nD τ).loc b) :=
  (W2_keep m ρ c b h6).trans (V1_launch m ρ c b h0 h1 h2 h3 h4 h5)
theorem V3_launch (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) : V3 m ρ c b = m ((c : Thread nD τ).loc b) :=
  (W3_keep m ρ c b h7).trans (V2_launch m ρ c b h0 h1 h2 h3 h4 h5 h6)
theorem V4_launch (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) :
    V4 m ρ c b = m ((c : Thread nD τ).loc b) :=
  (W4_of_ne m ρ c b h8).trans (V3_launch m ρ c b h0 h1 h2 h3 h4 h5 h6 h7)

/-- A host operation's result is, at every later boundary, what the host operations left. -/
theorem V2_host (c : Dev nD) (b : Ref sig .tc) (h6 : b ≠ main_v6) : V2 m ρ c b = W1 m ρ c (Proc.devRef .tc b) :=
  W2_keep m ρ c b h6
theorem V3_host (c : Dev nD) (b : Ref sig .tc) (h6 : b ≠ main_v6) (h7 : b ≠ main_v7) : V3 m ρ c b = W1 m ρ c (Proc.devRef .tc b) :=
  (W3_keep m ρ c b h7).trans (V2_host m ρ c b h6)
theorem V4_host (c : Dev nD) (b : Ref sig .tc) (h6 : b ≠ main_v6) (h7 : b ≠ main_v7) (h8 : b ≠ main_v8) :
    V4 m ρ c b = W1 m ρ c (Proc.devRef .tc b) :=
  (W4_of_ne m ρ c b h8).trans (V3_host m ρ c b h6 h7)

/-! ## The layers, one by one -/

/-- What the first call leaves: `t1 = x · W1`. -/
theorem t1_value (c : Dev nD) :
    cur2 (V2 m ρ c main_v6) = mm (cur2 (m ((c : Thread nD τ).loc main_arg0))) (cur2 (m ((c : Thread nD τ).loc main_arg4))) := by
  have e : V2 m ρ c main_v6 = G0 (V1 m ρ c main_arg0) (V1 m ρ c main_arg4) := (W2_arr m ρ c 2).trans (final0 (V1 m ρ) c)
  rw [e, cur2_G0, V1_launch m ρ c main_arg0 (by decide) (by decide) (by decide) (by decide) (by decide) (by decide), V1_launch m ρ c main_arg4 (by decide) (by decide) (by decide) (by decide) (by decide) (by decide)]

/-- What the second call leaves: the first hidden layer. -/
theorem h1_value (c : Dev nD) :
    cur2 (V3 m ρ c main_v7)
      = hidden1 (cur2 (m ((c : Thread nD τ).loc main_arg1))) (cur2 (m ((c : Thread nD τ).loc main_arg0)))
          (cur2 (m ((c : Thread nD τ).loc main_arg2))) (cur2 (m ((c : Thread nD τ).loc main_arg4)))
          (cur1 (m ((c : Thread nD τ).loc main_arg3))) (cur1 (m ((c : Thread nD τ).loc main_arg5))) := by
  have e : V3 m ρ c main_v7 = G1 (V2 m ρ c main_arg1) (V2 m ρ c main_v6) (V2 m ρ c main_arg0) (V2 m ρ c main_arg2)
      (V2 m ρ c main_v0) (V2 m ρ c main_v1) := (W3_arr m ρ c 6).trans (final1 (V2 m ρ) c)
  have eb : row0 (V2 m ρ c main_v0) = cur1 (m ((c : Thread nD τ).loc main_arg3)) := by
    rw [V2_host m ρ c main_v0 (by decide)]; exact (congrArg row0 (host_v0 m c)).trans (row0_reshape128 _)
  have eb1 : row0 (V2 m ρ c main_v1) = cur1 (m ((c : Thread nD τ).loc main_arg5)) := by
    rw [V2_host m ρ c main_v1 (by decide)]; exact (congrArg row0 (host_v1 m c)).trans (row0_reshape128 _)
  rw [e, cur2_G1, t1_value, eb, eb1, V2_launch m ρ c main_arg1 (by decide) (by decide) (by decide) (by decide) (by decide) (by decide) (by decide),
    V2_launch m ρ c main_arg0 (by decide) (by decide) (by decide) (by decide) (by decide) (by decide) (by decide), V2_launch m ρ c main_arg2 (by decide) (by decide) (by decide) (by decide) (by decide) (by decide) (by decide)]
  rfl

/-- What the third call leaves: the second hidden layer times the stacked last weights. -/
theorem u_value (c : Dev nD) :
    cur2 (V4 m ρ c main_v8)
      = mix (hidden2L (cur2 (m ((c : Thread nD τ).loc main_arg1))) (cur2 (V3 m ρ c main_v7))
              (cur2 (m ((c : Thread nD τ).loc main_arg6))) (cur1 (m ((c : Thread nD τ).loc main_arg7))))
          (cur2 (V3 m ρ c main_v7)) (top (cur2 (m ((c : Thread nD τ).loc main_arg8)))) (bot (cur2 (m ((c : Thread nD τ).loc main_arg8)))) := by
  have e : V4 m ρ c main_v8 = G2 (V3 m ρ c main_arg1) (V3 m ρ c main_v7) (V3 m ρ c main_arg6) (V3 m ρ c main_v2)
      (V3 m ρ c main_v4) (V3 m ρ c main_v5) := (W4_out m ρ c).trans (final2 (V3 m ρ) c)
  have eb2 : row0 (V3 m ρ c main_v2) = cur1 (m ((c : Thread nD τ).loc main_arg7)) := by
    rw [V3_host m ρ c main_v2 (by decide) (by decide)]; exact (congrArg row0 (host_v2 m c)).trans (row0_reshape128 _)
  have ea : cur2 (V3 m ρ c main_v4) = top (cur2 (m ((c : Thread nD τ).loc main_arg8))) := by
    rw [V3_host m ρ c main_v4 (by decide) (by decide)]; exact (congrArg cur2 (host_v4 m c)).trans (cur2_slice_top _)
  have eb : cur2 (V3 m ρ c main_v5) = bot (cur2 (m ((c : Thread nD τ).loc main_arg8))) := by
    rw [V3_host m ρ c main_v5 (by decide) (by decide)]; exact (congrArg cur2 (host_v5 m c)).trans (cur2_slice_bot _)
  rw [e, cur2_G2, eb2, ea, eb, V3_launch m ρ c main_arg1 (by decide) (by decide) (by decide) (by decide) (by decide) (by decide) (by decide) (by decide),
    V3_launch m ρ c main_arg6 (by decide) (by decide) (by decide) (by decide) (by decide) (by decide) (by decide) (by decide)]

/-- The kernel program's result, read by row and column, is the network of its arguments with the second layer's
    product grouped `(adj · h1) · W2` and the log-softmax spelt `z - (log s + m)`. -/
theorem kernel_value (c : Dev nD) :
    cur2 ((dat3 (V4 m ρ) c).arrAt 3 cfg3.N)
      = netL (cur2 (m ((c : Thread nD τ).loc main_arg1))) (cur2 (m ((c : Thread nD τ).loc main_arg0)))
          (cur2 (m ((c : Thread nD τ).loc main_arg2))) (cur2 (m ((c : Thread nD τ).loc main_arg4)))
          (cur1 (m ((c : Thread nD τ).loc main_arg3))) (cur1 (m ((c : Thread nD τ).loc main_arg5)))
          (cur2 (m ((c : Thread nD τ).loc main_arg6))) (cur1 (m ((c : Thread nD τ).loc main_arg7)))
          (top (cur2 (m ((c : Thread nD τ).loc main_arg8)))) (bot (cur2 (m ((c : Thread nD τ).loc main_arg8))))
          (cur1 (m ((c : Thread nD τ).loc main_arg9))) := by
  have eb3 : row0 (V4 m ρ c main_v3) = cur1 (m ((c : Thread nD τ).loc main_arg9)) := by
    rw [V4_host m ρ c main_v3 (by decide) (by decide) (by decide)]; exact (congrArg row0 (host_v3 m c)).trans (row0_reshape64 _)
  rw [final3 (V4 m ρ) c, cur2_G3, eb3, u_value, h1_value,
    V4_launch m ρ c main_arg1 (by decide) (by decide) (by decide) (by decide) (by decide) (by decide) (by decide) (by decide) (by decide)]
  rfl

end Cert.KernelIdeal.Frame

end
-- ==== Proof.Ref.Value.lean ====
/-
  The reference's result read by row and column.

  The reference computes, from the node features `x`, the dense adjacency matrix `adj`, the weights and the biases,
    h1 = relu (adj · (x · W1) + b1) + (x · W + b)
    h2 = relu (adj · (h1 · W2) + b2) + h1
    u  = [h2 | h1] · W3          -- the concatenation along the columns times the 256 × 64 weights
    z  = adj · u + b3
    out = (z - m) - log (Σ exp (z - m)),   m the row's maximum folded from minus infinity.
  Layer by layer, each of its arrays at row `i` and column `j` is the corresponding matrix of `Cert.Spec` there: a
  matrix product is the sum over the contracted coordinate, a bias is read at the column, the concatenation reads its
  first operand on the columns below 128 and its second from column 128 on, so that the product with the 256 rows of
  `W3` splits into the products with its first and its last 128 rows, the row maximum is the fold of `max` from `⊥`
  over the row, and the row sum starts from zero.
-/
import proofs.«166610_g58128087384883_cont_9to1_m_409_2_alg».proof.Proof.Ref.ReadP
import proofs.«166610_g58128087384883_cont_9to1_m_409_2_alg».proof.Proof.Cur
import proofs.«166610_g58128087384883_cont_9to1_m_409_2_alg».proof.Proof.Spec
import Idealize.ShloMosaic.Lib.Pipeline.Value
import Idealize.ShloMosaic.Lib.ValueIdx
import Idealize.ShloMosaic.PureOps.Reduce
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.ReadP Cert.Spec
open Idealize.ShloMosaic Idealize.ShloMosaic.ValueIdx Idealize.ShloMosaic.TcCoe Idealize.SL.Sem
open scoped BigOperators

/-! ## Small facts -/

/-- The pattern of minus infinity denotes `⊥`. -/
theorem ofBits_neg_inf : Ideal.ofBits .f32 0xFF800000#32 = ⊥ := by simp [Ideal.ofBits, Ideal.ieee]

/-- A sum over 256 coordinates is the sum over the first 128 plus the sum over the last 128. -/
theorem sum_split256 (f : Fin 256 → EReal) :
    ∑ k : Fin 256, f k
      = ∑ k : Fin 128, f ⟨k.val, Nat.lt_of_lt_of_le k.isLt (by decide)⟩
        + ∑ k : Fin 128, f ⟨128 + k.val, Nat.add_lt_add_left k.isLt 128⟩ :=
  Fin.sum_univ_add (a := 128) (b := 128) f

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S256x64, .f32⟩ : BufTy).Contents (Elt Ideal)) (x9 : (⟨S64, .f32⟩ : BufTy).Contents (Elt Ideal))

/-! ## The first hidden layer -/

/-- `x · W` at row `i`, column `j`. -/
theorem v0_at (i : Fin 10000) (j : Fin 128) :
    val_main_v0 (F := Ideal) x0 x2 (ix2 i j) = mm (cur2 x0) (cur2 x2) i j := by
  rw [val_main_v0_apply]
  show _ = ∑ k : Fin 128, cur2 x0 i k * cur2 x2 k j
  refine Finset.sum_congr rfl fun k _ => ?_
  rw [show lidx_main_v0 (ix2 i j) k = ix2 i k from funext fun a => match a with | ⟨0, _⟩ => rfl | ⟨1, _⟩ => rfl,
    show ridx_main_v0 (ix2 i j) k = ix2 k j from funext fun a => match a with | ⟨0, _⟩ => rfl | ⟨1, _⟩ => rfl]
  rfl

/-- The bias `b` broadcast down the rows, at row `i`, column `j`. -/
theorem v2_at (i : Fin 10000) (j : Fin 128) : val_main_v2 (F := Ideal) x3 (ix2 i j) = cur1 x3 j := by
  rw [val_main_v2_apply, val_main_v1_apply]
  exact congrArg x3 (funext fun a => match a with | ⟨0, _⟩ => rfl)

/-- `x · W1` at row `i`, column `j`. -/
theorem v4_at (i : Fin 10000) (j : Fin 128) :
    val_main_v4 (F := Ideal) x0 x4 (ix2 i j) = mm (cur2 x0) (cur2 x4) i j := by
  rw [val_main_v4_apply]
  show _ = ∑ k : Fin 128, cur2 x0 i k * cur2 x4 k j
  refine Finset.sum_congr rfl fun k _ => ?_
  rw [show lidx_main_v4 (ix2 i j) k = ix2 i k from funext fun a => match a with | ⟨0, _⟩ => rfl | ⟨1, _⟩ => rfl,
    show ridx_main_v4 (ix2 i j) k = ix2 k j from funext fun a => match a with | ⟨0, _⟩ => rfl | ⟨1, _⟩ => rfl]
  rfl

/-- `adj · (x · W1)` at row `i`, column `j`. -/
theorem v5_at (i : Fin 10000) (j : Fin 128) :
    val_main_v5 (F := Ideal) x0 x1 x4 (ix2 i j) = mm (cur2 x1) (mm (cur2 x0) (cur2 x4)) i j := by
  rw [val_main_v5_apply]
  show _ = ∑ k : Fin 10000, cur2 x1 i k * mm (cur2 x0) (cur2 x4) k j
  refine Finset.sum_congr rfl fun k _ => ?_
  rw [show lidx_main_v5 (ix2 i j) k = ix2 i k from funext fun a => match a with | ⟨0, _⟩ => rfl | ⟨1, _⟩ => rfl,
    show ridx_main_v5 (ix2 i j) k = ix2 k j from funext fun a => match a with | ⟨0, _⟩ => rfl | ⟨1, _⟩ => rfl,
    v4_at]
  rfl

/-- The bias `b1` broadcast down the rows, at row `i`, column `j`. -/
theorem v7_at (i : Fin 10000) (j : Fin 128) : val_main_v7 (F := Ideal) x5 (ix2 i j) = cur1 x5 j := by
  rw [val_main_v7_apply, val_main_v6_apply]
  exact congrArg x5 (funext fun a => match a with | ⟨0, _⟩ => rfl)

/-- The first rectifier's zero, at every index. -/
theorem call0_at (i : S10000x128.Idx) : val_main_call0_v0 (F := Ideal) i = 0 := by
  rw [val_main_call0_v0_apply, val_main_call0_cst_apply]
  exact Ideal.ofBits_zero_f32

/-- The first hidden layer at row `i`, column `j`. -/
theorem v10_at (i : Fin 10000) (j : Fin 128) :
    val_main_v10 (F := Ideal) x0 x1 x2 x3 x4 x5 (ix2 i j)
      = hidden1 (cur2 x1) (cur2 x0) (cur2 x2) (cur2 x4) (cur1 x3) (cur1 x5) i j := by
  rw [val_main_v10_apply, val_main_v9_apply, val_main_v8_apply, val_main_v3_apply, v5_at, v7_at, call0_at, v0_at, v2_at]
  rfl

/-! ## The second hidden layer -/

/-- `h1 · W2` at row `i`, column `j`. -/
theorem v11_at (i : Fin 10000) (j : Fin 128) :
    val_main_v11 (F := Ideal) x0 x1 x2 x3 x4 x5 x6 (ix2 i j)
      = mm (hidden1 (cur2 x1) (cur2 x0) (cur2 x2) (cur2 x4) (cur1 x3) (cur1 x5)) (cur2 x6) i j := by
  rw [val_main_v11_apply]
  show _ = ∑ k : Fin 128, hidden1 (cur2 x1) (cur2 x0) (cur2 x2) (cur2 x4) (cur1 x3) (cur1 x5) i k * cur2 x6 k j
  refine Finset.sum_congr rfl fun k _ => ?_
  rw [show lidx_main_v11 (ix2 i j) k = ix2 i k from funext fun a => match a with | ⟨0, _⟩ => rfl | ⟨1, _⟩ => rfl,
    show ridx_main_v11 (ix2 i j) k = ix2 k j from funext fun a => match a with | ⟨0, _⟩ => rfl | ⟨1, _⟩ => rfl,
    v10_at]
  rfl

/-- `adj · (h1 · W2)` at row `i`, column `j`. -/
theorem v12_at (i : Fin 10000) (j : Fin 128) :
    val_main_v12 (F := Ideal) x0 x1 x2 x3 x4 x5 x6 (ix2 i j)
      = mm (cur2 x1) (mm (hidden1 (cur2 x1) (cur2 x0) (cur2 x2) (cur2 x4) (cur1 x3) (cur1 x5)) (cur2 x6)) i j := by
  rw [val_main_v12_apply]
  show _ = ∑ k : Fin 10000, cur2 x1 i k
      * mm (hidden1 (cur2 x1) (cur2 x0) (cur2 x2) (cur2 x4) (cur1 x3) (cur1 x5)) (cur2 x6) k j
  refine Finset.sum_congr rfl fun k _ => ?_
  rw [show lidx_main_v12 (ix2 i j) k = ix2 i k from funext fun a => match a with | ⟨0, _⟩ => rfl | ⟨1, _⟩ => rfl,
    show ridx_main_v12 (ix2 i j) k = ix2 k j from funext fun a => match a with | ⟨0, _⟩ => rfl | ⟨1, _⟩ => rfl,
    v11_at]
  rfl

/-- The bias `b2` broadcast down the rows, at row `i`, column `j`. -/
theorem v14_at (i : Fin 10000) (j : Fin 128) : val_main_v14 (F := Ideal) x7 (ix2 i j) = cur1 x7 j := by
  rw [val_main_v14_apply, val_main_v13_apply]
  exact congrArg x7 (funext fun a => match a with | ⟨0, _⟩ => rfl)

/-- The second rectifier's zero, at every index. -/
theorem call1_at (i : S10000x128.Idx) : val_main_call1_v0 (F := Ideal) i = 0 := by
  rw [val_main_call1_v0_apply, val_main_call1_cst_apply]
  exact Ideal.ofBits_zero_f32

/-- The second hidden layer at row `i`, column `j`. -/
theorem v17_at (i : Fin 10000) (j : Fin 128) :
    val_main_v17 (F := Ideal) x0 x1 x2 x3 x4 x5 x6 x7 (ix2 i j)
      = hidden2R (cur2 x1) (hidden1 (cur2 x1) (cur2 x0) (cur2 x2) (cur2 x4) (cur1 x3) (cur1 x5)) (cur2 x6) (cur1 x7) i j := by
  rw [val_main_v17_apply, val_main_v16_apply, val_main_v15_apply, v12_at, v14_at, call1_at, v10_at]
  rfl

/-! ## The concatenation and the last layer -/

/-- The concatenation `[h2 | h1]` on a column below 128 is `h2` there. -/
theorem v18_left (i : Fin 10000) (k : Fin 128) :
    val_main_v18 (F := Ideal) x0 x1 x2 x3 x4 x5 x6 x7 (ix2 i (⟨k.val, Nat.lt_of_lt_of_le k.isLt (by decide)⟩ : Fin 256))
      = val_main_v17 (F := Ideal) x0 x1 x2 x3 x4 x5 x6 x7 (ix2 i k) := by
  unfold val_main_v18
  exact concatenate_pair_apply_left (1 : Fin S10000x256.rank) _ _ concatenates_S10000x128_S10000x128_S10000x256_d1 _ rfl
    (ix2 i k) (fun b => match b with | ⟨0, _⟩ => rfl | ⟨1, _⟩ => rfl)

/-- The concatenation `[h2 | h1]` on column `128 + k` is `h1` on column `k`. -/
theorem v18_right (i : Fin 10000) (k : Fin 128) :
    val_main_v18 (F := Ideal) x0 x1 x2 x3 x4 x5 x6 x7 (ix2 i (⟨128 + k.val, Nat.add_lt_add_left k.isLt 128⟩ : Fin 256))
      = val_main_v10 (F := Ideal) x0 x1 x2 x3 x4 x5 (ix2 i k) := by
  unfold val_main_v18
  exact concatenate_pair_apply_right (1 : Fin S10000x256.rank) _ _ concatenates_S10000x128_S10000x128_S10000x256_d1 _ rfl rfl
    (ix2 i k) (fun b => match b with | ⟨0, _⟩ => fun _ => rfl | ⟨1, _⟩ => fun h => absurd rfl h)
    (Nat.add_comm k.val 128)

/-- `[h2 | h1] · W3` at row `i`, column `l`: `h2` times the first 128 rows of `W3` plus `h1` times the last 128. -/
theorem v19_at (i : Fin 10000) (l : Fin 64) :
    val_main_v19 (F := Ideal) x0 x1 x2 x3 x4 x5 x6 x7 x8 (ix2 i l)
      = mix (hidden2R (cur2 x1) (hidden1 (cur2 x1) (cur2 x0) (cur2 x2) (cur2 x4) (cur1 x3) (cur1 x5)) (cur2 x6) (cur1 x7))
          (hidden1 (cur2 x1) (cur2 x0) (cur2 x2) (cur2 x4) (cur1 x3) (cur1 x5)) (top (cur2 x8)) (bot (cur2 x8)) i l := by
  rw [val_main_v19_apply, sum_split256]
  show _ = (∑ k : Fin 128, hidden2R (cur2 x1) (hidden1 (cur2 x1) (cur2 x0) (cur2 x2) (cur2 x4) (cur1 x3) (cur1 x5))
        (cur2 x6) (cur1 x7) i k * top (cur2 x8) k l)
      + ∑ k : Fin 128, hidden1 (cur2 x1) (cur2 x0) (cur2 x2) (cur2 x4) (cur1 x3) (cur1 x5) i k * bot (cur2 x8) k l
  congr 1
  · refine Finset.sum_congr rfl fun k _ => ?_
    rw [show lidx_main_v19 (ix2 i l) (⟨k.val, Nat.lt_of_lt_of_le k.isLt (by decide)⟩ : Fin 256)
          = ix2 i (⟨k.val, Nat.lt_of_lt_of_le k.isLt (by decide)⟩ : Fin 256)
        from funext fun a => match a with | ⟨0, _⟩ => rfl | ⟨1, _⟩ => rfl,
      show ridx_main_v19 (ix2 i l) (⟨k.val, Nat.lt_of_lt_of_le k.isLt (by decide)⟩ : Fin 256)
          = ix2 (⟨k.val, Nat.lt_of_lt_of_le k.isLt (by decide)⟩ : Fin 256) l
        from funext fun a => match a with | ⟨0, _⟩ => rfl | ⟨1, _⟩ => rfl,
      v18_left, v17_at]
    rfl
  · refine Finset.sum_congr rfl fun k _ => ?_
    rw [show lidx_main_v19 (ix2 i l) (⟨128 + k.val, Nat.add_lt_add_left k.isLt 128⟩ : Fin 256)
          = ix2 i (⟨128 + k.val, Nat.add_lt_add_left k.isLt 128⟩ : Fin 256)
        from funext fun a => match a with | ⟨0, _⟩ => rfl | ⟨1, _⟩ => rfl,
      show ridx_main_v19 (ix2 i l) (⟨128 + k.val, Nat.add_lt_add_left k.isLt 128⟩ : Fin 256)
          = ix2 (⟨128 + k.val, Nat.add_lt_add_left k.isLt 128⟩ : Fin 256) l
        from funext fun a => match a with | ⟨0, _⟩ => rfl | ⟨1, _⟩ => rfl,
      v18_right, v10_at]
    rfl

/-- The bias `b3` broadcast down the rows, at row `i`, column `l`. -/
theorem v22_at (i : Fin 10000) (l : Fin 64) : val_main_v22 (F := Ideal) x9 (ix2 i l) = cur1 x9 l := by
  rw [val_main_v22_apply, val_main_v21_apply]
  exact congrArg x9 (funext fun a => match a with | ⟨0, _⟩ => rfl)

/-- The logits of the argument arrays. -/
abbrev Z : Fin 10000 → Fin 64 → EReal :=
  logits (cur2 x1)
    (mix (hidden2R (cur2 x1) (hidden1 (cur2 x1) (cur2 x0) (cur2 x2) (cur2 x4) (cur1 x3) (cur1 x5)) (cur2 x6) (cur1 x7))
      (hidden1 (cur2 x1) (cur2 x0) (cur2 x2) (cur2 x4) (cur1 x3) (cur1 x5)) (top (cur2 x8)) (bot (cur2 x8)))
    (cur1 x9)

/-- The logits `adj · u + b3` at row `i`, column `l`. -/
theorem v23_at (i : Fin 10000) (l : Fin 64) :
    val_main_v23 (F := Ideal) x0 x1 x2 x3 x4 x5 x6 x7 x8 x9 (ix2 i l) = Z x0 x1 x2 x3 x4 x5 x6 x7 x8 x9 i l := by
  rw [val_main_v23_apply, v22_at, val_main_v20_apply]
  show _ + _ = (∑ k : Fin 10000, cur2 x1 i k
      * mix (hidden2R (cur2 x1) (hidden1 (cur2 x1) (cur2 x0) (cur2 x2) (cur2 x4) (cur1 x3) (cur1 x5)) (cur2 x6) (cur1 x7))
          (hidden1 (cur2 x1) (cur2 x0) (cur2 x2) (cur2 x4) (cur1 x3) (cur1 x5)) (top (cur2 x8)) (bot (cur2 x8)) k l)
    + cur1 x9 l
  congr 1
  refine Finset.sum_congr rfl fun k _ => ?_
  rw [show lidx_main_v20 (ix2 i l) k = ix2 i k from funext fun a => match a with | ⟨0, _⟩ => rfl | ⟨1, _⟩ => rfl,
    show ridx_main_v20 (ix2 i l) k = ix2 k l from funext fun a => match a with | ⟨0, _⟩ => rfl | ⟨1, _⟩ => rfl,
    v19_at]
  rfl

/-! ## The log-softmax -/

/-- The reduced index `i` with the column `k` put back is row `i`, column `k`. -/
theorem lift_row (h : S10000x64.Reduces [1] S10000) (i : Fin 10000) (k : Fin (S10000x64.size 1)) :
    h.lift (ix1 i) k = ix2 i (⟨k.val, k.isLt⟩ : Fin 64) := by
  funext c
  match c with
  | ⟨0, _⟩ => exact Fin.ext rfl
  | ⟨1, _⟩ => exact Fin.ext rfl

/-- The row maximum: the fold of `max` from minus infinity over row `i` of the logits. -/
theorem call2_v0_at (i : Fin 10000) :
    val_main_call2_v0 (F := Ideal) x0 x1 x2 x3 x4 x5 x6 x7 x8 x9 (ix1 i) = rowMax (Z x0 x1 x2 x3 x4 x5 x6 x7 x8 x9) i := by
  unfold val_main_call2_v0
  have h : S10000x64.Reduces [1] S10000 := by decide
  rw [Host.reduce_eq_fold_single FloatOps.maximumf _ _ reducesTo_S10000x64_S10000_d1 h h_S_, val_main_call2_cst_apply]
  have hf : (val_main_v23 (F := Ideal) x0 x1 x2 x3 x4 x5 x6 x7 x8 x9 ∘ h.lift (ix1 i))
      = fun k : Fin 64 => Z x0 x1 x2 x3 x4 x5 x6 x7 x8 x9 i k :=
    funext fun k => by
      show val_main_v23 (F := Ideal) x0 x1 x2 x3 x4 x5 x6 x7 x8 x9 (h.lift (ix1 i) k) = _
      rw [lift_row h i k, v23_at]
      rfl
  rw [hf]
  show Finset.fold max (Ideal.ofBits .f32 0xFF800000#32) _ _ = _
  rw [ofBits_neg_inf]
  rfl

/-- The maximum with minus infinity changes nothing. -/
theorem call2_v2_at (i : Fin 10000) :
    val_main_call2_v2 (F := Ideal) x0 x1 x2 x3 x4 x5 x6 x7 x8 x9 (ix1 i) = rowMax (Z x0 x1 x2 x3 x4 x5 x6 x7 x8 x9) i := by
  rw [val_main_call2_v2_apply, val_main_call2_v1_apply, val_main_call2_cst_0_apply, call2_v0_at]
  show max (Ideal.ofBits .f32 0xFF800000#32) _ = _
  rw [ofBits_neg_inf]
  exact max_eq_right bot_le

/-- The logits shifted by their row's maximum, at row `i`, column `l`. -/
theorem call2_v5_at (i : Fin 10000) (l : Fin 64) :
    val_main_call2_v5 (F := Ideal) x0 x1 x2 x3 x4 x5 x6 x7 x8 x9 (ix2 i l)
      = Z x0 x1 x2 x3 x4 x5 x6 x7 x8 x9 i l - rowMax (Z x0 x1 x2 x3 x4 x5 x6 x7 x8 x9) i := by
  rw [val_main_call2_v5_apply, val_main_call2_v4_apply, val_main_call2_v3_apply, v23_at,
    show idx_main_call2_v3 (idx_main_call2_v4 (ix2 i l)) = ix1 i from funext fun a => match a with | ⟨0, _⟩ => rfl,
    call2_v2_at]
  rfl

/-- The row's sum of exponentials, from zero. -/
theorem call2_v7_at (i : Fin 10000) :
    val_main_call2_v7 (F := Ideal) x0 x1 x2 x3 x4 x5 x6 x7 x8 x9 (ix1 i) = rowSumExp (Z x0 x1 x2 x3 x4 x5 x6 x7 x8 x9) i := by
  rw [val_main_call2_v7_apply, val_main_call2_cst_1_apply]
  show Ideal.ofBits .f32 0x00000000#32 + _ = _
  rw [Ideal.ofBits_zero_f32, zero_add]
  show _ = ∑ l : Fin 64, Ideal.exp (Z x0 x1 x2 x3 x4 x5 x6 x7 x8 x9 i l - rowMax (Z x0 x1 x2 x3 x4 x5 x6 x7 x8 x9) i)
  refine Finset.sum_congr rfl fun k _ => ?_
  rw [show idx_main_call2_v7 (ix1 i) k = ix2 i k from funext fun a => match a with | ⟨0, _⟩ => rfl | ⟨1, _⟩ => rfl,
    val_main_call2_v6_apply, call2_v5_at]
  rfl

/-- The reference's result at row `i`, column `l`. -/
theorem v24_at (i : Fin 10000) (l : Fin 64) :
    val_main_v24 (F := Ideal) x0 x1 x2 x3 x4 x5 x6 x7 x8 x9 (ix2 i l)
      = logSoftmaxR (Z x0 x1 x2 x3 x4 x5 x6 x7 x8 x9) i l := by
  rw [val_main_v24_apply, call2_v5_at, val_main_call2_v10_apply, val_main_call2_v9_apply, val_main_call2_v8_apply,
    show idx_main_call2_v8 (idx_main_call2_v10 (ix2 i l)) = ix1 i from funext fun a => match a with | ⟨0, _⟩ => rfl,
    call2_v7_at]
  rfl

/-! ## The result -/

open Cert.ReferenceIdeal Cert.Spec in
/-- The reference's result, read by row and column, is the network with the second layer grouped `adj · (h1 · W2)`
    and the log-softmax spelt `(z - m) - log s`, of the argument arrays. -/
theorem ref_value (m : (ℓ : Loc nD τ sig) → Buf (Elt Ideal) ℓ) (c : Dev nD) :
    cur2 (Cert.ReferenceIdeal.ValueP.res_main_v24 (F := Ideal) m c)
      = netR (cur2 (m ((c.tc : Thread nD τ).loc main_arg1))) (cur2 (m ((c.tc : Thread nD τ).loc main_arg0)))
          (cur2 (m ((c.tc : Thread nD τ).loc main_arg2))) (cur2 (m ((c.tc : Thread nD τ).loc main_arg4)))
          (cur1 (m ((c.tc : Thread nD τ).loc main_arg3))) (cur1 (m ((c.tc : Thread nD τ).loc main_arg5)))
          (cur2 (m ((c.tc : Thread nD τ).loc main_arg6))) (cur1 (m ((c.tc : Thread nD τ).loc main_arg7)))
          (top (cur2 (m ((c.tc : Thread nD τ).loc main_arg8)))) (bot (cur2 (m ((c.tc : Thread nD τ).loc main_arg8))))
          (cur1 (m ((c.tc : Thread nD τ).loc main_arg9))) := by
  rw [val_main_v24_eq]
  funext i l
  exact v24_at _ _ _ _ _ _ _ _ _ _ i l

end Cert.ReferenceIdeal.RefValue

end
-- ==== Proof.Algebra.lean ====
/-
  The two spellings of the network agree on matrices of real numbers.

  Two facts are used.  The product of matrices of real numbers, taken in the extended reals, is the product taken
  in the reals, so it is associative and its entries are real numbers; hence every layer up to the logits has real
  entries and the two groupings of the triple product agree.  And for real numbers `r, t` and ANY extended real `L`,
  `r - (L + t) = (r - t) - L`: both sides are `⊤` at `L = ⊥`, `⊥` at `L = ⊤`, and the same real number otherwise.
-/
import proofs.«166610_g58128087384883_cont_9to1_m_409_2_alg».proof.Proof.Spec
import Mathlib.Data.EReal.Basic
import Mathlib.Data.EReal.Operations
import Mathlib.Data.Finset.Lattice.Fold
import Mathlib.Algebra.BigOperators.Ring.Finset

noncomputable section

namespace Cert.Spec

open Idealize.ShloMosaic
open scoped BigOperators

/-- A finite sum of real numbers read in the extended reals is the sum taken in the reals. -/
theorem coe_sum {K : Type} (s : Finset K) (f : K → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The larger of a real number and zero, taken in the extended reals, is the real number `max r 0`. -/
theorem max_coe_zero (r : ℝ) : max (r : EReal) 0 = ((max r 0 : ℝ) : EReal) := by
  rw [← EReal.coe_zero]
  exact (EReal.coe_strictMono.monotone.map_max).symm

/-- A matrix with real entries is the entrywise coercion of a matrix of real numbers. -/
theorem Real2.exists_fun {A B : Type} {P : A → B → EReal} (h : Real2 P) :
    ∃ p : A → B → ℝ, P = fun a b => (p a b : EReal) := by
  choose p hp using h
  exact ⟨p, funext fun a => funext fun b => hp a b⟩

/-- The product of two matrices of real numbers is the matrix of the sums of products taken in the reals. -/
theorem mm_coe {A K B : Type} [Fintype K] (p : A → K → ℝ) (q : K → B → ℝ) :
    mm (fun a k => (p a k : EReal)) (fun k b => (q k b : EReal))
      = fun a b => ((∑ k, p a k * q k b : ℝ) : EReal) := by
  funext a b
  simp only [mm, ← EReal.coe_mul]
  exact coe_sum _ _

/-- The product of two matrices with real entries has real entries. -/
theorem real2_mm {A K B : Type} [Fintype K] {P : A → K → EReal} {Q : K → B → EReal}
    (hP : Real2 P) (hQ : Real2 Q) : Real2 (mm P Q) := by
  obtain ⟨p, rfl⟩ := hP.exists_fun
  obtain ⟨q, rfl⟩ := hQ.exists_fun
  rw [mm_coe]
  exact fun a b => ⟨_, rfl⟩

/-- The product of matrices with real entries is associative: `Σ_k (Σ_j a_ij h_jk) w_kl = Σ_j a_ij (Σ_k h_jk w_kl)`. -/
theorem mm_assoc {A J K B : Type} [Fintype J] [Fintype K] {P : A → J → EReal} {Q : J → K → EReal}
    {R : K → B → EReal} (hP : Real2 P) (hQ : Real2 Q) (hR : Real2 R) :
    mm (mm P Q) R = mm P (mm Q R) := by
  obtain ⟨p, rfl⟩ := hP.exists_fun
  obtain ⟨q, rfl⟩ := hQ.exists_fun
  obtain ⟨r, rfl⟩ := hR.exists_fun
  rw [mm_coe p q, mm_coe q r, mm_coe, mm_coe]
  funext a b
  congr 1
  simp only [Finset.sum_mul, Finset.mul_sum, mul_assoc]
  exact Finset.sum_comm

/-- `relu (s + c) + (t + d)` is a real number when `s, c, t, d` are. -/
theorem real_relu_add {s c t d : EReal} (hs : ∃ r : ℝ, s = r) (hc : ∃ r : ℝ, c = r) (ht : ∃ r : ℝ, t = r)
    (hd : ∃ r : ℝ, d = r) : ∃ r : ℝ, max (s + c) 0 + (t + d) = r := by
  obtain ⟨s, rfl⟩ := hs
  obtain ⟨c, rfl⟩ := hc
  obtain ⟨t, rfl⟩ := ht
  obtain ⟨d, rfl⟩ := hd
  exact ⟨max (s + c) 0 + (t + d), by rw [← EReal.coe_add, ← EReal.coe_add, max_coe_zero, ← EReal.coe_add]⟩

/-- `relu (s + c) + t` is a real number when `s, c, t` are. -/
theorem real_relu_add' {s c t : EReal} (hs : ∃ r : ℝ, s = r) (hc : ∃ r : ℝ, c = r) (ht : ∃ r : ℝ, t = r) :
    ∃ r : ℝ, max (s + c) 0 + t = r := by
  obtain ⟨s, rfl⟩ := hs
  obtain ⟨c, rfl⟩ := hc
  obtain ⟨t, rfl⟩ := ht
  exact ⟨max (s + c) 0 + t, by rw [← EReal.coe_add, max_coe_zero, ← EReal.coe_add]⟩

/-- The sum of two real numbers is a real number. -/
theorem real_add {s t : EReal} (hs : ∃ r : ℝ, s = r) (ht : ∃ r : ℝ, t = r) : ∃ r : ℝ, s + t = r := by
  obtain ⟨s, rfl⟩ := hs
  obtain ⟨t, rfl⟩ := ht
  exact ⟨s + t, (EReal.coe_add s t).symm⟩

/-- The first hidden layer over real inputs has real entries. -/
theorem real2_layer1 {I Fe H : Type} [Fintype I] [Fintype Fe] [Fintype H] {adj : I → I → EReal} {t1 : I → H → EReal}
    {x : I → Fe → EReal} {W : Fe → H → EReal} {b b1 : H → EReal} (hadj : Real2 adj) (ht1 : Real2 t1) (hx : Real2 x)
    (hW : Real2 W) (hb : Real1 b) (hb1 : Real1 b1) : Real2 (layer1 adj t1 x W b b1) :=
  fun i j => real_relu_add (real2_mm hadj ht1 i j) (hb1 j) (real2_mm hx hW i j) (hb j)

/-- On real inputs the two groupings of the second layer's triple product give the same layer. -/
theorem hidden2L_eq_hidden2R {I H : Type} [Fintype I] [Fintype H] {adj : I → I → EReal} {h1 : I → H → EReal}
    {W2 : H → H → EReal} (b2 : H → EReal) (hadj : Real2 adj) (hh1 : Real2 h1) (hW2 : Real2 W2) :
    hidden2L adj h1 W2 b2 = hidden2R adj h1 W2 b2 := by
  unfold hidden2L hidden2R
  rw [mm_assoc hadj hh1 hW2]

/-- The second hidden layer over real inputs has real entries. -/
theorem real2_hidden2R {I H : Type} [Fintype I] [Fintype H] {adj : I → I → EReal} {h1 : I → H → EReal}
    {W2 : H → H → EReal} {b2 : H → EReal} (hadj : Real2 adj) (hh1 : Real2 h1) (hW2 : Real2 W2) (hb2 : Real1 b2) :
    Real2 (hidden2R adj h1 W2 b2) :=
  fun i j => real_relu_add' (real2_mm hadj (real2_mm hh1 hW2) i j) (hb2 j) (hh1 i j)

/-- `h2 · Wa + h1 · Wb` has real entries when the four matrices do. -/
theorem real2_mix {I H C : Type} [Fintype I] [Fintype H] [Fintype C] {h2 h1 : I → H → EReal} {Wa Wb : H → C → EReal}
    (hh2 : Real2 h2) (hh1 : Real2 h1) (hWa : Real2 Wa) (hWb : Real2 Wb) : Real2 (mix h2 h1 Wa Wb) :=
  fun i l => real_add (real2_mm hh2 hWa i l) (real2_mm hh1 hWb i l)

/-- The logits `adj · u + b3` are real numbers when `adj`, `u` and `b3` are. -/
theorem real2_logits {I C : Type} [Fintype I] [Fintype C] {adj : I → I → EReal} {u : I → C → EReal} {b3 : C → EReal}
    (hadj : Real2 adj) (hu : Real2 u) (hb3 : Real1 b3) : Real2 (logits adj u b3) :=
  fun i l => real_add (real2_mm hadj hu i l) (hb3 l)

/-- The maximum of a row of real numbers over a nonempty finite index set is one of its entries, so a real number. -/
theorem real_rowMax {I C : Type} [Fintype I] [Fintype C] [Nonempty C] {z : I → C → EReal} (hz : Real2 z) (i : I) :
    ∃ r : ℝ, rowMax z i = r := by
  have h : rowMax z i = (Finset.univ : Finset C).sup (z i) := rfl
  obtain ⟨l, -, hl⟩ := Finset.exists_mem_eq_sup (Finset.univ : Finset C) Finset.univ_nonempty (z i)
  obtain ⟨r, hr⟩ := hz i l
  exact ⟨r, by rw [h, hl, hr]⟩

/-- For real numbers `r, t` and any extended real `L`: `r - (L + t) = (r - t) - L`. -/
theorem sub_add_eq_sub_sub_real (r t : ℝ) (L : EReal) : (r : EReal) - (L + t) = ((r : EReal) - t) - L := by
  induction L using EReal.rec with
  | bot => rw [EReal.bot_add, ← EReal.coe_sub, EReal.coe_sub_bot, EReal.coe_sub_bot]
  | top => rw [EReal.top_add_coe, EReal.sub_top, EReal.sub_top]
  | coe c =>
    rw [← EReal.coe_add, ← EReal.coe_sub, ← EReal.coe_sub, ← EReal.coe_sub]
    congr 1
    ring

/-- On logits that are real numbers the two spellings of the log-softmax agree. -/
theorem logSoftmaxL_eq_logSoftmaxR {I C : Type} [Fintype I] [Fintype C] [Nonempty C] {z : I → C → EReal}
    (hz : Real2 z) : logSoftmaxL z = logSoftmaxR z := by
  funext i l
  obtain ⟨r, hr⟩ := hz i l
  obtain ⟨t, ht⟩ := real_rowMax hz i
  simp only [logSoftmaxL, logSoftmaxR]
  rw [hr, ht]
  exact sub_add_eq_sub_sub_real r t _

/-- On real inputs the two spellings of the whole network agree. -/
theorem netL_eq_netR {I Fe H C : Type} [Fintype I] [Fintype Fe] [Fintype H] [Fintype C] [Nonempty C]
    {adj : I → I → EReal} {x : I → Fe → EReal} {W W1 : Fe → H → EReal} {b b1 : H → EReal} {W2 : H → H → EReal}
    {b2 : H → EReal} {Wa Wb : H → C → EReal} {b3 : C → EReal}
    (hadj : Real2 adj) (hx : Real2 x) (hW : Real2 W) (hW1 : Real2 W1) (hb : Real1 b) (hb1 : Real1 b1) (hW2 : Real2 W2)
    (hb2 : Real1 b2) (hWa : Real2 Wa) (hWb : Real2 Wb) (hb3 : Real1 b3) :
    netL adj x W W1 b b1 W2 b2 Wa Wb b3 = netR adj x W W1 b b1 W2 b2 Wa Wb b3 := by
  have hh1 : Real2 (hidden1 adj x W W1 b b1) := real2_layer1 hadj (real2_mm hx hW1) hx hW hb hb1
  have hh2 : Real2 (hidden2R adj (hidden1 adj x W W1 b b1) W2 b2) := real2_hidden2R hadj hh1 hW2 hb2
  unfold netL netR
  rw [hidden2L_eq_hidden2R b2 hadj hh1 hW2]
  exact logSoftmaxL_eq_logSoftmaxR (real2_logits hadj (real2_mix hh2 hh1 hWa hWb) hb3)

end Cert.Spec

end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.PreReal.lean ====
/-
  From the precondition "every float input is finite" to "every entry of every input is a real number".

  The precondition is the conjunction, over the ten argument arrays, of `all (|x| < +∞)`: the absolute value of every
  entry is compared with the word of the 32-bit format that denotes +∞, and the comparisons are reduced by `and` over
  all axes. Over the extended reals `|a| = max a (-a)`, which is +∞ at both infinities; so the comparison holds at an
  entry exactly when that entry is a real number.
-/
import proofs.«166610_g58128087384883_cont_9to1_m_409_2_alg».proof.Pre_finite_inputs
import proofs.«166610_g58128087384883_cont_9to1_m_409_2_alg».proof.Proof.Gen.Pre_finite_inputs
import proofs.«166610_g58128087384883_cont_9to1_m_409_2_alg».proof.Proof.LibAllReal
import proofs.«166610_g58128087384883_cont_9to1_m_409_2_alg».proof.Proof.Cur
import Idealize.ShloMosaic.Lib.ReduceAll
import Idealize.ShloMosaic.Lib.ValueIdx
import Idealize.ShloMosaic.PureOps.Ideal.Laws

noncomputable section

namespace Cert.Spec

open Idealize.ShloMosaic Idealize.ShloMosaic.ValueIdx

/-- The word `0x7F800000` of the 32-bit format denotes +∞. -/
theorem ofBits_f32_inf : Ideal.ofBits .f32 0x7F800000#32 = (⊤ : EReal) := by
  simp [Ideal.ofBits, Ideal.ieee]

/-- An extended real whose absolute value `max a (-a)` compares below +∞ is a real number: at either infinity the
    absolute value is +∞ itself. -/
theorem exists_real_of_abs_lt_inf (a : EReal)
    (h : Ideal.cmp .olt (max a (-a)) (Ideal.ofBits .f32 0x7F800000#32) = 1#1) : ∃ r : ℝ, a = (r : EReal) := by
  rw [ofBits_f32_inf] at h
  induction a using EReal.rec with
  | bot => simp [Ideal.cmp] at h
  | top => simp [Ideal.cmp] at h
  | coe r => exact ⟨r, rfl⟩

/-- One conjunct of the precondition: if the reduction by `and` over all axes of `|x| < +∞` is 1, every entry of `x`
    is a real number. -/
theorem allReal_of_all_abs_lt_inf {s t u c : Shape} [Subsingleton t.Idx] {axes : List (Fin s.rank)}
    {dims : Fin c.rank → Fin s.rank} (hb : c.BroadcastsInDim s dims) (x : FVec Ideal s .f32) (init : IVec u 1)
    (hr : s.ReducesTo axes t) (hu : 0 < u.numel) (j : t.Idx)
    (e : Host.reduce IntOp.andi
        (cmpf (F := Ideal) .olt (Host.absf (F := Ideal) x)
          (broadcastInDim s dims hb (constant (F := Ideal) c .f32 0x7F800000#32))) init hr hu j = 1#1) :
    AllReal x := by
  intro i
  exact exists_real_of_abs_lt_inf (x i) (Host.reduce_andi_all _ init hr hu j e i)

/-- The shape of rank zero has one index. -/
instance : Subsingleton Cert.Pre_finite_inputs.S_.Idx := ⟨fun a b => funext fun d => d.elim0⟩

open Cert.Pre_finite_inputs in
/-- Under the precondition every entry of every argument array is a real number. -/
theorem allReal_of_pre [Cert.Pre_finite_inputs.Facts]
    (a0 : FVec Ideal S10000x128 .f32) (a1 : FVec Ideal S10000x10000 .f32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S256x64 .f32) (a9 : FVec Ideal S64 .f32)
    (h : Cert.Pre_finite_inputs.fn (F := Ideal) a0 a1 a2 a3 a4 a5 a6 a7 a8 a9 = fun _ => 1#1) :
    AllReal a0 ∧ AllReal a1 ∧ AllReal a2 ∧ AllReal a3 ∧ AllReal a4 ∧ AllReal a5 ∧ AllReal a6 ∧ AllReal a7 ∧ AllReal a8 ∧ AllReal a9 := by
  have h0 := congrFun h ix0
  dsimp only [fn, fn_part1, fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all_abs_lt_inf _ a0 _ _ _ _ e0, allReal_of_all_abs_lt_inf _ a1 _ _ _ _ e1,
    allReal_of_all_abs_lt_inf _ a2 _ _ _ _ e2, allReal_of_all_abs_lt_inf _ a3 _ _ _ _ e3,
    allReal_of_all_abs_lt_inf _ a4 _ _ _ _ e4, allReal_of_all_abs_lt_inf _ a5 _ _ _ _ e5,
    allReal_of_all_abs_lt_inf _ a6 _ _ _ _ e6, allReal_of_all_abs_lt_inf _ a7 _ _ _ _ e7,
    allReal_of_all_abs_lt_inf _ a8 _ _ _ _ e8, allReal_of_all_abs_lt_inf _ a9 _ _ _ _ e9⟩

/-- A rank-2 array of reals, read by row and column, has only real entries. -/
theorem AllReal.cur2 {a b : Nat} {X : (⟨2, ![a, b]⟩ : Shape).Idx → EReal} (h : AllReal X) : Real2 (cur2 X) :=
  fun i j => h (ix2 i j)

/-- A rank-1 array of reals, read by its coordinate, has only real entries. -/
theorem AllReal.cur1 {a : Nat} {X : (⟨1, ![a]⟩ : Shape).Idx → EReal} (h : AllReal X) : Real1 (cur1 X) :=
  fun i => h (ix1 i)

/-- The first 128 rows of a matrix of reals are a matrix of reals. -/
theorem Real2.top {b : Nat} {X : Fin 256 → Fin b → EReal} (h : Real2 X) : Real2 (top X) :=
  fun k l => h _ l

/-- The last 128 rows of a matrix of reals are a matrix of reals. -/
theorem Real2.bot {b : Nat} {X : Fin 256 → Fin b → EReal} (h : Real2 X) : Real2 (bot X) :=
  fun k l => h _ l

end Cert.Spec

end
-- ==== Proof.lean ====
/-
  The certificate: a three-layer graph-convolution network with a row-wise log-softmax, computed by a kernel of four
  pallas_calls, against its plain reference.

  Both programs compute, from the adjacency matrix `adj`, the features `x`, weights `W, W1, W2, W3 = [Wa ; Wb]` and
  biases `b, b1, b2, b3`:  h1 = relu (adj · (x · W1) + b1) + (x · W + b);  h2 = relu (adj · h1 · W2 + b2) + h1;
  z = adj · ([h2 | h1] · W3) + b3;  out = log_softmax z along the rows. They differ in three places. The kernel groups the
  second layer's product `(adj · h1) · W2` where the reference has `adj · (h1 · W2)`: equal when every entry is a real
  number (distributivity fails at the infinities of the extended reals), which the precondition gives for the inputs
  and the closure of sums, products and maxima gives for everything computed from them. The kernel multiplies the
  concatenation `[h2 | h1]` with `W3` as `h2 · Wa + h1 · Wb`: a sum split in two, true over the extended reals as they
  are. And the kernel spells the log-softmax `z - (log s + m)` where the reference has `(z - m) - log s`, `m` the row's
  maximum and `s = Σ exp (z - m)`: equal when `z` and `m` are real, whatever `log s` is.

  The frames: each program runs to the end from any memory, faults nowhere, and leaves its arguments as launched. The
  kernel program's run is the launch over its segments (six host operations, then the four calls), read at the word
  level for the printed kernel and at the extended reals for its idealization; the reference's is its host
  operations' run. The idealization rewrote nothing, so it is the kernel's own text read over the extended reals.
-/
import proofs.«166610_g58128087384883_cont_9to1_m_409_2_alg».proof.Defs
import proofs.«166610_g58128087384883_cont_9to1_m_409_2_alg».proof.Proof.Gen.Kernel
import proofs.«166610_g58128087384883_cont_9to1_m_409_2_alg».proof.Proof.Gen.KernelIdeal
import proofs.«166610_g58128087384883_cont_9to1_m_409_2_alg».proof.Proof.Gen.ReferenceIdeal
import proofs.«166610_g58128087384883_cont_9to1_m_409_2_alg».proof.Proof.Gen.Pre_finite_inputs
import proofs.«166610_g58128087384883_cont_9to1_m_409_2_alg».proof.Proof.K.Run
import proofs.«166610_g58128087384883_cont_9to1_m_409_2_alg».proof.Proof.KI.Result
import proofs.«166610_g58128087384883_cont_9to1_m_409_2_alg».proof.Proof.Ref.Value
import proofs.«166610_g58128087384883_cont_9to1_m_409_2_alg».proof.Proof.Algebra
import proofs.«166610_g58128087384883_cont_9to1_m_409_2_alg».proof.Proof.PreReal
import Idealize.ShloMosaic.Adequacy
import Idealize.ShloMosaic.Init

set_option maxRecDepth 16384

noncomputable section

namespace Cert.Proof

open Idealize.ShloMosaic Idealize.SL.Sem Cert.Spec

/-- The printed kernel, read at the word level, runs and leaves its arguments as launched. -/
theorem frame_kernel : Cert.frame_Kernel := fun m ρ _ =>
  (θ_run Cert.Kernel.defs _ _).mono (fun _ h c => (h c).2) (Cert.Kernel.Frame.run_result (F := Bits) m ρ)

/-- The idealized kernel, read over the extended reals, runs and leaves its arguments as launched. -/
theorem frame_kernelIdeal : Cert.frame_KernelIdeal := fun m ρ _ =>
  (θ_run Cert.KernelIdeal.defs _ _).mono (fun _ h c => (h c).2) (Cert.KernelIdeal.Frame.run_result (F := Ideal) m ρ)

/-- The idealized reference runs and leaves its arguments as launched. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, all of them finite, the two idealized programs end with the same result:
    the kernel's is the network with the second layer grouped to the left and the log-softmax spelt
    `z - (log s + m)`, the reference's the network grouped to the right with `(z - m) - log s`, and the two networks agree
    on real inputs. -/
theorem algebraic : Cert.algebraic_KernelIdeal_ReferenceIdeal := by
  intro m ρ m' ρ' hpre hagree
  refine ⟨fun c => (Cert.KernelIdeal.Frame.dat3 (Cert.KernelIdeal.Frame.V4 m ρ) c).arrAt 3 Cert.KernelIdeal.cfg3.N,
    Cert.KernelIdeal.Frame.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  refine cur2_inj (a := 10000) (b := 64) ?_
  obtain ⟨e0, e1, e2, e3, e4, e5, e6, e7, e8, e9⟩ := hagree c
  obtain ⟨r0, r1, r2, r3, r4, r5, r6, r7, r8, r9⟩ := allReal_of_pre _ _ _ _ _ _ _ _ _ _ (hpre c)
  rw [Cert.ReferenceIdeal.RefValue.ref_value m' c, e0, e1, e2, e3, e4, e5, e6, e7, e8, e9]
  exact ((Cert.KernelIdeal.Frame.kernel_value m ρ c).trans
    (netL_eq_netR r1.cur2 r0.cur2 r2.cur2 r4.cur2 r3.cur1 r5.cur1 r6.cur2 r7.cur1 r8.cur2.top r8.cur2.bot r9.cur1)).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
